-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x22 : Shape := ⟨2, ![10000, 22]⟩
abbrev S80000 : Shape := ⟨1, ![80000]⟩
abbrev S22x1000 : Shape := ⟨2, ![22, 1000]⟩
abbrev S1000 : Shape := ⟨1, ![1000]⟩
abbrev S1000x1000 : Shape := ⟨2, ![1000, 1000]⟩
abbrev S1000x20 : Shape := ⟨2, ![1000, 20]⟩
abbrev S20 : Shape := ⟨1, ![20]⟩
abbrev S_ : Shape := ⟨0, ![]⟩

class Facts : Prop where
  bcast_S_S10000x22 : S_.BroadcastsInDim S10000x22 (![] : Fin 0 → Fin S10000x22.rank)
  reducesTo_S10000x22_S_d0_1 : S10000x22.ReducesTo [0, 1] S_
  h_S_ : 0 < S_.numel
  bcast_S_S22x1000 : S_.BroadcastsInDim S22x1000 (![] : Fin 0 → Fin S22x1000.rank)
  reducesTo_S22x1000_S_d0_1 : S22x1000.ReducesTo [0, 1] S_
  bcast_S_S1000 : S_.BroadcastsInDim S1000 (![] : Fin 0 → Fin S1000.rank)
  reducesTo_S1000_S_d0 : S1000.ReducesTo [0] S_
  bcast_S_S1000x1000 : S_.BroadcastsInDim S1000x1000 (![] : Fin 0 → Fin S1000x1000.rank)
  reducesTo_S1000x1000_S_d0_1 : S1000x1000.ReducesTo [0, 1] S_
  bcast_S_S1000x20 : S_.BroadcastsInDim S1000x20 (![] : Fin 0 → Fin S1000x20.rank)
  reducesTo_S1000x20_S_d0_1 : S1000x20.ReducesTo [0, 1] S_
  bcast_S_S20 : S_.BroadcastsInDim S20 (![] : Fin 0 → Fin S20.rank)
  reducesTo_S20_S_d0 : S20.ReducesTo [0] S_
  bcast_S_S80000 : S_.BroadcastsInDim S80000 (![] : Fin 0 → Fin S80000.rank)
  reducesTo_S80000_S_d0 : S80000.ReducesTo [0] S_

variable [Facts]

def fn_part3 {F : FTy → Type} [FloatOps F] (main_arg2 : IVec S80000 32) (main_v47 : IVec S_ 1) (main_v49 : IVec S80000 1) (main_c_19 : IVec S_ 1) : IVec S_ 1 :=
  let main_v50 : IVec S_ 1 := (fun x v => Host.reduce IntOp.andi x v reducesTo_S80000_S_d0 h_S_) main_v49 main_c_19
  let main_v51 : IVec S_ 1 := andi main_v47 main_v50
  let main_c_20 : IVec S_ 32 := constantI S_ 32 0#32
  let main_v52 : IVec S80000 32 := broadcastInDim S80000 ![] bcast_S_S80000 main_c_20
  let main_v53 : IVec S80000 1 := cmpi .sge main_arg2 main_v52
  let main_c_21 : IVec S_ 1 := constantI S_ 1 1#1
  let main_v54 : IVec S_ 1 := (fun x v => Host.reduce IntOp.andi x v reducesTo_S80000_S_d0 h_S_) main_v53 main_c_21
  let main_v55 : IVec S_ 1 := andi main_v51 main_v54
  let main_c_22 : IVec S_ 32 := constantI S_ 32 10000#32
  let main_v56 : IVec S80000 32 := broadcastInDim S80000 ![] bcast_S_S80000 main_c_22
  let main_v57 : IVec S80000 1 := cmpi .slt main_arg2 main_v56
  let main_c_23 : IVec S_ 1 := constantI S_ 1 1#1
  let main_v58 : IVec S_ 1 := (fun x v => Host.reduce IntOp.andi x v reducesTo_S80000_S_d0 h_S_) main_v57 main_c_23
  let main_v59 : IVec S_ 1 := andi main_v55 main_v58
  main_v59

def fn_part2 {F : FTy → Type} [FloatOps F] (main_arg1 : IVec S80000 32) (main_arg2 : IVec S80000 32) (main_arg9 : FVec F S1000x20 .f32) (main_arg10 : FVec F S20 .f32) (main_v33 : IVec S_ 1) : IVec S_ 1 :=
  let main_v34 : FVec F S1000x20 .f32 := Host.absf main_arg9
  let main_cst_12 : FVec F S_ .f32 := constant S_ .f32 0x7F800000#32
  let main_v35 : FVec F S1000x20 .f32 := broadcastInDim S1000x20 ![] bcast_S_S1000x20 main_cst_12
  let main_v36 : IVec S1000x20 1 := cmpf .olt main_v34 main_v35
  let main_c_13 : IVec S_ 1 := constantI S_ 1 1#1
  let main_v37 : IVec S_ 1 := (fun x v => Host.reduce IntOp.andi x v reducesTo_S1000x20_S_d0_1 h_S_) main_v36 main_c_13
  let main_v38 : IVec S_ 1 := andi main_v33 main_v37
  let main_v39 : FVec F S20 .f32 := Host.absf main_arg10
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_c_16 : IVec S_ 32 := constantI S_ 32 0#32
  let main_v44 : IVec S80000 32 := broadcastInDim S80000 ![] bcast_S_S80000 main_c_16
  let main_v45 : IVec S80000 1 := cmpi .sge main_arg1 main_v44
  let main_c_17 : IVec S_ 1 := constantI S_ 1 1#1
  let main_v46 : IVec S_ 1 := (fun x v => Host.reduce IntOp.andi x v reducesTo_S80000_S_d0 h_S_) main_v45 main_c_17
  let main_v47 : IVec S_ 1 := andi main_v43 main_v46
  let main_c_18 : IVec S_ 32 := constantI S_ 32 10000#32
  let main_v48 : IVec S80000 32 := broadcastInDim S80000 ![] bcast_S_S80000 main_c_18
  let main_v49 : IVec S80000 1 := cmpi .slt main_arg1 main_v48
  let main_c_19 : IVec S_ 1 := constantI S_ 1 1#1
  fn_part3 (F := F) main_arg2 main_v47 main_v49 main_c_19

def fn_part1 {F : FTy → Type} [FloatOps F] (main_arg1 : IVec S80000 32) (main_arg2 : IVec S80000 32) (main_arg6 : FVec F S1000 .f32) (main_arg7 : FVec F S1000x1000 .f32) (main_arg8 : FVec F S1000 .f32) (main_arg9 : FVec F S1000x20 .f32) (main_arg10 : FVec F S20 .f32) (main_v13 : IVec S_ 1) (main_v16 : IVec S1000x1000 1) : IVec S_ 1 :=
  let main_c_5 : IVec S_ 1 := constantI S_ 1 1#1
  let main_v17 : IVec S_ 1 := (fun x v => Host.reduce IntOp.andi x v reducesTo_S1000x1000_S_d0_1 h_S_) main_v16 main_c_5
  let main_v18 : IVec S_ 1 := andi main_v13 main_v17
  let main_v19 : FVec F S1000 .f32 := Host.absf main_arg6
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_v24 : FVec F S1000x1000 .f32 := Host.absf main_arg7
  let main_cst_8 : FVec F S_ .f32 := constant S_ .f32 0x7F800000#32
  let main_v25 : FVec F S1000x1000 .f32 := broadcastInDim S1000x1000 ![] bcast_S_S1000x1000 main_cst_8
  let main_v26 : IVec S1000x1000 1 := cmpf .olt main_v24 main_v25
  let main_c_9 : IVec S_ 1 := constantI S_ 1 1#1
  let main_v27 : IVec S_ 1 := (fun x v => Host.reduce IntOp.andi x v reducesTo_S1000x1000_S_d0_1 h_S_) main_v26 main_c_9
  let main_v28 : IVec S_ 1 := andi main_v23 main_v27
  let main_v29 : FVec F S1000 .f32 := Host.absf main_arg8
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  fn_part2 (F := F) main_arg1 main_arg2 main_arg9 main_arg10 main_v33

def fn {F : FTy → Type} [FloatOps F] (main_arg0 : FVec F S10000x22 .f32) (main_arg1 : IVec S80000 32) (main_arg2 : IVec S80000 32) (main_arg3 : FVec F S22x1000 .f32) (main_arg4 : FVec F S1000 .f32) (main_arg5 : FVec F S1000x1000 .f32) (main_arg6 : FVec F S1000 .f32) (main_arg7 : FVec F S1000x1000 .f32) (main_arg8 : FVec F S1000 .f32) (main_arg9 : FVec F S1000x20 .f32) (main_arg10 : FVec F S20 .f32) : IVec S_ 1 :=
  let main_v0 : FVec F S10000x22 .f32 := Host.absf main_arg0
  let main_cst : FVec F S_ .f32 := constant S_ .f32 0x7F800000#32
  let main_v1 : FVec F S10000x22 .f32 := broadcastInDim S10000x22 ![] bcast_S_S10000x22 main_cst
  let main_v2 : IVec S10000x22 1 := cmpf .olt main_v0 main_v1
  let main_c : IVec S_ 1 := constantI S_ 1 1#1
  let main_v3 : IVec S_ 1 := (fun x v => Host.reduce IntOp.andi x v reducesTo_S10000x22_S_d0_1 h_S_) main_v2 main_c
  let main_v4 : FVec F S22x1000 .f32 := Host.absf main_arg3
  let main_cst_0 : FVec F S_ .f32 := constant S_ .f32 0x7F800000#32
  let main_v5 : FVec F S22x1000 .f32 := broadcastInDim S22x1000 ![] bcast_S_S22x1000 main_cst_0
  let main_v6 : IVec S22x1000 1 := cmpf .olt main_v4 main_v5
  let main_c_1 : IVec S_ 1 := constantI S_ 1 1#1
  let main_v7 : IVec S_ 1 := (fun x v => Host.reduce IntOp.andi x v reducesTo_S22x1000_S_d0_1 h_S_) main_v6 main_c_1
  let main_v8 : IVec S_ 1 := andi main_v3 main_v7
  let main_v9 : FVec F S1000 .f32 := Host.absf main_arg4
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S1000x1000 .f32 := Host.absf main_arg5
  let main_cst_4 : FVec F S_ .f32 := constant S_ .f32 0x7F800000#32
  let main_v15 : FVec F S1000x1000 .f32 := broadcastInDim S1000x1000 ![] bcast_S_S1000x1000 main_cst_4
  let main_v16 : IVec S1000x1000 1 := cmpf .olt main_v14 main_v15
  fn_part1 (F := F) main_arg1 main_arg2 main_arg6 main_arg7 main_arg8 main_arg9 main_arg10 main_v13 main_v16
-- ==== Kernel.lean ====
abbrev S10000x22 : Shape := ⟨2, ![10000, 22]⟩
abbrev S80000 : Shape := ⟨1, ![80000]⟩
abbrev S22x1000 : Shape := ⟨2, ![22, 1000]⟩
abbrev S1000 : Shape := ⟨1, ![1000]⟩
abbrev S1000x1000 : Shape := ⟨2, ![1000, 1000]⟩
abbrev S1000x20 : Shape := ⟨2, ![1000, 20]⟩
abbrev S20 : Shape := ⟨1, ![20]⟩
abbrev S_ : Shape := ⟨0, ![]⟩
abbrev S10240x10240 : Shape := ⟨2, ![10240, 10240]⟩
abbrev S80000x1 : Shape := ⟨2, ![80000, 1]⟩
abbrev S80000x2 : Shape := ⟨2, ![80000, 2]⟩
abbrev S10240x128 : Shape := ⟨2, ![10240, 128]⟩
abbrev S128x1024 : Shape := ⟨2, ![128, 1024]⟩
abbrev S1024 : Shape := ⟨1, ![1024]⟩
abbrev S1024x1024 : Shape := ⟨2, ![1024, 1024]⟩
abbrev S1024x128 : Shape := ⟨2, ![1024, 128]⟩
abbrev S128 : Shape := ⟨1, ![128]⟩
abbrev S512x10240 : Shape := ⟨2, ![512, 10240]⟩
abbrev S512x128 : Shape := ⟨2, ![512, 128]⟩
abbrev S1x1024 : Shape := ⟨2, ![1, 1024]⟩
abbrev S10240x1024 : Shape := ⟨2, ![10240, 1024]⟩
abbrev S512x1024 : Shape := ⟨2, ![512, 1024]⟩
abbrev S10240x512 : Shape := ⟨2, ![10240, 512]⟩
abbrev S1x128 : Shape := ⟨2, ![1, 128]⟩
abbrev S10000x20 : Shape := ⟨2, ![10000, 20]⟩

abbrev nBuf : Space → Nat
  | .hbm => 79
  | .vmem => 44
  | .smem => 0
  | _ => 0

abbrev bufTy : (tb : Table) → Fin (tcTables nBuf tb) → BufTy
  | .hbm, ⟨0, _⟩ => ⟨S10000x22, .f32⟩
  | .hbm, ⟨1, _⟩ => ⟨S80000, .i32⟩
  | .hbm, ⟨2, _⟩ => ⟨S80000, .i32⟩
  | .hbm, ⟨3, _⟩ => ⟨S22x1000, .f32⟩
  | .hbm, ⟨4, _⟩ => ⟨S1000, .f32⟩
  | .hbm, ⟨5, _⟩ => ⟨S1000x1000, .f32⟩
  | .hbm, ⟨6, _⟩ => ⟨S1000, .f32⟩
  | .hbm, ⟨7, _⟩ => ⟨S1000x1000, .f32⟩
  | .hbm, ⟨8, _⟩ => ⟨S1000, .f32⟩
  | .hbm, ⟨9, _⟩ => ⟨S1000x20, .f32⟩
  | .hbm, ⟨10, _⟩ => ⟨S20, .f32⟩
  | .hbm, ⟨11, _⟩ => ⟨S_, .f32⟩
  | .hbm, ⟨12, _⟩ => ⟨S10240x10240, .f32⟩
  | .hbm, ⟨13, _⟩ => ⟨S_, .i32⟩
  | .hbm, ⟨14, _⟩ => ⟨S80000, .i32⟩
  | .hbm, ⟨15, _⟩ => ⟨S80000, .i1⟩
  | .hbm, ⟨16, _⟩ => ⟨S_, .i32⟩
  | .hbm, ⟨17, _⟩ => ⟨S80000, .i32⟩
  | .hbm, ⟨18, _⟩ => ⟨S80000, .i32⟩
  | .hbm, ⟨19, _⟩ => ⟨S80000, .i32⟩
  | .hbm, ⟨20, _⟩ => ⟨S_, .i32⟩
  | .hbm, ⟨21, _⟩ => ⟨S80000, .i32⟩
  | .hbm, ⟨22, _⟩ => ⟨S80000, .i1⟩
  | .hbm, ⟨23, _⟩ => ⟨S_, .i32⟩
  | .hbm, ⟨24, _⟩ => ⟨S80000, .i32⟩
  | .hbm, ⟨25, _⟩ => ⟨S80000, .i32⟩
  | .hbm, ⟨26, _⟩ => ⟨S80000, .i32⟩
  | .hbm, ⟨27, _⟩ => ⟨S80000x1, .i32⟩
  | .hbm, ⟨28, _⟩ => ⟨S80000x1, .i32⟩
  | .hbm, ⟨29, _⟩ => ⟨S80000x2, .i32⟩
  | .hbm, ⟨30, _⟩ => ⟨S_, .f32⟩
  | .hbm, ⟨31, _⟩ => ⟨S80000, .f32⟩
  | .hbm, ⟨32, _⟩ => ⟨S10240x10240, .f32⟩
  | .hbm, ⟨33, _⟩ => ⟨S10240x10240, .bf16⟩
  | .hbm, ⟨34, _⟩ => ⟨S_, .i32⟩
  | .hbm, ⟨35, _⟩ => ⟨S_, .f32⟩
  | .hbm, ⟨36, _⟩ => ⟨S10240x128, .f32⟩
  | .hbm, ⟨37, _⟩ => ⟨S10240x128, .bf16⟩
  | .hbm, ⟨38, _⟩ => ⟨S_, .i32⟩
  | .hbm, ⟨39, _⟩ => ⟨S_, .f32⟩
  | .hbm, ⟨40, _⟩ => ⟨S128x1024, .f32⟩
  | .hbm, ⟨41, _⟩ => ⟨S128x1024, .bf16⟩
  | .hbm, ⟨42, _⟩ => ⟨S_, .i32⟩
  | .hbm, ⟨43, _⟩ => ⟨S_, .f32⟩
  | .hbm, ⟨44, _⟩ => ⟨S1024, .f32⟩
  | .hbm, ⟨45, _⟩ => ⟨S_, .i32⟩
  | .hbm, ⟨46, _⟩ => ⟨S_, .f32⟩
  | .hbm, ⟨47, _⟩ => ⟨S1024x1024, .f32⟩
  | .hbm, ⟨48, _⟩ => ⟨S1024x1024, .bf16⟩
  | .hbm, ⟨49, _⟩ => ⟨S_, .i32⟩
  | .hbm, ⟨50, _⟩ => ⟨S_, .f32⟩
  | .hbm, ⟨51, _⟩ => ⟨S1024, .f32⟩
  | .hbm, ⟨52, _⟩ => ⟨S_, .i32⟩
  | .hbm, ⟨53, _⟩ => ⟨S_, .f32⟩
  | .hbm, ⟨54, _⟩ => ⟨S1024x1024, .f32⟩
  | .hbm, ⟨55, _⟩ => ⟨S1024x1024, .bf16⟩
  | .hbm, ⟨56, _⟩ => ⟨S_, .i32⟩
  | .hbm, ⟨57, _⟩ => ⟨S_, .f32⟩
  | .hbm, ⟨58, _⟩ => ⟨S1024, .f32⟩
  | .hbm, ⟨59, _⟩ => ⟨S_, .i32⟩
  | .hbm, ⟨60, _⟩ => ⟨S_, .f32⟩
  | .hbm, ⟨61, _⟩ => ⟨S1024x128, .f32⟩
  | .hbm, ⟨62, _⟩ => ⟨S1024x128, .bf16⟩
  | .hbm, ⟨63, _⟩ => ⟨S_, .i32⟩
  | .hbm, ⟨64, _⟩ => ⟨S_, .f32⟩
  | .hbm, ⟨65, _⟩ => ⟨S128, .f32⟩
  | .hbm, ⟨66, _⟩ => ⟨S10240x128, .bf16⟩
  | .hbm, ⟨67, _⟩ => ⟨S1x1024, .f32⟩
  | .hbm, ⟨68, _⟩ => ⟨S10240x1024, .bf16⟩
  | .hbm, ⟨69, _⟩ => ⟨S10240x1024, .bf16⟩
  | .hbm, ⟨70, _⟩ => ⟨S1x1024, .f32⟩
  | .hbm, ⟨71, _⟩ => ⟨S10240x1024, .bf16⟩
  | .hbm, ⟨72, _⟩ => ⟨S10240x1024, .bf16⟩
  | .hbm, ⟨73, _⟩ => ⟨S1x1024, .f32⟩
  | .hbm, ⟨74, _⟩ => ⟨S10240x1024, .bf16⟩
  | .hbm, ⟨75, _⟩ => ⟨S10240x1024, .bf16⟩
  | .hbm, ⟨76, _⟩ => ⟨S1x128, .f32⟩
  | .hbm, ⟨77, _⟩ => ⟨S10240x128, .f32⟩
  | .hbm, ⟨78, _⟩ => ⟨S10000x20, .f32⟩
  | .local _ .vmem, ⟨0, _⟩ => ⟨S512x10240, .bf16⟩
  | .local _ .vmem, ⟨1, _⟩ => ⟨S512x10240, .bf16⟩
  | .local _ .vmem, ⟨2, _⟩ => ⟨S10240x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S128x1024, .bf16⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x10240, .bf16⟩
  | .local _ .vmem, ⟨12, _⟩ => ⟨S512x10240, .bf16⟩
  | .local _ .vmem, ⟨13, _⟩ => ⟨S10240x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S512x10240, .bf16⟩
  | .local _ .vmem, ⟨23, _⟩ => ⟨S512x10240, .bf16⟩
  | .local _ .vmem, ⟨24, _⟩ => ⟨S10240x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S1024x1024, .bf16⟩
  | .local _ .vmem, ⟨30, _⟩ => ⟨S1x1024, .f32⟩
  | .local _ .vmem, ⟨31, _⟩ => ⟨S512x1024, .bf16⟩
  | .local _ .vmem, ⟨32, _⟩ => ⟨S512x1024, .bf16⟩
  | .local _ .vmem, ⟨33, _⟩ => ⟨S10240x512, .bf16⟩
  | .local _ .vmem, ⟨34, _⟩ => ⟨S10240x512, .bf16⟩
  | .local _ .vmem, ⟨35, _⟩ => ⟨S10240x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S1024x128, .bf16⟩
  | .local _ .vmem, ⟨41, _⟩ => ⟨S1x128, .f32⟩
  | .local _ .vmem, ⟨42, _⟩ => ⟨S512x128, .f32⟩
  | .local _ .vmem, ⟨43, _⟩ => ⟨S512x128, .f32⟩
  | _, _ => ⟨S10000x22, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_call0_v0 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_call1_v0 : Ref sig .tc := ⟨.hbm, 39, rfl⟩
abbrev main_v19 : Ref sig .tc := ⟨.hbm, 40, rfl⟩
abbrev main_v20 : Ref sig .tc := ⟨.hbm, 41, rfl⟩
abbrev main_c_6 : Ref sig .tc := ⟨.hbm, 42, rfl⟩
abbrev main_call2_v0 : Ref sig .tc := ⟨.hbm, 43, rfl⟩
abbrev main_v21 : Ref sig .tc := ⟨.hbm, 44, rfl⟩
abbrev main_c_7 : Ref sig .tc := ⟨.hbm, 45, rfl⟩
abbrev main_call3_v0 : Ref sig .tc := ⟨.hbm, 46, rfl⟩
abbrev main_v22 : Ref sig .tc := ⟨.hbm, 47, rfl⟩
abbrev main_v23 : Ref sig .tc := ⟨.hbm, 48, rfl⟩
abbrev main_c_8 : Ref sig .tc := ⟨.hbm, 49, rfl⟩
abbrev main_call4_v0 : Ref sig .tc := ⟨.hbm, 50, rfl⟩
abbrev main_v24 : Ref sig .tc := ⟨.hbm, 51, rfl⟩
abbrev main_c_9 : Ref sig .tc := ⟨.hbm, 52, rfl⟩
abbrev main_call5_v0 : Ref sig .tc := ⟨.hbm, 53, rfl⟩
abbrev main_v25 : Ref sig .tc := ⟨.hbm, 54, rfl⟩
abbrev main_v26 : Ref sig .tc := ⟨.hbm, 55, rfl⟩
abbrev main_c_10 : Ref sig .tc := ⟨.hbm, 56, rfl⟩
abbrev main_call6_v0 : Ref sig .tc := ⟨.hbm, 57, rfl⟩
abbrev main_v27 : Ref sig .tc := ⟨.hbm, 58, rfl⟩
abbrev main_c_11 : Ref sig .tc := ⟨.hbm, 59, rfl⟩
abbrev main_call7_v0 : Ref sig .tc := ⟨.hbm, 60, rfl⟩
abbrev main_v28 : Ref sig .tc := ⟨.hbm, 61, rfl⟩
abbrev main_v29 : Ref sig .tc := ⟨.hbm, 62, rfl⟩
abbrev main_c_12 : Ref sig .tc := ⟨.hbm, 63, rfl⟩
abbrev main_call8_v0 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x10240 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10240x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x10240 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10240x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10240x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10240x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S512x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S10240x10240 : S_.BroadcastsInDim S10240x10240 (![] : Fin 0 → Fin S10240x10240.rank)
  bcast_S_S80000 : S_.BroadcastsInDim S80000 (![] : Fin 0 → Fin S80000.rank)
  bcast_S80000_S80000x1_0 : S80000.BroadcastsInDim S80000x1 (![0] : Fin 1 → Fin S80000x1.rank)
  concatenates_S80000x1_S80000x1_S80000x2_d1 : Shape.Concatenates [S80000x1, S80000x1] S80000x2 1
  bitsLt_bf16_f32 : FTy.bits .bf16 < FTy.bits .f32
  pads_S10000x22_S10240x128_02400_01060 : S10000x22.Pads (![0, 0] : Fin 2 → Nat) ![240, 106] ![0, 0] S10240x128
  h_S_ : 0 < S_.numel
  pads_S22x1000_S128x1024_01060_0240 : S22x1000.Pads (![0, 0] : Fin 2 → Nat) ![106, 24] ![0, 0] S128x1024
  pads_S1000_S1024_0240 : S1000.Pads (![0] : Fin 1 → Nat) ![24] ![0] S1024
  pads_S1000x1000_S1024x1024_0240_0240 : S1000x1000.Pads (![0, 0] : Fin 2 → Nat) ![24, 24] ![0, 0] S1024x1024
  pads_S1000x20_S1024x128_0240_01080 : S1000x20.Pads (![0, 0] : Fin 2 → Nat) ![24, 108] ![0, 0] S1024x128
  pads_S20_S128_01080 : S20.Pads (![0] : Fin 1 → Nat) ![108] ![0] S128
  inb_S512x10240_S512x10240_0_0 : ∀ a, (![0, 0] : Fin 2 → Nat) a + S512x10240.size a ≤ S512x10240.size a
  h_S512x10240 : 0 < S512x10240.numel
  shapeCasts_S512x10240_S512x10240 : S512x10240.ShapeCasts S512x10240
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S512x128_S512x128_0_0 : ∀ a, (![0, 0] : Fin 2 → Nat) a + S512x128.size a ≤ S512x128.size a
  h_S512x128 : 0 < S512x128.numel
  packedbf16_S512x128_S512x128_0_0 : (Rect.unit (s := S512x128) ![0, 0] S512x128.size inb_S512x128_S512x128_0_0).PackedRows (EltTy.packing .bf16)
  shapeCasts_S1024_S1x1024 : S1024.ShapeCasts S1x1024
  shapeCasts_S512x128_S512x128 : S512x128.ShapeCasts S512x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  inb_S10240x1024_S10240x1024_0_0 : ∀ a, (![0, 0] : Fin 2 → Nat) a + S10240x1024.size a ≤ S10240x1024.size a
  h_S10240x1024 : 0 < S10240x1024.numel
  shapeCasts_S10240x1024_S10240x1024 : S10240x1024.ShapeCasts S10240x1024
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S10240x512_S10240x512_0_0 : ∀ a, (![0, 0] : Fin 2 → Nat) a + S10240x512.size a ≤ S10240x512.size a
  h_S10240x512 : 0 < S10240x512.numel
  shapeCasts_S10240x512_S10240x512 : S10240x512.ShapeCasts S10240x512
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S10240x128_S10000x20_0_0 : S10240x128.Slices ![0, 0] S10000x20
  scatter_S10240x10240_S80000x2_S80000_n_01_01_1_wf : ScatterDims.WF S10240x10240 S80000x2 S80000 [] [0, 1] [0, 1] 1
  dot_S512x10240_S10240x128_S512x128_1_0_0_1_n_n_wf : DotDims.WF S512x10240 S10240x128 S512x128 [1] [0] [0] [1] [] []
  dot_S512x128_S128x1024_S512x1024_1_0_0_1_n_n_wf : DotDims.WF S512x128 S128x1024 S512x1024 [1] [0] [0] [1] [] []
  dot_S512x10240_S10240x1024_S512x1024_1_0_0_1_n_n_wf : DotDims.WF S512x10240 S10240x1024 S512x1024 [1] [0] [0] [1] [] []
  dot_S512x1024_S1024x1024_S512x1024_1_0_0_1_n_n_wf : DotDims.WF S512x1024 S1024x1024 S512x1024 [1] [0] [0] [1] [] []
  dot_S10240x512_S10240x1024_S512x1024_0_0_1_1_n_n_wf : DotDims.WF S10240x512 S10240x1024 S512x1024 [0] [0] [1] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x10240.size a ≤ S10240x10240.size a
  hwx0_0 : ∀ i : grid0.Coords, EltTy.bits .bf16 = 32 ∨ (Rect.block (s := S10240x10240) S512x10240.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x128.size a ≤ S10240x128.size a
  hwx0_1 : ∀ i : grid0.Coords, EltTy.bits .bf16 = 32 ∨ (Rect.block (s := S10240x128) S10240x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S10240x128.size a
  hwx0_2 : ∀ i : grid0.Coords, EltTy.bits .bf16 = 32 ∨ (Rect.block (s := S10240x128) S512x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S10240x128.size a
  hwx1_0 : ∀ i : grid1.Coords, EltTy.bits .bf16 = 32 ∨ (Rect.block (s := S10240x128) S512x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x1024.size a
  hwx1_1 : ∀ i : grid1.Coords, EltTy.bits .bf16 = 32 ∨ (Rect.block (s := S128x1024) S128x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S10240x1024.size a
  hwx1_3 : ∀ i : grid1.Coords, EltTy.bits .bf16 = 32 ∨ (Rect.block (s := S10240x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x10240.size a ≤ S10240x10240.size a
  hwx2_0 : ∀ i : grid2.Coords, EltTy.bits .bf16 = 32 ∨ (Rect.block (s := S10240x10240) S512x10240.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x1024.size a ≤ S10240x1024.size a
  hwx2_1 : ∀ i : grid2.Coords, EltTy.bits .bf16 = 32 ∨ (Rect.block (s := S10240x1024) S10240x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S10240x1024.size a
  hwx2_2 : ∀ i : grid2.Coords, EltTy.bits .bf16 = 32 ∨ (Rect.block (s := S10240x1024) S512x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S10240x1024.size a
  hwx3_0 : ∀ i : grid3.Coords, EltTy.bits .bf16 = 32 ∨ (Rect.block (s := S10240x1024) S512x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S10240x1024.size a
  hwx3_3 : ∀ i : grid3.Coords, EltTy.bits .bf16 = 32 ∨ (Rect.block (s := S10240x1024) S512x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x10240.size a ≤ S10240x10240.size a
  hwx4_0 : ∀ i : grid4.Coords, EltTy.bits .bf16 = 32 ∨ (Rect.block (s := S10240x10240) S512x10240.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10240x1024.size a ≤ S10240x1024.size a
  hwx4_1 : ∀ i : grid4.Coords, EltTy.bits .bf16 = 32 ∨ (Rect.block (s := S10240x1024) S10240x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1024.size a ≤ S10240x1024.size a
  hwx4_2 : ∀ i : grid4.Coords, EltTy.bits .bf16 = 32 ∨ (Rect.block (s := S10240x1024) S512x1024.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S10240x1024.size a
  hwx5_0 : ∀ i : grid5.Coords, EltTy.bits .bf16 = 32 ∨ (Rect.block (s := S10240x1024) S512x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S1024x1024.size a
  hwx5_1 : ∀ i : grid5.Coords, EltTy.bits .bf16 = 32 ∨ (Rect.block (s := S1024x1024) S1024x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x1024.size a ≤ S10240x1024.size a
  hwx5_3 : ∀ i : grid5.Coords, EltTy.bits .bf16 = 32 ∨ (Rect.block (s := S10240x1024) S512x1024.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10240x512.size a ≤ S10240x10240.size a
  hwx6_0 : ∀ i : grid6.Coords, EltTy.bits .bf16 = 32 ∨ (Rect.block (s := S10240x10240) S10240x512.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10240x1024.size a ≤ S10240x1024.size a
  hwx6_1 : ∀ i : grid6.Coords, EltTy.bits .bf16 = 32 ∨ (Rect.block (s := S10240x1024) S10240x1024.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x1024.size a ≤ S10240x1024.size a
  hwx6_2 : ∀ i : grid6.Coords, EltTy.bits .bf16 = 32 ∨ (Rect.block (s := S10240x1024) S512x1024.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x1024.size a ≤ S10240x1024.size a
  hwx7_0 : ∀ i : grid7.Coords, EltTy.bits .bf16 = 32 ∨ (Rect.block (s := S10240x1024) S512x1024.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x128.size a ≤ S1024x128.size a
  hwx7_1 : ∀ i : grid7.Coords, EltTy.bits .bf16 = 32 ∨ (Rect.block (s := S1024x128) S1024x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x128.size a ≤ S10240x128.size a
  hwx7_3 : ∀ i : grid7.Coords, EltTy.bits .f32 = 32 ∨ (Rect.block (s := S10240x128) S512x128.size (cc7_transform_3 i) (hinb7_3 i)).WholeWords (EltTy.packing .f32)

variable [Facts₀]

def scatter_S10240x10240_S80000x2_S80000_n_01_01_1 : ScatterDims S10240x10240 S80000x2 S80000 where
  updateWindowDims := []
  insertedWindowDims := [0, 1]
  scatterDimsToOperandDims := [0, 1]
  indexVectorDim := 1
  wf := scatter_S10240x10240_S80000x2_S80000_n_01_01_1_wf
def dot_S512x10240_S10240x128_S512x128_1_0_0_1_n_n : DotDims S512x10240 S10240x128 S512x128 where
  lhsContracting := [1]
  rhsContracting := [0]
  lhsNonContracting := [0]
  rhsNonContracting := [1]
  lhsBatch := []
  rhsBatch := []
  wf := dot_S512x10240_S10240x128_S512x128_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x10240_S10240x1024_S512x1024_1_0_0_1_n_n : DotDims S512x10240 S10240x1024 S512x1024 where
  lhsContracting := [1]
  rhsContracting := [0]
  lhsNonContracting := [0]
  rhsNonContracting := [1]
  lhsBatch := []
  rhsBatch := []
  wf := dot_S512x10240_S10240x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S10240x512_S10240x1024_S512x1024_0_0_1_1_n_n : DotDims S10240x512 S10240x1024 S512x1024 where
  lhsContracting := [0]
  rhsContracting := [0]
  lhsNonContracting := [1]
  rhsNonContracting := [1]
  lhsBatch := []
  rhsBatch := []
  wf := dot_S10240x512_S10240x1024_S512x1024_0_0_1_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_v16) S512x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10240x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S512x10240.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S10240x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v34) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v16) S512x10240.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S10240x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v37) S512x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v37) S512x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S1024x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v38) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v39) S512x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v16) S10240x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v39) S10240x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v40) S512x1024.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v40) S512x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v29) S1024x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v41) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v42) S512x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S10000x22 : Shape := ⟨2, ![10000, 22]⟩
abbrev S80000 : Shape := ⟨1, ![80000]⟩
abbrev S22x1000 : Shape := ⟨2, ![22, 1000]⟩
abbrev S1000 : Shape := ⟨1, ![1000]⟩
abbrev S1000x1000 : Shape := ⟨2, ![1000, 1000]⟩
abbrev S1000x20 : Shape := ⟨2, ![1000, 20]⟩
abbrev S20 : Shape := ⟨1, ![20]⟩
abbrev S_ : Shape := ⟨0, ![]⟩
abbrev S80000x1 : Shape := ⟨2, ![80000, 1]⟩
abbrev S80000x22 : Shape := ⟨2, ![80000, 22]⟩
abbrev S10000x1000 : Shape := ⟨2, ![10000, 1000]⟩
abbrev S1x1000 : Shape := ⟨2, ![1, 1000]⟩
abbrev S80000x1000 : Shape := ⟨2, ![80000, 1000]⟩
abbrev S10000x20 : Shape := ⟨2, ![10000, 20]⟩
abbrev S1x20 : Shape := ⟨2, ![1, 20]⟩

abbrev nBuf : Space → Nat
  | .hbm => 88
  | .vmem => 0
  | .smem => 0
  | _ => 0

abbrev bufTy : (tb : Table) → Fin (tcTables nBuf tb) → BufTy
  | .hbm, ⟨0, _⟩ => ⟨S10000x22, .f32⟩
  | .hbm, ⟨1, _⟩ => ⟨S80000, .i32⟩
  | .hbm, ⟨2, _⟩ => ⟨S80000, .i32⟩
  | .hbm, ⟨3, _⟩ => ⟨S22x1000, .f32⟩
  | .hbm, ⟨4, _⟩ => ⟨S1000, .f32⟩
  | .hbm, ⟨5, _⟩ => ⟨S1000x1000, .f32⟩
  | .hbm, ⟨6, _⟩ => ⟨S1000, .f32⟩
  | .hbm, ⟨7, _⟩ => ⟨S1000x1000, .f32⟩
  | .hbm, ⟨8, _⟩ => ⟨S1000, .f32⟩
  | .hbm, ⟨9, _⟩ => ⟨S1000x20, .f32⟩
  | .hbm, ⟨10, _⟩ => ⟨S20, .f32⟩
  | .hbm, ⟨11, _⟩ => ⟨S_, .i32⟩
  | .hbm, ⟨12, _⟩ => ⟨S80000, .i32⟩
  | .hbm, ⟨13, _⟩ => ⟨S80000, .i1⟩
  | .hbm, ⟨14, _⟩ => ⟨S_, .i32⟩
  | .hbm, ⟨15, _⟩ => ⟨S80000, .i32⟩
  | .hbm, ⟨16, _⟩ => ⟨S80000, .i32⟩
  | .hbm, ⟨17, _⟩ => ⟨S80000, .i32⟩
  | .hbm, ⟨18, _⟩ => ⟨S80000x1, .i32⟩
  | .hbm, ⟨19, _⟩ => ⟨S80000x22, .f32⟩
  | .hbm, ⟨20, _⟩ => ⟨S_, .f32⟩
  | .hbm, ⟨21, _⟩ => ⟨S10000x22, .f32⟩
  | .hbm, ⟨22, _⟩ => ⟨S80000x1, .i32⟩
  | .hbm, ⟨23, _⟩ => ⟨S10000x22, .f32⟩
  | .hbm, ⟨24, _⟩ => ⟨S10000x1000, .f32⟩
  | .hbm, ⟨25, _⟩ => ⟨S1x1000, .f32⟩
  | .hbm, ⟨26, _⟩ => ⟨S10000x1000, .f32⟩
  | .hbm, ⟨27, _⟩ => ⟨S10000x1000, .f32⟩
  | .hbm, ⟨28, _⟩ => ⟨S_, .f32⟩
  | .hbm, ⟨29, _⟩ => ⟨S10000x1000, .f32⟩
  | .hbm, ⟨30, _⟩ => ⟨S10000x1000, .f32⟩
  | .hbm, ⟨31, _⟩ => ⟨S_, .i32⟩
  | .hbm, ⟨32, _⟩ => ⟨S80000, .i32⟩
  | .hbm, ⟨33, _⟩ => ⟨S80000, .i1⟩
  | .hbm, ⟨34, _⟩ => ⟨S_, .i32⟩
  | .hbm, ⟨35, _⟩ => ⟨S80000, .i32⟩
  | .hbm, ⟨36, _⟩ => ⟨S80000, .i32⟩
  | .hbm, ⟨37, _⟩ => ⟨S80000, .i32⟩
  | .hbm, ⟨38, _⟩ => ⟨S80000x1, .i32⟩
  | .hbm, ⟨39, _⟩ => ⟨S80000x1000, .f32⟩
  | .hbm, ⟨40, _⟩ => ⟨S_, .f32⟩
  | .hbm, ⟨41, _⟩ => ⟨S10000x1000, .f32⟩
  | .hbm, ⟨42, _⟩ => ⟨S80000x1, .i32⟩
  | .hbm, ⟨43, _⟩ => ⟨S10000x1000, .f32⟩
  | .hbm, ⟨44, _⟩ => ⟨S10000x1000, .f32⟩
  | .hbm, ⟨45, _⟩ => ⟨S1x1000, .f32⟩
  | .hbm, ⟨46, _⟩ => ⟨S10000x1000, .f32⟩
  | .hbm, ⟨47, _⟩ => ⟨S10000x1000, .f32⟩
  | .hbm, ⟨48, _⟩ => ⟨S_, .f32⟩
  | .hbm, ⟨49, _⟩ => ⟨S10000x1000, .f32⟩
  | .hbm, ⟨50, _⟩ => ⟨S10000x1000, .f32⟩
  | .hbm, ⟨51, _⟩ => ⟨S_, .i32⟩
  | .hbm, ⟨52, _⟩ => ⟨S80000, .i32⟩
  | .hbm, ⟨53, _⟩ => ⟨S80000, .i1⟩
  | .hbm, ⟨54, _⟩ => ⟨S_, .i32⟩
  | .hbm, ⟨55, _⟩ => ⟨S80000, .i32⟩
  | .hbm, ⟨56, _⟩ => ⟨S80000, .i32⟩
  | .hbm, ⟨57, _⟩ => ⟨S80000, .i32⟩
  | .hbm, ⟨58, _⟩ => ⟨S80000x1, .i32⟩
  | .hbm, ⟨59, _⟩ => ⟨S80000x1000, .f32⟩
  | .hbm, ⟨60, _⟩ => ⟨S_, .f32⟩
  | .hbm, ⟨61, _⟩ => ⟨S10000x1000, .f32⟩
  | .hbm, ⟨62, _⟩ => ⟨S80000x1, .i32⟩
  | .hbm, ⟨63, _⟩ => ⟨S10000x1000, .f32⟩
  | .hbm, ⟨64, _⟩ => ⟨S10000x1000, .f32⟩
  | .hbm, ⟨65, _⟩ => ⟨S1x1000, .f32⟩
  | .hbm, ⟨66, _⟩ => ⟨S10000x1000, .f32⟩
  | .hbm, ⟨67, _⟩ => ⟨S10000x1000, .f32⟩
  | .hbm, ⟨68, _⟩ => ⟨S_, .f32⟩
  | .hbm, ⟨69, _⟩ => ⟨S10000x1000, .f32⟩
  | .hbm, ⟨70, _⟩ => ⟨S10000x1000, .f32⟩
  | .hbm, ⟨71, _⟩ => ⟨S_, .i32⟩
  | .hbm, ⟨72, _⟩ => ⟨S80000, .i32⟩
  | .hbm, ⟨73, _⟩ => ⟨S80000, .i1⟩
  | .hbm, ⟨74, _⟩ => ⟨S_, .i32⟩
  | .hbm, ⟨75, _⟩ => ⟨S80000, .i32⟩
  | .hbm, ⟨76, _⟩ => ⟨S80000, .i32⟩
  | .hbm, ⟨77, _⟩ => ⟨S80000, .i32⟩
  | .hbm, ⟨78, _⟩ => ⟨S80000x1, .i32⟩
  | .hbm, ⟨79, _⟩ => ⟨S80000x1000, .f32⟩
  | .hbm, ⟨80, _⟩ => ⟨S_, .f32⟩
  | .hbm, ⟨81, _⟩ => ⟨S10000x1000, .f32⟩
  | .hbm, ⟨82, _⟩ => ⟨S80000x1, .i32⟩
  | .hbm, ⟨83, _⟩ => ⟨S10000x1000, .f32⟩
  | .hbm, ⟨84, _⟩ => ⟨S10000x20, .f32⟩
  | .hbm, ⟨85, _⟩ => ⟨S1x20, .f32⟩
  | .hbm, ⟨86, _⟩ => ⟨S10000x20, .f32⟩
  | .hbm, ⟨87, _⟩ => ⟨S10000x20, .f32⟩
  | _, _ => ⟨S10000x22, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call2_cst : Ref sig .tc := ⟨.hbm, 68, rfl⟩
abbrev main_call2_v0 : Ref sig .tc := ⟨.hbm, 69, rfl⟩
abbrev main_v44 : Ref sig .tc := ⟨.hbm, 70, rfl⟩
abbrev main_c_7 : Ref sig .tc := ⟨.hbm, 71, rfl⟩
abbrev main_v45 : Ref sig .tc := ⟨.hbm, 72, rfl⟩
abbrev main_v46 : Ref sig .tc := ⟨.hbm, 73, rfl⟩
abbrev main_c_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  bcast_S_S80000 : S_.BroadcastsInDim S80000 (![] : Fin 0 → Fin S80000.rank)
  bcast_S80000_S80000x1_0 : S80000.BroadcastsInDim S80000x1 (![0] : Fin 1 → Fin S80000x1.rank)
  bcast_S_S10000x22 : S_.BroadcastsInDim S10000x22 (![] : Fin 0 → Fin S10000x22.rank)
  bcast_S1000_S1x1000_1 : S1000.BroadcastsInDim S1x1000 (![1] : Fin 1 → Fin S1x1000.rank)
  bcast_S1x1000_S10000x1000_0_1 : S1x1000.BroadcastsInDim S10000x1000 (![0, 1] : Fin 2 → Fin S10000x1000.rank)
  bcast_S_S10000x1000 : S_.BroadcastsInDim S10000x1000 (![] : Fin 0 → Fin S10000x1000.rank)
  bcast_S20_S1x20_1 : S20.BroadcastsInDim S1x20 (![1] : Fin 1 → Fin S1x20.rank)
  bcast_S1x20_S10000x20_0_1 : S1x20.BroadcastsInDim S10000x20 (![0, 1] : Fin 2 → Fin S10000x20.rank)
  gather_S10000x22_S80000x1_S80000x22_1_0_n_n_0_1_122_wf : GatherDims.WF S10000x22 S80000x1 S80000x22 [1] [0] [] [0] [] 1 ![1, 22]
  scatter_S10000x22_S80000x1_S80000x22_1_0_0_1_wf : ScatterDims.WF S10000x22 S80000x1 S80000x22 [1] [0] [0] 1
  dot_S10000x22_S22x1000_S10000x1000_1_0_0_1_n_n_wf : DotDims.WF S10000x22 S22x1000 S10000x1000 [1] [0] [0] [1] [] []
  gather_S10000x1000_S80000x1_S80000x1000_1_0_n_n_0_1_11000_wf : GatherDims.WF S10000x1000 S80000x1 S80000x1000 [1] [0] [] [0] [] 1 ![1, 1000]
  scatter_S10000x1000_S80000x1_S80000x1000_1_0_0_1_wf : ScatterDims.WF S10000x1000 S80000x1 S80000x1000 [1] [0] [0] 1
  dot_S10000x1000_S1000x1000_S10000x1000_1_0_0_1_n_n_wf : DotDims.WF S10000x1000 S1000x1000 S10000x1000 [1] [0] [0] [1] [] []
  dot_S10000x1000_S1000x20_S10000x20_1_0_0_1_n_n_wf : DotDims.WF S10000x1000 S1000x20 S10000x20 [1] [0] [0] [1] [] []

variable [Facts₀]

def gather_S10000x22_S80000x1_S80000x22_1_0_n_n_0_1_122 : GatherDims S10000x22 S80000x1 S80000x22 where
  offsetDims := [1]
  collapsedSliceDims := [0]
  operandBatchingDims := []
  startIndicesBatchingDims := []
  startIndexMap := [0]
  indexVectorDim := 1
  sliceSizes := ![1, 22]
  wf := gather_S10000x22_S80000x1_S80000x22_1_0_n_n_0_1_122_wf
def scatter_S10000x22_S80000x1_S80000x22_1_0_0_1 : ScatterDims S10000x22 S80000x1 S80000x22 where
  updateWindowDims := [1]
  insertedWindowDims := [0]
  scatterDimsToOperandDims := [0]
  indexVectorDim := 1
  wf := scatter_S10000x22_S80000x1_S80000x22_1_0_0_1_wf
def dot_S10000x22_S22x1000_S10000x1000_1_0_0_1_n_n : DotDims S10000x22 S22x1000 S10000x1000 where
  lhsContracting := [1]
  rhsContracting := [0]
  lhsNonContracting := [0]
  rhsNonContracting := [1]
  lhsBatch := []
  rhsBatch := []
  wf := dot_S10000x22_S22x1000_S10000x1000_1_0_0_1_n_n_wf
def gather_S10000x1000_S80000x1_S80000x1000_1_0_n_n_0_1_11000 : GatherDims S10000x1000 S80000x1 S80000x1000 where
  offsetDims := [1]
  collapsedSliceDims := [0]
  operandBatchingDims := []
  startIndicesBatchingDims := []
  startIndexMap := [0]
  indexVectorDim := 1
  sliceSizes := ![1, 1000]
  wf := gather_S10000x1000_S80000x1_S80000x1000_1_0_n_n_0_1_11000_wf
def scatter_S10000x1000_S80000x1_S80000x1000_1_0_0_1 : ScatterDims S10000x1000 S80000x1 S80000x1000 where
  updateWindowDims := [1]
  insertedWindowDims := [0]
  scatterDimsToOperandDims := [0]
  indexVectorDim := 1
  wf := scatter_S10000x1000_S80000x1_S80000x1000_1_0_0_1_wf
def dot_S10000x1000_S1000x1000_S10000x1000_1_0_0_1_n_n : DotDims S10000x1000 S1000x1000 S10000x1000 where
  lhsContracting := [1]
  rhsContracting := [0]
  lhsNonContracting := [0]
  rhsNonContracting := [1]
  lhsBatch := []
  rhsBatch := []
  wf := dot_S10000x1000_S1000x1000_S10000x1000_1_0_0_1_n_n_wf
def dot_S10000x1000_S1000x20_S10000x20_1_0_0_1_n_n : DotDims S10000x1000 S1000x20 S10000x20 where
  lhsContracting := [1]
  rhsContracting := [0]
  lhsNonContracting := [0]
  rhsNonContracting := [1]
  lhsBatch := []
  rhsBatch := []
  wf := dot_S10000x1000_S1000x20_S10000x20_1_0_0_1_n_n_wf

class Facts : Prop extends Facts₀ where

variable [Facts]
-- ==== Proof.Spec.lean ====
/-
  The mathematics both programs compute, stated once over curried index types.

  A graph has 80000 directed edges over 10000 nodes; edge e runs from node s e to node d e. One layer of
  sum-aggregation followed by an affine map sends a node-feature table H to

      out n o  =  act ( (∑ k, (∑ over edges e with d e = n, H (s e) k) * W k o) + b o ).

  The network is four such layers, the first three with act = max · 0, the last on the reversed graph (the roles
  of s and d exchanged) and with no activation.

  The same network is also written the way a dense accelerator computes it: the edge list is first turned into a
  table of edge counts cnt r c = #{e | d e = r ∧ s e = c} over a padded node range, every table is padded with
  zeros to tile-friendly extents, aggregation is a matrix product with the count table (its transpose for the
  reversed graph), and the padded result is cut back at the end. That the two agree is proved in Proof/Math.lean.
-/
import Idealize.ShloMosaic.Lib.ValueIdx

noncomputable section

open scoped BigOperators

namespace GC

open Idealize.ShloMosaic Idealize.ShloMosaic.ValueIdx

/-- A rank-2 array read through its two coordinates. -/
def cur2 {α : Type} {a b : Nat} (v : (⟨2, ![a, b]⟩ : Shape).Idx → α) : Fin a → Fin b → α := fun i j => v (ix2 i j)
/-- A rank-1 array read through its coordinate. -/
def cur1 {α : Type} {a : Nat} (v : (⟨1, ![a]⟩ : Shape).Idx → α) : Fin a → α := fun i => v (ix1 i)

theorem cur2_apply {α : Type} {a b : Nat} (v : (⟨2, ![a, b]⟩ : Shape).Idx → α) (i : Fin a) (j : Fin b) :
    cur2 v i j = v (ix2 i j) := rfl
theorem cur1_apply {α : Type} {a : Nat} (v : (⟨1, ![a]⟩ : Shape).Idx → α) (i : Fin a) : cur1 v i = v (ix1 i) := rfl

/-- Every index word of an edge list names a node: it is, read signed, in [0, 10000). -/
def InRange (v : (⟨1, ![80000]⟩ : Shape).Idx → BitVec 32) : Prop :=
  ∀ e : Fin 80000, 0 ≤ (v (ix1 e)).toInt ∧ (v (ix1 e)).toInt < 10000

/-- The node an index word names (the word itself when it is in range). -/
def node (v : (⟨1, ![80000]⟩ : Shape).Idx → BitVec 32) (e : Fin 80000) : Fin 10000 :=
  ⟨(v (ix1 e)).toInt.toNat % 10000, Nat.mod_lt _ (by norm_num)⟩

theorem node_val {v : (⟨1, ![80000]⟩ : Shape).Idx → BitVec 32} (h : InRange v) (e : Fin 80000) :
    ((node v e).val : Int) = (v (ix1 e)).toInt := by
  have := h e
  unfold node
  simp only
  omega

section Net
variable {E N K O : Nat}

/-- Sum-aggregation: node n receives the rows of H at the sources of the edges into n. -/
def aggr (s d : Fin E → Fin N) (H : Fin N → Fin K → EReal) : Fin N → Fin K → EReal :=
  fun n k => ∑ e ∈ Finset.univ.filter (fun e => d e = n), H (s e) k

/-- The affine map X · W + b. -/
def dense {M : Nat} (X : Fin M → Fin K → EReal) (W : Fin K → Fin O → EReal) (b : Fin O → EReal) : Fin M → Fin O → EReal :=
  fun n o => (∑ k, X n k * W k o) + b o

/-- max · 0, entry by entry. -/
def relu2 {M : Nat} (X : Fin M → Fin K → EReal) : Fin M → Fin K → EReal := fun n k => max (X n k) 0

end Net

/-- The four-layer network: three layers with max · 0 on the graph, one without on the reversed graph. -/
def net {E N : Nat} (s d : Fin E → Fin N) (x : Fin N → Fin 22 → EReal)
    (W1 : Fin 22 → Fin 1000 → EReal) (b1 : Fin 1000 → EReal) (W2 : Fin 1000 → Fin 1000 → EReal) (b2 : Fin 1000 → EReal)
    (W3 : Fin 1000 → Fin 1000 → EReal) (b3 : Fin 1000 → EReal) (W4 : Fin 1000 → Fin 20 → EReal) (b4 : Fin 20 → EReal) :
    Fin N → Fin 20 → EReal :=
  dense (aggr d s (relu2 (dense (aggr s d (relu2 (dense (aggr s d (relu2 (dense (aggr s d x) W1 b1))) W2 b2))) W3 b3))) W4 b4

/-! ## The dense, padded form -/

/-- The table of edge counts over a padded node range: how many edges run from column c to row r. -/
def cnt {E N : Nat} (NP : Nat) (s d : Fin E → Fin N) : Fin NP → Fin NP → EReal :=
  fun r c => ∑ _e ∈ Finset.univ.filter (fun e => (d e).val = r.val ∧ (s e).val = c.val), (1 : EReal)

/-- The matrix product X · Y. -/
def mm {a k b : Nat} (X : Fin a → Fin k → EReal) (Y : Fin k → Fin b → EReal) : Fin a → Fin b → EReal :=
  fun i j => ∑ c, X i c * Y c j
/-- The matrix product Xᵀ · Y. -/
def mmT {a k b : Nat} (X : Fin k → Fin a → EReal) (Y : Fin k → Fin b → EReal) : Fin a → Fin b → EReal :=
  fun i j => ∑ c, X c i * Y c j

/-- A table padded with zeros to A rows and B columns. -/
def pad2 {a b : Nat} (A B : Nat) (X : Fin a → Fin b → EReal) : Fin A → Fin B → EReal :=
  fun i j => if h : i.val < a ∧ j.val < b then X ⟨i.val, h.1⟩ ⟨j.val, h.2⟩ else 0
/-- A vector padded with zeros to A entries. -/
def pad1 {a : Nat} (A : Nat) (X : Fin a → EReal) : Fin A → EReal :=
  fun i => if h : i.val < a then X ⟨i.val, h⟩ else 0

/-- The network as the dense computation: counts, zero padding, matrix products, and the final cut. -/
def netK {E : Nat} (s d : Fin E → Fin 10000) (x : Fin 10000 → Fin 22 → EReal)
    (W1 : Fin 22 → Fin 1000 → EReal) (b1 : Fin 1000 → EReal) (W2 : Fin 1000 → Fin 1000 → EReal) (b2 : Fin 1000 → EReal)
    (W3 : Fin 1000 → Fin 1000 → EReal) (b3 : Fin 1000 → EReal) (W4 : Fin 1000 → Fin 20 → EReal) (b4 : Fin 20 → EReal) :
    Fin 10000 → Fin 20 → EReal :=
  let A : Fin 10240 → Fin 10240 → EReal := cnt 10240 s d
  let h1 := relu2 (dense (mm A (pad2 10240 128 x)) (pad2 128 1024 W1) (pad1 1024 b1))
  let h2 := relu2 (dense (mm A h1) (pad2 1024 1024 W2) (pad1 1024 b2))
  let h3 := relu2 (dense (mm A h2) (pad2 1024 1024 W3) (pad1 1024 b3))
  let o := dense (mmT A h3) (pad2 1024 128 W4) (pad1 128 b4)
  fun n j => o ⟨n.val, by omega⟩ ⟨j.val, by omega⟩

end GC

end
-- ==== Proof.KHostA.lean ====
/-
  The count table. Before the first region the host scatters a one for every edge into a zero table of 10240 × 10240
  at (target, source); with every index word a node number no word is negative, so the wrap-around select keeps it,
  every update lands inside the table, and entry (r, c) ends at the number of edges from c to r.
-/
import proofs.«426275_j13812614824123_1_alg».proof.Proof.Gen.KernelIdeal.Frame
import proofs.«426275_j13812614824123_1_alg».proof.Proof.Spec
import Idealize.ShloMosaic.Lib.ValueIdx
import Idealize.ShloMosaic.Lib.ValueIdxRank1
import Idealize.ShloMosaic.Lib.Pipeline.Value
import Idealize.ShloMosaic.Lib.IdealHost

set_option maxRecDepth 16384
noncomputable section
open scoped BigOperators
namespace Cert.KernelIdeal.GCK

open Cert.KernelIdeal Cert.KernelIdeal.Gen Idealize.ShloMosaic Idealize.ShloMosaic.TcCoe Idealize.SL.Sem Idealize.ShloMosaic.ValueIdx GC
open Idealize.ShloMosaic.Pipeline (Dat Cfg Window)

/-! ## Where one update lands -/

/-- The scatter's dimension numbers. -/
abbrev KHostA_sc : ScatterDims S10240x10240 S80000x2 S80000 := scatter_S10240x10240_S80000x2_S80000_n_01_01_1

/-- Both table axes are inserted, so an update has no window coordinate. -/
theorem KHostA_window (j : S80000.Idx) (a : Fin 2) : KHostA_sc.window j a = 0 := by
  unfold ScatterDims.window
  rw [dif_neg]
  exact (by decide : ∀ a : Fin S10240x10240.rank, a ∉ KHostA_sc.sKept) a

/-- Update e reads the first component of its start index at (e, 0) of the index operand … -/
theorem KHostA_siIdx0 (e : Fin 80000) (h) : KHostA_sc.siIdx (ix1 e) ⟨0, h⟩ = ix2 e (0 : Fin 2) := by
  funext b
  match b with
  | ⟨0, _⟩ => rfl
  | ⟨1, _⟩ => rfl

/-- … and the second at (e, 1). -/
theorem KHostA_siIdx1 (e : Fin 80000) (h) : KHostA_sc.siIdx (ix1 e) ⟨1, h⟩ = ix2 e (1 : Fin 2) := by
  funext b
  match b with
  | ⟨0, _⟩ => rfl
  | ⟨1, _⟩ => rfl

/-- The start on the row axis is the word at (e, 0), read signed … -/
theorem KHostA_start0 (e : Fin 80000) (idx : IVec S80000x2 32) : KHostA_sc.start (ix1 e) idx (0 : Fin 2) = (idx (ix2 e (0 : Fin 2))).toInt := by
  unfold ScatterDims.start
  rw [dif_pos (by decide)]
  exact congrArg (fun i => (idx i).toInt) (KHostA_siIdx0 e _)

/-- … and on the column axis the word at (e, 1). -/
theorem KHostA_start1 (e : Fin 80000) (idx : IVec S80000x2 32) : KHostA_sc.start (ix1 e) idx (1 : Fin 2) = (idx (ix2 e (1 : Fin 2))).toInt := by
  unfold ScatterDims.start
  rw [dif_pos (by decide)]
  exact congrArg (fun i => (idx i).toInt) (KHostA_siIdx1 e _)

/-- An update whose two index words are the numbers p, q below 10240 lands at (p, q). -/
theorem KHostA_resultIdx (idx : IVec S80000x2 32) (e : Fin 80000) (p q : Fin 10240)
    (hp : (idx (ix2 e (0 : Fin 2))).toInt = (p.val : Int)) (hq : (idx (ix2 e (1 : Fin 2))).toInt = (q.val : Int)) :
    KHostA_sc.resultIdx? (ix1 e) idx = some (ix2 p q) := by
  have hs : ∀ a : Fin 2, KHostA_sc.start (ix1 e) idx a + (KHostA_sc.window (ix1 e) a : Int) = ((ix2 p q a).val : Int) := by
    intro a
    rw [KHostA_window]
    match a with
    | ⟨0, _⟩ => exact (by rw [KHostA_start0, hp]; simp : KHostA_sc.start (ix1 e) idx (0 : Fin 2) + ((0 : Nat) : Int) = (p.val : Int))
    | ⟨1, _⟩ => exact (by rw [KHostA_start1, hq]; simp : KHostA_sc.start (ix1 e) idx (1 : Fin 2) + ((0 : Nat) : Int) = (q.val : Int))
  have hlt : ∀ a : Fin 2, ((ix2 p q a).val : Int) < (S10240x10240.size a : Int) := by
    intro a
    match a with
    | ⟨0, _⟩ => exact (by have := p.isLt; omega : (p.val : Int) < ((10240 : Nat) : Int))
    | ⟨1, _⟩ => exact (by have := q.isLt; omega : (q.val : Int) < ((10240 : Nat) : Int))
  unfold ScatterDims.resultIdx?
  rw [dif_pos (fun a => by rw [hs a]; exact ⟨Int.natCast_nonneg _, hlt a⟩)]
  refine congrArg some (funext fun a => Fin.ext ?_)
  show (KHostA_sc.start (ix1 e) idx a + (KHostA_sc.window (ix1 e) a : Int)).toNat = (ix2 p q a).val
  rw [hs a]; exact Int.toNat_natCast _

/-- The wrap-around select on a list of index words: a negative word gets the table's extent added. -/
def KHostA_wrap (w : IVec S80000 32) : IVec S80000 32 :=
  select (cmpi .slt w (broadcastInDim S80000 ![] bcast_S_S80000 (constantI S_ 32 0#32)))
    (addi w (broadcastInDim S80000 ![] bcast_S_S80000 (constantI S_ 32 10240#32))) w

/-- A word that is not negative passes the wrap-around select unchanged. -/
theorem KHostA_wrap_apply (w : IVec S80000 32) (e : Fin 80000) (h : 0 ≤ (w (ix1 e)).toInt) :
    KHostA_wrap w (ix1 e) = w (ix1 e) := by
  have hc : cmpi .slt w (broadcastInDim S80000 ![] bcast_S_S80000 (constantI S_ 32 0#32)) (ix1 e) = 0#1 := by
    show BitVec.ofBool ((w (ix1 e)).slt (broadcastInDim S80000 ![] bcast_S_S80000 (constantI S_ 32 0#32) (ix1 e))) = 0#1
    rw [broadcastInDim_scalar_apply]
    show BitVec.ofBool ((w (ix1 e)).slt 0#32) = 0#1
    have : (w (ix1 e)).slt 0#32 = false := by
      rw [BitVec.slt_eq_decide, BitVec.toInt_zero]; exact decide_eq_false (not_lt.mpr h)
    rw [this]; rfl
  unfold KHostA_wrap
  rw [select_apply, hc, select_zero]

/-- The scatter's index operand: per edge the pair (target word, source word), each after the wrap-around select. -/
def KHostA_idx (a2 a1 : IVec S80000 32) : IVec S80000x2 32 :=
  concatenate S80000x2 1 [⟨S80000x1, broadcastInDim S80000x1 ![0] bcast_S80000_S80000x1_0 (KHostA_wrap a2)⟩,
    ⟨S80000x1, broadcastInDim S80000x1 ![0] bcast_S80000_S80000x1_0 (KHostA_wrap a1)⟩] concatenates_S80000x1_S80000x1_S80000x2_d1

/-- A list laid out as a column reads, at (e, 0), its entry e. -/
theorem KHostA_bcast1 (w : IVec S80000 32) (e : Fin 80000) :
    broadcastInDim S80000x1 ![0] bcast_S80000_S80000x1_0 w (ix2 e (0 : Fin 1)) = w (ix1 e) := by
  refine broadcastInDim_apply _ _ _ _ (ix1 e) ?_
  intro a
  match a with
  | ⟨0, _⟩ => rfl

/-- Column 0 of the index operand holds the target words … -/
theorem KHostA_idx_0 (a2 a1 : IVec S80000 32) (e : Fin 80000) :
    KHostA_idx a2 a1 (ix2 e (0 : Fin 2)) = KHostA_wrap a2 (ix1 e) := by
  unfold KHostA_idx
  refine (concatenate_pair_apply_left (t := S80000x2) (s₁ := S80000x1) (s₂ := S80000x1) _ _ _ _ (ix2 e (0 : Fin 2)) rfl (ix2 e (0 : Fin 1)) ?_).trans (KHostA_bcast1 _ e)
  intro b
  match b with
  | ⟨0, _⟩ => rfl
  | ⟨1, _⟩ => rfl

/-- … and column 1 the source words. -/
theorem KHostA_idx_1 (a2 a1 : IVec S80000 32) (e : Fin 80000) :
    KHostA_idx a2 a1 (ix2 e (1 : Fin 2)) = KHostA_wrap a1 (ix1 e) := by
  unfold KHostA_idx
  refine (concatenate_pair_apply_right (t := S80000x2) (s₁ := S80000x1) (s₂ := S80000x1) _ _ _ _ (ix2 e (1 : Fin 2)) rfl rfl (ix2 e (0 : Fin 1)) ?_ ?_).trans (KHostA_bcast1 _ e)
  · intro b hb
    match b with
    | ⟨0, _⟩ => rfl
    | ⟨1, _⟩ => exact absurd rfl hb
  · rfl

/-- The table as the host computes it from the two index word lists. -/
def KHostA_tab (a2 a1 : IVec S80000 32) : FVec Ideal S10240x10240 .bf16 :=
  truncf .bf16 (Host.scatterAdd KHostA_sc (broadcastInDim S10240x10240 ![] bcast_S_S10240x10240 (constant (F := Ideal) S_ .f32 0x00000000#32))
    (KHostA_idx a2 a1) (broadcastInDim S80000 ![] bcast_S_S80000 (constant (F := Ideal) S_ .f32 0x3F800000#32))) bitsLt_bf16_f32

/-- With every index word a node number, entry (r, c) of the table is the number of edges with target r and source c:
    the zero table adds nothing, each update is a one, and the updates landing at (r, c) are those edges. -/
theorem KHostA_tab_apply (a2 a1 : IVec S80000 32) (h2 : InRange a2) (h1 : InRange a1) (r c : Fin 10240) :
    KHostA_tab a2 a1 (ix2 r c) = cnt 10240 (node a1) (node a2) r c := by
  unfold KHostA_tab
  rw [truncf_apply]
  show Ideal.hostScatterAdd KHostA_sc _ (KHostA_idx a2 a1) _ (ix2 r c) = _
  unfold Ideal.hostScatterAdd
  rw [broadcastInDim_scalar_apply, constant_apply, Ideal.ofBits_zero_f32, zero_add]
  unfold cnt
  rw [Finset.sum_filter, Finset.sum_filter]
  refine Fintype.sum_equiv idxEquiv1 _ _ (fun j => ?_)
  obtain ⟨e, rfl⟩ : ∃ e, j = ix1 e := ⟨j 0, eq_ix1 j⟩
  have hp : (KHostA_idx a2 a1 (ix2 e (0 : Fin 2))).toInt = (((⟨(node a2 e).val, by have := (node a2 e).isLt; omega⟩ : Fin 10240).val : Nat) : Int) := by
    rw [KHostA_idx_0, KHostA_wrap_apply _ _ (h2 e).1]; exact (node_val h2 e).symm
  have hq : (KHostA_idx a2 a1 (ix2 e (1 : Fin 2))).toInt = (((⟨(node a1 e).val, by have := (node a1 e).isLt; omega⟩ : Fin 10240).val : Nat) : Int) := by
    rw [KHostA_idx_1, KHostA_wrap_apply _ _ (h1 e).1]; exact (node_val h1 e).symm
  rw [KHostA_resultIdx (KHostA_idx a2 a1) e _ _ hp hq, broadcastInDim_scalar_apply, constant_apply, Ideal.ofBits_one_f32]
  refine if_congr ?_ rfl rfl
  constructor
  · intro h
    have h' := Option.some.inj h
    exact ⟨congrArg Fin.val (congrFun h' (0 : Fin 2)), congrArg Fin.val (congrFun h' (1 : Fin 2))⟩
  · rintro ⟨h0, h1'⟩
    refine congrArg some (funext fun a => ?_)
    match a with
    | ⟨0, _⟩ => exact Fin.ext h0
    | ⟨1, _⟩ => exact Fin.ext h1'

/-! ## The table's buffer from the first stretch to the first region -/

variable (m : (ℓ : Loc nD τ sig) → Buf (Elt Ideal) ℓ) (ρ : Dev nD → PrngReg)

/-- Every operation of a stretch writes some other buffer than the table's. -/
local macro "khosta_skip" ops:ident : tactic => `(tactic| (
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- Between the first stretch and the first region nothing writes the table. -/
theorem KHostA_walk (c : Dev nD) :
    W18 (F := Ideal) m ρ c (Proc.devRef .tc main_v16) = W1 (F := Ideal) m ρ c (Proc.devRef .tc main_v16) :=
  calc W18 (F := Ideal) m ρ c (Proc.devRef .tc main_v16)
    _ = W17 (F := Ideal) m ρ c (Proc.devRef .tc main_v16) := StableHlo.after_of_forall_not_mem (b := Proc.devRef .tc main_v16) _ _ (List.forall_iff_forall_mem.mp (by khosta_skip hostOps0_17))
    _ = W16 (F := Ideal) m ρ c (Proc.devRef .tc main_v16) := StableHlo.after_of_forall_not_mem (b := Proc.devRef .tc main_v16) _ _ (List.forall_iff_forall_mem.mp (by khosta_skip hostOps0_16))
    _ = W15 (F := Ideal) m ρ c (Proc.devRef .tc main_v16) := StableHlo.after_of_forall_not_mem (b := Proc.devRef .tc main_v16) _ _ (List.forall_iff_forall_mem.mp (by khosta_skip hostOps0_15))
    _ = W14 (F := Ideal) m ρ c (Proc.devRef .tc main_v16) := StableHlo.after_of_forall_not_mem (b := Proc.devRef .tc main_v16) _ _ (List.forall_iff_forall_mem.mp (by khosta_skip hostOps0_14))
    _ = W13 (F := Ideal) m ρ c (Proc.devRef .tc main_v16) := StableHlo.after_of_forall_not_mem (b := Proc.devRef .tc main_v16) _ _ (List.forall_iff_forall_mem.mp (by khosta_skip hostOps0_13))
    _ = W12 (F := Ideal) m ρ c (Proc.devRef .tc main_v16) := StableHlo.after_of_forall_not_mem (b := Proc.devRef .tc main_v16) _ _ (List.forall_iff_forall_mem.mp (by khosta_skip hostOps0_12))
    _ = W11 (F := Ideal) m ρ c (Proc.devRef .tc main_v16) := StableHlo.after_of_forall_not_mem (b := Proc.devRef .tc main_v16) _ _ (List.forall_iff_forall_mem.mp (by khosta_skip hostOps0_11))
    _ = W10 (F := Ideal) m ρ c (Proc.devRef .tc main_v16) := StableHlo.after_of_forall_not_mem (b := Proc.devRef .tc main_v16) _ _ (List.forall_iff_forall_mem.mp (by khosta_skip hostOps0_10))
    _ = W9 (F := Ideal) m ρ c (Proc.devRef .tc main_v16) := StableHlo.after_of_forall_not_mem (b := Proc.devRef .tc main_v16) _ _ (List.forall_iff_forall_mem.mp (by khosta_skip hostOps0_9))
    _ = W8 (F := Ideal) m ρ c (Proc.devRef .tc main_v16) := StableHlo.after_of_forall_not_mem (b := Proc.devRef .tc main_v16) _ _ (List.forall_iff_forall_mem.mp (by khosta_skip hostOps0_8))
    _ = W7 (F := Ideal) m ρ c (Proc.devRef .tc main_v16) := StableHlo.after_of_forall_not_mem (b := Proc.devRef .tc main_v16) _ _ (List.forall_iff_forall_mem.mp (by khosta_skip hostOps0_7))
    _ = W6 (F := Ideal) m ρ c (Proc.devRef .tc main_v16) := StableHlo.after_of_forall_not_mem (b := Proc.devRef .tc main_v16) _ _ (List.forall_iff_forall_mem.mp (by khosta_skip hostOps0_6))
    _ = W5 (F := Ideal) m ρ c (Proc.devRef .tc main_v16) := StableHlo.after_of_forall_not_mem (b := Proc.devRef .tc main_v16) _ _ (List.forall_iff_forall_mem.mp (by khosta_skip hostOps0_5))
    _ = W4 (F := Ideal) m ρ c (Proc.devRef .tc main_v16) := StableHlo.after_of_forall_not_mem (b := Proc.devRef .tc main_v16) _ _ (List.forall_iff_forall_mem.mp (by khosta_skip hostOps0_4))
    _ = W3 (F := Ideal) m ρ c (Proc.devRef .tc main_v16) := StableHlo.after_of_forall_not_mem (b := Proc.devRef .tc main_v16) _ _ (List.forall_iff_forall_mem.mp (by khosta_skip hostOps0_3))
    _ = W2 (F := Ideal) m ρ c (Proc.devRef .tc main_v16) := StableHlo.after_of_forall_not_mem (b := Proc.devRef .tc main_v16) _ _ (List.forall_iff_forall_mem.mp (by khosta_skip hostOps0_2))
    _ = W1 (F := Ideal) m ρ c (Proc.devRef .tc main_v16) := StableHlo.after_of_forall_not_mem (b := Proc.devRef .tc main_v16) _ _ (List.forall_iff_forall_mem.mp (by khosta_skip hostOps0_1))

/-- After the first stretch the table's buffer holds the scatter of ones over the two launch index lists. -/
theorem KHostA_first (c : Dev nD) :
    W1 (F := Ideal) m ρ c (Proc.devRef .tc main_v16)
      = KHostA_tab (m ((c.tc : Thread nD τ).loc main_arg2)) (m ((c.tc : Thread nD τ).loc main_arg1)) := by
  dsimp only [W1]
  after_results_simp
  rfl

theorem A_entry (c : Dev nD) (h1 : InRange (m ((c.tc : Thread nD τ).loc main_arg1))) (h2 : InRange (m ((c.tc : Thread nD τ).loc main_arg2))) :
    cur2 (W18 (F := Ideal) m ρ c (Proc.devRef .tc main_v16)) = cnt 10240 (node (m ((c.tc : Thread nD τ).loc main_arg1))) (node (m ((c.tc : Thread nD τ).loc main_arg2))) := by
  funext r q
  rw [cur2_apply, KHostA_walk m ρ c, KHostA_first m ρ c]
  exact KHostA_tab_apply _ _ h2 h1 r q

end Cert.KernelIdeal.GCK
end
-- ==== Proof.KHostPad.lean ====
/-
  The padded tables. Before the first region the host pads the feature table, each weight table and each bias with
  zeros to tile-friendly extents (the change of float format after it is the identity on extended reals): each padded
  buffer, when the first region is entered, is the zero-padded argument.
-/
import proofs.«426275_j13812614824123_1_alg».proof.Proof.Gen.KernelIdeal.Frame
import proofs.«426275_j13812614824123_1_alg».proof.Proof.Spec
import Idealize.ShloMosaic.Lib.KernelVsHost
import Idealize.ShloMosaic.Lib.StableHlo.Run

set_option maxRecDepth 16384
noncomputable section
open scoped BigOperators
namespace Cert.KernelIdeal.GCK

open Cert.KernelIdeal Cert.KernelIdeal.Gen Idealize.ShloMosaic Idealize.ShloMosaic.TcCoe Idealize.SL.Sem Idealize.ShloMosaic.ValueIdx GC
open Idealize.ShloMosaic.Pipeline (Dat Cfg Window)

/-! ## A host pad after the last entries, with a padding value that is zero, read through coordinates -/

/-- A table padded after its last row and last column with a value that is zero, read through its two coordinates, is
    the table inside its own extents and zero outside. -/
private theorem khp_pad2 {a b A B : Nat} (hi : Fin 2 → Nat) (x : (⟨2, ![a, b]⟩ : Shape).Idx → EReal) {u : Shape} (v : u.Idx → EReal)
    (h : (⟨2, ![a, b]⟩ : Shape).Pads (![0, 0] : Fin 2 → Nat) hi ![0, 0] ⟨2, ![A, B]⟩) (hu : 0 < u.numel)
    (hv : v (Shape.Idx.first hu) = 0) :
    cur2 (pad ⟨2, ![A, B]⟩ ![0, 0] hi ![0, 0] x v h hu) = pad2 A B (cur2 x) := by
  funext i j
  rw [cur2_apply]
  unfold pad2
  by_cases hij : i.val < a ∧ j.val < b
  · rw [dif_pos hij, cur2_apply]
    exact pad_apply_of_inside _ _ _ x v h hu _ (ix2 (⟨i.val, hij.1⟩ : Fin a) (⟨j.val, hij.2⟩ : Fin b)) (by
      intro k
      match k with
      | ⟨0, _⟩ => show i.val = 0 + i.val * (0 + 1); omega
      | ⟨1, _⟩ => show j.val = 0 + j.val * (0 + 1); omega)
  · rw [dif_neg hij, ← hv]
    by_cases hi' : i.val < a
    · have hj : ¬ j.val < b := fun hj => hij ⟨hi', hj⟩
      exact pad_apply_of_not_inside _ _ _ x v h hu _ (1 : Fin 2) (by
        intro hin
        have e : (j.val - 0) / (0 + 1) < b := hin.2.2
        rw [Nat.sub_zero, Nat.zero_add, Nat.div_one] at e
        exact hj e)
    · exact pad_apply_of_not_inside _ _ _ x v h hu _ (0 : Fin 2) (by
        intro hin
        have e : (i.val - 0) / (0 + 1) < a := hin.2.2
        rw [Nat.sub_zero, Nat.zero_add, Nat.div_one] at e
        exact hi' e)

/-- A vector padded after its last entry with a value that is zero is the vector inside its own extent and zero outside. -/
private theorem khp_pad1 {a A : Nat} (hi : Fin 1 → Nat) (x : (⟨1, ![a]⟩ : Shape).Idx → EReal) {u : Shape} (v : u.Idx → EReal)
    (h : (⟨1, ![a]⟩ : Shape).Pads (![0] : Fin 1 → Nat) hi ![0] ⟨1, ![A]⟩) (hu : 0 < u.numel)
    (hv : v (Shape.Idx.first hu) = 0) :
    cur1 (pad ⟨1, ![A]⟩ ![0] hi ![0] x v h hu) = pad1 A (cur1 x) := by
  funext i
  rw [cur1_apply]
  unfold pad1
  by_cases hi' : i.val < a
  · rw [dif_pos hi', cur1_apply]
    exact pad_apply_of_inside _ _ _ x v h hu _ (ix1 (⟨i.val, hi'⟩ : Fin a)) (by
      intro k
      match k with
      | ⟨0, _⟩ => show i.val = 0 + i.val * (0 + 1); omega)
  · rw [dif_neg hi', ← hv]
    exact pad_apply_of_not_inside _ _ _ x v h hu _ (0 : Fin 1) (by
      intro hin
      have e : (i.val - 0) / (0 + 1) < a := hin.2.2
      rw [Nat.sub_zero, Nat.zero_add, Nat.div_one] at e
      exact hi' e)

/-- The padding value, the integer zero converted, is zero. -/
private theorem khp_zero :
    (sitofp .f32 (constantI S_ 32 0#32 : IVec S_ 32) : FVec Ideal S_ .f32) (Shape.Idx.first h_S_) = 0 :=
  sitofp_zero

variable (m : (ℓ : Loc nD τ sig) → Buf (Elt Ideal) ℓ) (ρ : Dev nD → PrngReg)

/-! ## A stretch of host operations leaves a buffer it does not write as it found it -/

private theorem khp_skip0 (V : Valuation τ sig (Elt Ideal)) (b : Ref sig .tc)
    (hb : ∀ w ∈ [main_cst, main_v0, main_c, main_v1, main_v2, main_c_0, main_v3, main_v4, main_v5, main_c_1, main_v6, main_v7, main_c_2, main_v8, main_v9, main_v10, main_v11, main_v12, main_v13, main_cst_3, main_v14, main_v15, main_v16, main_c_4], b ≠ w) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip1 (V : Valuation τ sig (Elt Ideal)) (b : Ref sig .tc)
    (hb : ∀ w ∈ [main_call0_v0, main_v17], b ≠ w) :
    StableHlo.after hostOps0_1 V (Proc.devRef .tc b) = V (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip2 (V : Valuation τ sig (Elt Ideal)) (b : Ref sig .tc)
    (hb : ∀ w ∈ [main_v18, main_c_5], b ≠ w) :
    StableHlo.after hostOps0_2 V (Proc.devRef .tc b) = V (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip3 (V : Valuation τ sig (Elt Ideal)) (b : Ref sig .tc)
    (hb : ∀ w ∈ [main_call1_v0, main_v19], b ≠ w) :
    StableHlo.after hostOps0_3 V (Proc.devRef .tc b) = V (Proc.devRef .tc b) :=
  StableHlo.after_of_forall_not_mem (b := Proc.devRef .tc b) _ _ (List.forall_iff_forall_mem.mp (by
    simp only [hostOps0_3, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip4 (V : Valuation τ sig (Elt Ideal)) (b : Ref sig .tc)
    (hb : ∀ w ∈ [main_v20, main_c_6], b ≠ w) :
    StableHlo.after hostOps0_4 V (Proc.devRef .tc b) = V (Proc.devRef .tc b) :=
  StableHlo.after_of_forall_not_mem (b := Proc.devRef .tc b) _ _ (List.forall_iff_forall_mem.mp (by
    simp only [hostOps0_4, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip5 (V : Valuation τ sig (Elt Ideal)) (b : Ref sig .tc)
    (hb : ∀ w ∈ [main_call2_v0, main_v21], b ≠ w) :
    StableHlo.after hostOps0_5 V (Proc.devRef .tc b) = V (Proc.devRef .tc b) :=
  StableHlo.after_of_forall_not_mem (b := Proc.devRef .tc b) _ _ (List.forall_iff_forall_mem.mp (by
    simp only [hostOps0_5, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip6 (V : Valuation τ sig (Elt Ideal)) (b : Ref sig .tc)
    (hb : ∀ w ∈ [main_c_7], b ≠ w) :
    StableHlo.after hostOps0_6 V (Proc.devRef .tc b) = V (Proc.devRef .tc b) :=
  StableHlo.after_of_forall_not_mem (b := Proc.devRef .tc b) _ _ (List.forall_iff_forall_mem.mp (by
    simp only [hostOps0_6, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip7 (V : Valuation τ sig (Elt Ideal)) (b : Ref sig .tc)
    (hb : ∀ w ∈ [main_call3_v0, main_v22], b ≠ w) :
    StableHlo.after hostOps0_7 V (Proc.devRef .tc b) = V (Proc.devRef .tc b) :=
  StableHlo.after_of_forall_not_mem (b := Proc.devRef .tc b) _ _ (List.forall_iff_forall_mem.mp (by
    simp only [hostOps0_7, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip8 (V : Valuation τ sig (Elt Ideal)) (b : Ref sig .tc)
    (hb : ∀ w ∈ [main_v23, main_c_8], b ≠ w) :
    StableHlo.after hostOps0_8 V (Proc.devRef .tc b) = V (Proc.devRef .tc b) :=
  StableHlo.after_of_forall_not_mem (b := Proc.devRef .tc b) _ _ (List.forall_iff_forall_mem.mp (by
    simp only [hostOps0_8, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip9 (V : Valuation τ sig (Elt Ideal)) (b : Ref sig .tc)
    (hb : ∀ w ∈ [main_call4_v0, main_v24], b ≠ w) :
    StableHlo.after hostOps0_9 V (Proc.devRef .tc b) = V (Proc.devRef .tc b) :=
  StableHlo.after_of_forall_not_mem (b := Proc.devRef .tc b) _ _ (List.forall_iff_forall_mem.mp (by
    simp only [hostOps0_9, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip10 (V : Valuation τ sig (Elt Ideal)) (b : Ref sig .tc)
    (hb : ∀ w ∈ [main_c_9], b ≠ w) :
    StableHlo.after hostOps0_10 V (Proc.devRef .tc b) = V (Proc.devRef .tc b) :=
  StableHlo.after_of_forall_not_mem (b := Proc.devRef .tc b) _ _ (List.forall_iff_forall_mem.mp (by
    simp only [hostOps0_10, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip11 (V : Valuation τ sig (Elt Ideal)) (b : Ref sig .tc)
    (hb : ∀ w ∈ [main_call5_v0, main_v25], b ≠ w) :
    StableHlo.after hostOps0_11 V (Proc.devRef .tc b) = V (Proc.devRef .tc b) :=
  StableHlo.after_of_forall_not_mem (b := Proc.devRef .tc b) _ _ (List.forall_iff_forall_mem.mp (by
    simp only [hostOps0_11, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip12 (V : Valuation τ sig (Elt Ideal)) (b : Ref sig .tc)
    (hb : ∀ w ∈ [main_v26, main_c_10], b ≠ w) :
    StableHlo.after hostOps0_12 V (Proc.devRef .tc b) = V (Proc.devRef .tc b) :=
  StableHlo.after_of_forall_not_mem (b := Proc.devRef .tc b) _ _ (List.forall_iff_forall_mem.mp (by
    simp only [hostOps0_12, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip13 (V : Valuation τ sig (Elt Ideal)) (b : Ref sig .tc)
    (hb : ∀ w ∈ [main_call6_v0, main_v27], b ≠ w) :
    StableHlo.after hostOps0_13 V (Proc.devRef .tc b) = V (Proc.devRef .tc b) :=
  StableHlo.after_of_forall_not_mem (b := Proc.devRef .tc b) _ _ (List.forall_iff_forall_mem.mp (by
    simp only [hostOps0_13, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip14 (V : Valuation τ sig (Elt Ideal)) (b : Ref sig .tc)
    (hb : ∀ w ∈ [main_c_11], b ≠ w) :
    StableHlo.after hostOps0_14 V (Proc.devRef .tc b) = V (Proc.devRef .tc b) :=
  StableHlo.after_of_forall_not_mem (b := Proc.devRef .tc b) _ _ (List.forall_iff_forall_mem.mp (by
    simp only [hostOps0_14, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip15 (V : Valuation τ sig (Elt Ideal)) (b : Ref sig .tc)
    (hb : ∀ w ∈ [main_call7_v0, main_v28], b ≠ w) :
    StableHlo.after hostOps0_15 V (Proc.devRef .tc b) = V (Proc.devRef .tc b) :=
  StableHlo.after_of_forall_not_mem (b := Proc.devRef .tc b) _ _ (List.forall_iff_forall_mem.mp (by
    simp only [hostOps0_15, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip16 (V : Valuation τ sig (Elt Ideal)) (b : Ref sig .tc)
    (hb : ∀ w ∈ [main_v29, main_c_12], b ≠ w) :
    StableHlo.after hostOps0_16 V (Proc.devRef .tc b) = V (Proc.devRef .tc b) :=
  StableHlo.after_of_forall_not_mem (b := Proc.devRef .tc b) _ _ (List.forall_iff_forall_mem.mp (by
    simp only [hostOps0_16, List.Forall, StableHlo.nullary_writes, StableHlo.unary_writes, StableHlo.binary_writes,
      StableHlo.ternary_writes, Finset.mem_singleton]
    repeat' apply And.intro
    all_goals exact StableHlo.devRef_ne_of_ne (hb _ (by decide))))

private theorem khp_skip17 (V : Valuation τ sig (Elt Ideal)) (b : Ref sig .tc)
    (hb : ∀ w ∈ [main_call8_v0, main_v30], b ≠ w) :
    StableHlo.after hostOps0_17 V (Proc.devRef .tc b) = V (Proc.devRef .tc b) :=
  StableHlo.after_of_forall_not_mem (b := Proc.devRef .tc b) _ _ (List.forall_iff_forall_mem.mp (by
    simp only [hostOps0_17, List.Forall, StableHlo.nullary_writes, StableHlo.unary_writes, StableHlo.binary_writes,
      StableHlo.ternary_writes, Finset.mem_singleton]
    repeat' apply And.intro
    all_goals exact StableHlo.devRef_ne_of_ne (hb _ (by decide))))

/-! ## What the writing stretches leave in the buffers they write -/

/-- The integer zero the padding of the feature table converts. -/
private theorem khp_const_xp (V : Valuation τ sig (Elt Ideal)) :
    (StableHlo.after hostOps0 V (Proc.devRef .tc main_c_4) : IVec S_ 32) = constantI S_ 32 0#32 := by
  after_results

/-- The feature table padded. -/
private theorem khp_padop_xp (V : Valuation τ sig (Elt Ideal)) :
    (StableHlo.after hostOps0_1 V (Proc.devRef .tc main_v17) : S10240x128.Idx → EReal)
      = pad S10240x128 ![0, 0] ![240, 106] ![0, 0] (V (Proc.devRef .tc main_arg0) : S10000x22.Idx → EReal)
          (sitofp .f32 (V (Proc.devRef .tc main_c_4) : IVec S_ 32) : FVec Ideal S_ .f32) pads_S10000x22_S10240x128_02400_01060 h_S_ := by
  after_results
  rfl

/-- The change of float format keeps the padded feature table. -/
private theorem khp_trunc_xp (V : Valuation τ sig (Elt Ideal)) :
    (StableHlo.after hostOps0_2 V (Proc.devRef .tc main_v18) : S10240x128.Idx → EReal) = V (Proc.devRef .tc main_v17) := by
  after_results
  rfl

/-- The integer zero the padding of the first weight table converts. -/
private theorem khp_const_W1p (V : Valuation τ sig (Elt Ideal)) :
    (StableHlo.after hostOps0_2 V (Proc.devRef .tc main_c_5) : IVec S_ 32) = constantI S_ 32 0#32 := by
  after_results

/-- The first weight table padded. -/
private theorem khp_padop_W1p (V : Valuation τ sig (Elt Ideal)) :
    (StableHlo.after hostOps0_3 V (Proc.devRef .tc main_v19) : S128x1024.Idx → EReal)
      = pad S128x1024 ![0, 0] ![106, 24] ![0, 0] (V (Proc.devRef .tc main_arg3) : S22x1000.Idx → EReal)
          (sitofp .f32 (V (Proc.devRef .tc main_c_5) : IVec S_ 32) : FVec Ideal S_ .f32) pads_S22x1000_S128x1024_01060_0240 h_S_ := by
  after_results
  rfl

/-- The change of float format keeps the padded first weight table. -/
private theorem khp_trunc_W1p (V : Valuation τ sig (Elt Ideal)) :
    (StableHlo.after hostOps0_4 V (Proc.devRef .tc main_v20) : S128x1024.Idx → EReal) = V (Proc.devRef .tc main_v19) := by
  after_results
  rfl

/-- The integer zero the padding of the first bias converts. -/
private theorem khp_const_b1p (V : Valuation τ sig (Elt Ideal)) :
    (StableHlo.after hostOps0_4 V (Proc.devRef .tc main_c_6) : IVec S_ 32) = constantI S_ 32 0#32 := by
  after_results

/-- The first bias padded. -/
private theorem khp_padop_b1p (V : Valuation τ sig (Elt Ideal)) :
    (StableHlo.after hostOps0_5 V (Proc.devRef .tc main_v21) : S1024.Idx → EReal)
      = pad S1024 ![0] ![24] ![0] (V (Proc.devRef .tc main_arg4) : S1000.Idx → EReal)
          (sitofp .f32 (V (Proc.devRef .tc main_c_6) : IVec S_ 32) : FVec Ideal S_ .f32) pads_S1000_S1024_0240 h_S_ := by
  after_results
  rfl

/-- The integer zero the padding of the second weight table converts. -/
private theorem khp_const_W2p (V : Valuation τ sig (Elt Ideal)) :
    (StableHlo.after hostOps0_6 V (Proc.devRef .tc main_c_7) : IVec S_ 32) = constantI S_ 32 0#32 := by
  after_results

/-- The second weight table padded. -/
private theorem khp_padop_W2p (V : Valuation τ sig (Elt Ideal)) :
    (StableHlo.after hostOps0_7 V (Proc.devRef .tc main_v22) : S1024x1024.Idx → EReal)
      = pad S1024x1024 ![0, 0] ![24, 24] ![0, 0] (V (Proc.devRef .tc main_arg5) : S1000x1000.Idx → EReal)
          (sitofp .f32 (V (Proc.devRef .tc main_c_7) : IVec S_ 32) : FVec Ideal S_ .f32) pads_S1000x1000_S1024x1024_0240_0240 h_S_ := by
  after_results
  rfl

/-- The change of float format keeps the padded second weight table. -/
private theorem khp_trunc_W2p (V : Valuation τ sig (Elt Ideal)) :
    (StableHlo.after hostOps0_8 V (Proc.devRef .tc main_v23) : S1024x1024.Idx → EReal) = V (Proc.devRef .tc main_v22) := by
  after_results
  rfl

/-- The integer zero the padding of the second bias converts. -/
private theorem khp_const_b2p (V : Valuation τ sig (Elt Ideal)) :
    (StableHlo.after hostOps0_8 V (Proc.devRef .tc main_c_8) : IVec S_ 32) = constantI S_ 32 0#32 := by
  after_results

/-- The second bias padded. -/
private theorem khp_padop_b2p (V : Valuation τ sig (Elt Ideal)) :
    (StableHlo.after hostOps0_9 V (Proc.devRef .tc main_v24) : S1024.Idx → EReal)
      = pad S1024 ![0] ![24] ![0] (V (Proc.devRef .tc main_arg6) : S1000.Idx → EReal)
          (sitofp .f32 (V (Proc.devRef .tc main_c_8) : IVec S_ 32) : FVec Ideal S_ .f32) pads_S1000_S1024_0240 h_S_ := by
  after_results
  rfl

/-- The integer zero the padding of the third weight table converts. -/
private theorem khp_const_W3p (V : Valuation τ sig (Elt Ideal)) :
    (StableHlo.after hostOps0_10 V (Proc.devRef .tc main_c_9) : IVec S_ 32) = constantI S_ 32 0#32 := by
  after_results

/-- The third weight table padded. -/
private theorem khp_padop_W3p (V : Valuation τ sig (Elt Ideal)) :
    (StableHlo.after hostOps0_11 V (Proc.devRef .tc main_v25) : S1024x1024.Idx → EReal)
      = pad S1024x1024 ![0, 0] ![24, 24] ![0, 0] (V (Proc.devRef .tc main_arg7) : S1000x1000.Idx → EReal)
          (sitofp .f32 (V (Proc.devRef .tc main_c_9) : IVec S_ 32) : FVec Ideal S_ .f32) pads_S1000x1000_S1024x1024_0240_0240 h_S_ := by
  after_results
  rfl

/-- The change of float format keeps the padded third weight table. -/
private theorem khp_trunc_W3p (V : Valuation τ sig (Elt Ideal)) :
    (StableHlo.after hostOps0_12 V (Proc.devRef .tc main_v26) : S1024x1024.Idx → EReal) = V (Proc.devRef .tc main_v25) := by
  after_results
  rfl

/-- The integer zero the padding of the third bias converts. -/
private theorem khp_const_b3p (V : Valuation τ sig (Elt Ideal)) :
    (StableHlo.after hostOps0_12 V (Proc.devRef .tc main_c_10) : IVec S_ 32) = constantI S_ 32 0#32 := by
  after_results

/-- The third bias padded. -/
private theorem khp_padop_b3p (V : Valuation τ sig (Elt Ideal)) :
    (StableHlo.after hostOps0_13 V (Proc.devRef .tc main_v27) : S1024.Idx → EReal)
      = pad S1024 ![0] ![24] ![0] (V (Proc.devRef .tc main_arg8) : S1000.Idx → EReal)
          (sitofp .f32 (V (Proc.devRef .tc main_c_10) : IVec S_ 32) : FVec Ideal S_ .f32) pads_S1000_S1024_0240 h_S_ := by
  after_results
  rfl

/-- The integer zero the padding of the fourth weight table converts. -/
private theorem khp_const_W4p (V : Valuation τ sig (Elt Ideal)) :
    (StableHlo.after hostOps0_14 V (Proc.devRef .tc main_c_11) : IVec S_ 32) = constantI S_ 32 0#32 := by
  after_results

/-- The fourth weight table padded. -/
private theorem khp_padop_W4p (V : Valuation τ sig (Elt Ideal)) :
    (StableHlo.after hostOps0_15 V (Proc.devRef .tc main_v28) : S1024x128.Idx → EReal)
      = pad S1024x128 ![0, 0] ![24, 108] ![0, 0] (V (Proc.devRef .tc main_arg9) : S1000x20.Idx → EReal)
          (sitofp .f32 (V (Proc.devRef .tc main_c_11) : IVec S_ 32) : FVec Ideal S_ .f32) pads_S1000x20_S1024x128_0240_01080 h_S_ := by
  after_results
  rfl

/-- The change of float format keeps the padded fourth weight table. -/
private theorem khp_trunc_W4p (V : Valuation τ sig (Elt Ideal)) :
    (StableHlo.after hostOps0_16 V (Proc.devRef .tc main_v29) : S1024x128.Idx → EReal) = V (Proc.devRef .tc main_v28) := by
  after_results
  rfl

/-- The integer zero the padding of the fourth bias converts. -/
private theorem khp_const_b4p (V : Valuation τ sig (Elt Ideal)) :
    (StableHlo.after hostOps0_16 V (Proc.devRef .tc main_c_12) : IVec S_ 32) = constantI S_ 32 0#32 := by
  after_results

/-- The fourth bias padded. -/
private theorem khp_padop_b4p (V : Valuation τ sig (Elt Ideal)) :
    (StableHlo.after hostOps0_17 V (Proc.devRef .tc main_v30) : S128.Idx → EReal)
      = pad S128 ![0] ![108] ![0] (V (Proc.devRef .tc main_arg10) : S20.Idx → EReal)
          (sitofp .f32 (V (Proc.devRef .tc main_c_12) : IVec S_ 32) : FVec Ideal S_ .f32) pads_S20_S128_01080 h_S_ := by
  after_results
  rfl

/-! ## Each padded buffer, walked from the first region's entry back to the launch -/

/-- The feature table is as launched when its padding reads it. -/
private theorem khp_arg_xp (c : Dev nD) :
    (W1 (F := Ideal) m ρ c (Proc.devRef .tc main_arg0) : S10000x22.Idx → EReal) = m ((c.tc : Thread nD τ).loc main_arg0) :=
  calc (W1 (F := Ideal) m ρ c (Proc.devRef .tc main_arg0) : S10000x22.Idx → EReal)
    _ = W0 (F := Ideal) m ρ c (Proc.devRef .tc main_arg0) := khp_skip0 _ main_arg0 (by decide)
    _ = m ((c.tc : Thread nD τ).loc main_arg0) := rfl

/-- The padded feature table at the first region's entry is the host's pad of the argument with the converted zero. -/
private theorem khp_buf_xp (c : Dev nD) :
    (W18 (F := Ideal) m ρ c (Proc.devRef .tc main_v18) : S10240x128.Idx → EReal)
      = pad S10240x128 ![0, 0] ![240, 106] ![0, 0] (m ((c.tc : Thread nD τ).loc main_arg0) : S10000x22.Idx → EReal)
          (sitofp .f32 (constantI S_ 32 0#32 : IVec S_ 32) : FVec Ideal S_ .f32) pads_S10000x22_S10240x128_02400_01060 h_S_ :=
  calc (W18 (F := Ideal) m ρ c (Proc.devRef .tc main_v18) : S10240x128.Idx → EReal)
    _ = W17 (F := Ideal) m ρ c (Proc.devRef .tc main_v18) := khp_skip17 _ main_v18 (by decide)
    _ = W16 (F := Ideal) m ρ c (Proc.devRef .tc main_v18) := khp_skip16 _ main_v18 (by decide)
    _ = W15 (F := Ideal) m ρ c (Proc.devRef .tc main_v18) := khp_skip15 _ main_v18 (by decide)
    _ = W14 (F := Ideal) m ρ c (Proc.devRef .tc main_v18) := khp_skip14 _ main_v18 (by decide)
    _ = W13 (F := Ideal) m ρ c (Proc.devRef .tc main_v18) := khp_skip13 _ main_v18 (by decide)
    _ = W12 (F := Ideal) m ρ c (Proc.devRef .tc main_v18) := khp_skip12 _ main_v18 (by decide)
    _ = W11 (F := Ideal) m ρ c (Proc.devRef .tc main_v18) := khp_skip11 _ main_v18 (by decide)
    _ = W10 (F := Ideal) m ρ c (Proc.devRef .tc main_v18) := khp_skip10 _ main_v18 (by decide)
    _ = W9 (F := Ideal) m ρ c (Proc.devRef .tc main_v18) := khp_skip9 _ main_v18 (by decide)
    _ = W8 (F := Ideal) m ρ c (Proc.devRef .tc main_v18) := khp_skip8 _ main_v18 (by decide)
    _ = W7 (F := Ideal) m ρ c (Proc.devRef .tc main_v18) := khp_skip7 _ main_v18 (by decide)
    _ = W6 (F := Ideal) m ρ c (Proc.devRef .tc main_v18) := khp_skip6 _ main_v18 (by decide)
    _ = W5 (F := Ideal) m ρ c (Proc.devRef .tc main_v18) := khp_skip5 _ main_v18 (by decide)
    _ = W4 (F := Ideal) m ρ c (Proc.devRef .tc main_v18) := khp_skip4 _ main_v18 (by decide)
    _ = W3 (F := Ideal) m ρ c (Proc.devRef .tc main_v18) := khp_skip3 _ main_v18 (by decide)
    _ = W2 (F := Ideal) m ρ c (Proc.devRef .tc main_v17) := khp_trunc_xp _
    _ = pad S10240x128 ![0, 0] ![240, 106] ![0, 0] (W1 (F := Ideal) m ρ c (Proc.devRef .tc main_arg0) : S10000x22.Idx → EReal)
          (sitofp .f32 (W1 (F := Ideal) m ρ c (Proc.devRef .tc main_c_4) : IVec S_ 32) : FVec Ideal S_ .f32) pads_S10000x22_S10240x128_02400_01060 h_S_ := khp_padop_xp _
    _ = _ := by rw [khp_arg_xp m ρ c, show (W1 (F := Ideal) m ρ c (Proc.devRef .tc main_c_4) : IVec S_ 32) = constantI S_ 32 0#32 from khp_const_xp _]

/-- The first weight table is as launched when its padding reads it. -/
private theorem khp_arg_W1p (c : Dev nD) :
    (W3 (F := Ideal) m ρ c (Proc.devRef .tc main_arg3) : S22x1000.Idx → EReal) = m ((c.tc : Thread nD τ).loc main_arg3) :=
  calc (W3 (F := Ideal) m ρ c (Proc.devRef .tc main_arg3) : S22x1000.Idx → EReal)
    _ = W2 (F := Ideal) m ρ c (Proc.devRef .tc main_arg3) := khp_skip2 _ main_arg3 (by decide)
    _ = W1 (F := Ideal) m ρ c (Proc.devRef .tc main_arg3) := khp_skip1 _ main_arg3 (by decide)
    _ = W0 (F := Ideal) m ρ c (Proc.devRef .tc main_arg3) := khp_skip0 _ main_arg3 (by decide)
    _ = m ((c.tc : Thread nD τ).loc main_arg3) := rfl

/-- The padded first weight table at the first region's entry is the host's pad of the argument with the converted zero. -/
private theorem khp_buf_W1p (c : Dev nD) :
    (W18 (F := Ideal) m ρ c (Proc.devRef .tc main_v20) : S128x1024.Idx → EReal)
      = pad S128x1024 ![0, 0] ![106, 24] ![0, 0] (m ((c.tc : Thread nD τ).loc main_arg3) : S22x1000.Idx → EReal)
          (sitofp .f32 (constantI S_ 32 0#32 : IVec S_ 32) : FVec Ideal S_ .f32) pads_S22x1000_S128x1024_01060_0240 h_S_ :=
  calc (W18 (F := Ideal) m ρ c (Proc.devRef .tc main_v20) : S128x1024.Idx → EReal)
    _ = W17 (F := Ideal) m ρ c (Proc.devRef .tc main_v20) := khp_skip17 _ main_v20 (by decide)
    _ = W16 (F := Ideal) m ρ c (Proc.devRef .tc main_v20) := khp_skip16 _ main_v20 (by decide)
    _ = W15 (F := Ideal) m ρ c (Proc.devRef .tc main_v20) := khp_skip15 _ main_v20 (by decide)
    _ = W14 (F := Ideal) m ρ c (Proc.devRef .tc main_v20) := khp_skip14 _ main_v20 (by decide)
    _ = W13 (F := Ideal) m ρ c (Proc.devRef .tc main_v20) := khp_skip13 _ main_v20 (by decide)
    _ = W12 (F := Ideal) m ρ c (Proc.devRef .tc main_v20) := khp_skip12 _ main_v20 (by decide)
    _ = W11 (F := Ideal) m ρ c (Proc.devRef .tc main_v20) := khp_skip11 _ main_v20 (by decide)
    _ = W10 (F := Ideal) m ρ c (Proc.devRef .tc main_v20) := khp_skip10 _ main_v20 (by decide)
    _ = W9 (F := Ideal) m ρ c (Proc.devRef .tc main_v20) := khp_skip9 _ main_v20 (by decide)
    _ = W8 (F := Ideal) m ρ c (Proc.devRef .tc main_v20) := khp_skip8 _ main_v20 (by decide)
    _ = W7 (F := Ideal) m ρ c (Proc.devRef .tc main_v20) := khp_skip7 _ main_v20 (by decide)
    _ = W6 (F := Ideal) m ρ c (Proc.devRef .tc main_v20) := khp_skip6 _ main_v20 (by decide)
    _ = W5 (F := Ideal) m ρ c (Proc.devRef .tc main_v20) := khp_skip5 _ main_v20 (by decide)
    _ = W4 (F := Ideal) m ρ c (Proc.devRef .tc main_v19) := khp_trunc_W1p _
    _ = pad S128x1024 ![0, 0] ![106, 24] ![0, 0] (W3 (F := Ideal) m ρ c (Proc.devRef .tc main_arg3) : S22x1000.Idx → EReal)
          (sitofp .f32 (W3 (F := Ideal) m ρ c (Proc.devRef .tc main_c_5) : IVec S_ 32) : FVec Ideal S_ .f32) pads_S22x1000_S128x1024_01060_0240 h_S_ := khp_padop_W1p _
    _ = _ := by rw [khp_arg_W1p m ρ c, show (W3 (F := Ideal) m ρ c (Proc.devRef .tc main_c_5) : IVec S_ 32) = constantI S_ 32 0#32 from khp_const_W1p _]

/-- The first bias is as launched when its padding reads it. -/
private theorem khp_arg_b1p (c : Dev nD) :
    (W5 (F := Ideal) m ρ c (Proc.devRef .tc main_arg4) : S1000.Idx → EReal) = m ((c.tc : Thread nD τ).loc main_arg4) :=
  calc (W5 (F := Ideal) m ρ c (Proc.devRef .tc main_arg4) : S1000.Idx → EReal)
    _ = W4 (F := Ideal) m ρ c (Proc.devRef .tc main_arg4) := khp_skip4 _ main_arg4 (by decide)
    _ = W3 (F := Ideal) m ρ c (Proc.devRef .tc main_arg4) := khp_skip3 _ main_arg4 (by decide)
    _ = W2 (F := Ideal) m ρ c (Proc.devRef .tc main_arg4) := khp_skip2 _ main_arg4 (by decide)
    _ = W1 (F := Ideal) m ρ c (Proc.devRef .tc main_arg4) := khp_skip1 _ main_arg4 (by decide)
    _ = W0 (F := Ideal) m ρ c (Proc.devRef .tc main_arg4) := khp_skip0 _ main_arg4 (by decide)
    _ = m ((c.tc : Thread nD τ).loc main_arg4) := rfl

/-- The padded first bias at the first region's entry is the host's pad of the argument with the converted zero. -/
private theorem khp_buf_b1p (c : Dev nD) :
    (W18 (F := Ideal) m ρ c (Proc.devRef .tc main_v21) : S1024.Idx → EReal)
      = pad S1024 ![0] ![24] ![0] (m ((c.tc : Thread nD τ).loc main_arg4) : S1000.Idx → EReal)
          (sitofp .f32 (constantI S_ 32 0#32 : IVec S_ 32) : FVec Ideal S_ .f32) pads_S1000_S1024_0240 h_S_ :=
  calc (W18 (F := Ideal) m ρ c (Proc.devRef .tc main_v21) : S1024.Idx → EReal)
    _ = W17 (F := Ideal) m ρ c (Proc.devRef .tc main_v21) := khp_skip17 _ main_v21 (by decide)
    _ = W16 (F := Ideal) m ρ c (Proc.devRef .tc main_v21) := khp_skip16 _ main_v21 (by decide)
    _ = W15 (F := Ideal) m ρ c (Proc.devRef .tc main_v21) := khp_skip15 _ main_v21 (by decide)
    _ = W14 (F := Ideal) m ρ c (Proc.devRef .tc main_v21) := khp_skip14 _ main_v21 (by decide)
    _ = W13 (F := Ideal) m ρ c (Proc.devRef .tc main_v21) := khp_skip13 _ main_v21 (by decide)
    _ = W12 (F := Ideal) m ρ c (Proc.devRef .tc main_v21) := khp_skip12 _ main_v21 (by decide)
    _ = W11 (F := Ideal) m ρ c (Proc.devRef .tc main_v21) := khp_skip11 _ main_v21 (by decide)
    _ = W10 (F := Ideal) m ρ c (Proc.devRef .tc main_v21) := khp_skip10 _ main_v21 (by decide)
    _ = W9 (F := Ideal) m ρ c (Proc.devRef .tc main_v21) := khp_skip9 _ main_v21 (by decide)
    _ = W8 (F := Ideal) m ρ c (Proc.devRef .tc main_v21) := khp_skip8 _ main_v21 (by decide)
    _ = W7 (F := Ideal) m ρ c (Proc.devRef .tc main_v21) := khp_skip7 _ main_v21 (by decide)
    _ = W6 (F := Ideal) m ρ c (Proc.devRef .tc main_v21) := khp_skip6 _ main_v21 (by decide)
    _ = pad S1024 ![0] ![24] ![0] (W5 (F := Ideal) m ρ c (Proc.devRef .tc main_arg4) : S1000.Idx → EReal)
          (sitofp .f32 (W5 (F := Ideal) m ρ c (Proc.devRef .tc main_c_6) : IVec S_ 32) : FVec Ideal S_ .f32) pads_S1000_S1024_0240 h_S_ := khp_padop_b1p _
    _ = _ := by rw [khp_arg_b1p m ρ c, show (W5 (F := Ideal) m ρ c (Proc.devRef .tc main_c_6) : IVec S_ 32) = constantI S_ 32 0#32 from khp_const_b1p _]

/-- The second weight table is as launched when its padding reads it. -/
private theorem khp_arg_W2p (c : Dev nD) :
    (W7 (F := Ideal) m ρ c (Proc.devRef .tc main_arg5) : S1000x1000.Idx → EReal) = m ((c.tc : Thread nD τ).loc main_arg5) :=
  calc (W7 (F := Ideal) m ρ c (Proc.devRef .tc main_arg5) : S1000x1000.Idx → EReal)
    _ = W6 (F := Ideal) m ρ c (Proc.devRef .tc main_arg5) := khp_skip6 _ main_arg5 (by decide)
    _ = W5 (F := Ideal) m ρ c (Proc.devRef .tc main_arg5) := khp_skip5 _ main_arg5 (by decide)
    _ = W4 (F := Ideal) m ρ c (Proc.devRef .tc main_arg5) := khp_skip4 _ main_arg5 (by decide)
    _ = W3 (F := Ideal) m ρ c (Proc.devRef .tc main_arg5) := khp_skip3 _ main_arg5 (by decide)
    _ = W2 (F := Ideal) m ρ c (Proc.devRef .tc main_arg5) := khp_skip2 _ main_arg5 (by decide)
    _ = W1 (F := Ideal) m ρ c (Proc.devRef .tc main_arg5) := khp_skip1 _ main_arg5 (by decide)
    _ = W0 (F := Ideal) m ρ c (Proc.devRef .tc main_arg5) := khp_skip0 _ main_arg5 (by decide)
    _ = m ((c.tc : Thread nD τ).loc main_arg5) := rfl

/-- The padded second weight table at the first region's entry is the host's pad of the argument with the converted zero. -/
private theorem khp_buf_W2p (c : Dev nD) :
    (W18 (F := Ideal) m ρ c (Proc.devRef .tc main_v23) : S1024x1024.Idx → EReal)
      = pad S1024x1024 ![0, 0] ![24, 24] ![0, 0] (m ((c.tc : Thread nD τ).loc main_arg5) : S1000x1000.Idx → EReal)
          (sitofp .f32 (constantI S_ 32 0#32 : IVec S_ 32) : FVec Ideal S_ .f32) pads_S1000x1000_S1024x1024_0240_0240 h_S_ :=
  calc (W18 (F := Ideal) m ρ c (Proc.devRef .tc main_v23) : S1024x1024.Idx → EReal)
    _ = W17 (F := Ideal) m ρ c (Proc.devRef .tc main_v23) := khp_skip17 _ main_v23 (by decide)
    _ = W16 (F := Ideal) m ρ c (Proc.devRef .tc main_v23) := khp_skip16 _ main_v23 (by decide)
    _ = W15 (F := Ideal) m ρ c (Proc.devRef .tc main_v23) := khp_skip15 _ main_v23 (by decide)
    _ = W14 (F := Ideal) m ρ c (Proc.devRef .tc main_v23) := khp_skip14 _ main_v23 (by decide)
    _ = W13 (F := Ideal) m ρ c (Proc.devRef .tc main_v23) := khp_skip13 _ main_v23 (by decide)
    _ = W12 (F := Ideal) m ρ c (Proc.devRef .tc main_v23) := khp_skip12 _ main_v23 (by decide)
    _ = W11 (F := Ideal) m ρ c (Proc.devRef .tc main_v23) := khp_skip11 _ main_v23 (by decide)
    _ = W10 (F := Ideal) m ρ c (Proc.devRef .tc main_v23) := khp_skip10 _ main_v23 (by decide)
    _ = W9 (F := Ideal) m ρ c (Proc.devRef .tc main_v23) := khp_skip9 _ main_v23 (by decide)
    _ = W8 (F := Ideal) m ρ c (Proc.devRef .tc main_v22) := khp_trunc_W2p _
    _ = pad S1024x1024 ![0, 0] ![24, 24] ![0, 0] (W7 (F := Ideal) m ρ c (Proc.devRef .tc main_arg5) : S1000x1000.Idx → EReal)
          (sitofp .f32 (W7 (F := Ideal) m ρ c (Proc.devRef .tc main_c_7) : IVec S_ 32) : FVec Ideal S_ .f32) pads_S1000x1000_S1024x1024_0240_0240 h_S_ := khp_padop_W2p _
    _ = _ := by rw [khp_arg_W2p m ρ c, show (W7 (F := Ideal) m ρ c (Proc.devRef .tc main_c_7) : IVec S_ 32) = constantI S_ 32 0#32 from khp_const_W2p _]

/-- The second bias is as launched when its padding reads it. -/
private theorem khp_arg_b2p (c : Dev nD) :
    (W9 (F := Ideal) m ρ c (Proc.devRef .tc main_arg6) : S1000.Idx → EReal) = m ((c.tc : Thread nD τ).loc main_arg6) :=
  calc (W9 (F := Ideal) m ρ c (Proc.devRef .tc main_arg6) : S1000.Idx → EReal)
    _ = W8 (F := Ideal) m ρ c (Proc.devRef .tc main_arg6) := khp_skip8 _ main_arg6 (by decide)
    _ = W7 (F := Ideal) m ρ c (Proc.devRef .tc main_arg6) := khp_skip7 _ main_arg6 (by decide)
    _ = W6 (F := Ideal) m ρ c (Proc.devRef .tc main_arg6) := khp_skip6 _ main_arg6 (by decide)
    _ = W5 (F := Ideal) m ρ c (Proc.devRef .tc main_arg6) := khp_skip5 _ main_arg6 (by decide)
    _ = W4 (F := Ideal) m ρ c (Proc.devRef .tc main_arg6) := khp_skip4 _ main_arg6 (by decide)
    _ = W3 (F := Ideal) m ρ c (Proc.devRef .tc main_arg6) := khp_skip3 _ main_arg6 (by decide)
    _ = W2 (F := Ideal) m ρ c (Proc.devRef .tc main_arg6) := khp_skip2 _ main_arg6 (by decide)
    _ = W1 (F := Ideal) m ρ c (Proc.devRef .tc main_arg6) := khp_skip1 _ main_arg6 (by decide)
    _ = W0 (F := Ideal) m ρ c (Proc.devRef .tc main_arg6) := khp_skip0 _ main_arg6 (by decide)
    _ = m ((c.tc : Thread nD τ).loc main_arg6) := rfl

/-- The padded second bias at the first region's entry is the host's pad of the argument with the converted zero. -/
private theorem khp_buf_b2p (c : Dev nD) :
    (W18 (F := Ideal) m ρ c (Proc.devRef .tc main_v24) : S1024.Idx → EReal)
      = pad S1024 ![0] ![24] ![0] (m ((c.tc : Thread nD τ).loc main_arg6) : S1000.Idx → EReal)
          (sitofp .f32 (constantI S_ 32 0#32 : IVec S_ 32) : FVec Ideal S_ .f32) pads_S1000_S1024_0240 h_S_ :=
  calc (W18 (F := Ideal) m ρ c (Proc.devRef .tc main_v24) : S1024.Idx → EReal)
    _ = W17 (F := Ideal) m ρ c (Proc.devRef .tc main_v24) := khp_skip17 _ main_v24 (by decide)
    _ = W16 (F := Ideal) m ρ c (Proc.devRef .tc main_v24) := khp_skip16 _ main_v24 (by decide)
    _ = W15 (F := Ideal) m ρ c (Proc.devRef .tc main_v24) := khp_skip15 _ main_v24 (by decide)
    _ = W14 (F := Ideal) m ρ c (Proc.devRef .tc main_v24) := khp_skip14 _ main_v24 (by decide)
    _ = W13 (F := Ideal) m ρ c (Proc.devRef .tc main_v24) := khp_skip13 _ main_v24 (by decide)
    _ = W12 (F := Ideal) m ρ c (Proc.devRef .tc main_v24) := khp_skip12 _ main_v24 (by decide)
    _ = W11 (F := Ideal) m ρ c (Proc.devRef .tc main_v24) := khp_skip11 _ main_v24 (by decide)
    _ = W10 (F := Ideal) m ρ c (Proc.devRef .tc main_v24) := khp_skip10 _ main_v24 (by decide)
    _ = pad S1024 ![0] ![24] ![0] (W9 (F := Ideal) m ρ c (Proc.devRef .tc main_arg6) : S1000.Idx → EReal)
          (sitofp .f32 (W9 (F := Ideal) m ρ c (Proc.devRef .tc main_c_8) : IVec S_ 32) : FVec Ideal S_ .f32) pads_S1000_S1024_0240 h_S_ := khp_padop_b2p _
    _ = _ := by rw [khp_arg_b2p m ρ c, show (W9 (F := Ideal) m ρ c (Proc.devRef .tc main_c_8) : IVec S_ 32) = constantI S_ 32 0#32 from khp_const_b2p _]

/-- The third weight table is as launched when its padding reads it. -/
private theorem khp_arg_W3p (c : Dev nD) :
    (W11 (F := Ideal) m ρ c (Proc.devRef .tc main_arg7) : S1000x1000.Idx → EReal) = m ((c.tc : Thread nD τ).loc main_arg7) :=
  calc (W11 (F := Ideal) m ρ c (Proc.devRef .tc main_arg7) : S1000x1000.Idx → EReal)
    _ = W10 (F := Ideal) m ρ c (Proc.devRef .tc main_arg7) := khp_skip10 _ main_arg7 (by decide)
    _ = W9 (F := Ideal) m ρ c (Proc.devRef .tc main_arg7) := khp_skip9 _ main_arg7 (by decide)
    _ = W8 (F := Ideal) m ρ c (Proc.devRef .tc main_arg7) := khp_skip8 _ main_arg7 (by decide)
    _ = W7 (F := Ideal) m ρ c (Proc.devRef .tc main_arg7) := khp_skip7 _ main_arg7 (by decide)
    _ = W6 (F := Ideal) m ρ c (Proc.devRef .tc main_arg7) := khp_skip6 _ main_arg7 (by decide)
    _ = W5 (F := Ideal) m ρ c (Proc.devRef .tc main_arg7) := khp_skip5 _ main_arg7 (by decide)
    _ = W4 (F := Ideal) m ρ c (Proc.devRef .tc main_arg7) := khp_skip4 _ main_arg7 (by decide)
    _ = W3 (F := Ideal) m ρ c (Proc.devRef .tc main_arg7) := khp_skip3 _ main_arg7 (by decide)
    _ = W2 (F := Ideal) m ρ c (Proc.devRef .tc main_arg7) := khp_skip2 _ main_arg7 (by decide)
    _ = W1 (F := Ideal) m ρ c (Proc.devRef .tc main_arg7) := khp_skip1 _ main_arg7 (by decide)
    _ = W0 (F := Ideal) m ρ c (Proc.devRef .tc main_arg7) := khp_skip0 _ main_arg7 (by decide)
    _ = m ((c.tc : Thread nD τ).loc main_arg7) := rfl

/-- The padded third weight table at the first region's entry is the host's pad of the argument with the converted zero. -/
private theorem khp_buf_W3p (c : Dev nD) :
    (W18 (F := Ideal) m ρ c (Proc.devRef .tc main_v26) : S1024x1024.Idx → EReal)
      = pad S1024x1024 ![0, 0] ![24, 24] ![0, 0] (m ((c.tc : Thread nD τ).loc main_arg7) : S1000x1000.Idx → EReal)
          (sitofp .f32 (constantI S_ 32 0#32 : IVec S_ 32) : FVec Ideal S_ .f32) pads_S1000x1000_S1024x1024_0240_0240 h_S_ :=
  calc (W18 (F := Ideal) m ρ c (Proc.devRef .tc main_v26) : S1024x1024.Idx → EReal)
    _ = W17 (F := Ideal) m ρ c (Proc.devRef .tc main_v26) := khp_skip17 _ main_v26 (by decide)
    _ = W16 (F := Ideal) m ρ c (Proc.devRef .tc main_v26) := khp_skip16 _ main_v26 (by decide)
    _ = W15 (F := Ideal) m ρ c (Proc.devRef .tc main_v26) := khp_skip15 _ main_v26 (by decide)
    _ = W14 (F := Ideal) m ρ c (Proc.devRef .tc main_v26) := khp_skip14 _ main_v26 (by decide)
    _ = W13 (F := Ideal) m ρ c (Proc.devRef .tc main_v26) := khp_skip13 _ main_v26 (by decide)
    _ = W12 (F := Ideal) m ρ c (Proc.devRef .tc main_v25) := khp_trunc_W3p _
    _ = pad S1024x1024 ![0, 0] ![24, 24] ![0, 0] (W11 (F := Ideal) m ρ c (Proc.devRef .tc main_arg7) : S1000x1000.Idx → EReal)
          (sitofp .f32 (W11 (F := Ideal) m ρ c (Proc.devRef .tc main_c_9) : IVec S_ 32) : FVec Ideal S_ .f32) pads_S1000x1000_S1024x1024_0240_0240 h_S_ := khp_padop_W3p _
    _ = _ := by rw [khp_arg_W3p m ρ c, show (W11 (F := Ideal) m ρ c (Proc.devRef .tc main_c_9) : IVec S_ 32) = constantI S_ 32 0#32 from khp_const_W3p _]

/-- The third bias is as launched when its padding reads it. -/
private theorem khp_arg_b3p (c : Dev nD) :
    (W13 (F := Ideal) m ρ c (Proc.devRef .tc main_arg8) : S1000.Idx → EReal) = m ((c.tc : Thread nD τ).loc main_arg8) :=
  calc (W13 (F := Ideal) m ρ c (Proc.devRef .tc main_arg8) : S1000.Idx → EReal)
    _ = W12 (F := Ideal) m ρ c (Proc.devRef .tc main_arg8) := khp_skip12 _ main_arg8 (by decide)
    _ = W11 (F := Ideal) m ρ c (Proc.devRef .tc main_arg8) := khp_skip11 _ main_arg8 (by decide)
    _ = W10 (F := Ideal) m ρ c (Proc.devRef .tc main_arg8) := khp_skip10 _ main_arg8 (by decide)
    _ = W9 (F := Ideal) m ρ c (Proc.devRef .tc main_arg8) := khp_skip9 _ main_arg8 (by decide)
    _ = W8 (F := Ideal) m ρ c (Proc.devRef .tc main_arg8) := khp_skip8 _ main_arg8 (by decide)
    _ = W7 (F := Ideal) m ρ c (Proc.devRef .tc main_arg8) := khp_skip7 _ main_arg8 (by decide)
    _ = W6 (F := Ideal) m ρ c (Proc.devRef .tc main_arg8) := khp_skip6 _ main_arg8 (by decide)
    _ = W5 (F := Ideal) m ρ c (Proc.devRef .tc main_arg8) := khp_skip5 _ main_arg8 (by decide)
    _ = W4 (F := Ideal) m ρ c (Proc.devRef .tc main_arg8) := khp_skip4 _ main_arg8 (by decide)
    _ = W3 (F := Ideal) m ρ c (Proc.devRef .tc main_arg8) := khp_skip3 _ main_arg8 (by decide)
    _ = W2 (F := Ideal) m ρ c (Proc.devRef .tc main_arg8) := khp_skip2 _ main_arg8 (by decide)
    _ = W1 (F := Ideal) m ρ c (Proc.devRef .tc main_arg8) := khp_skip1 _ main_arg8 (by decide)
    _ = W0 (F := Ideal) m ρ c (Proc.devRef .tc main_arg8) := khp_skip0 _ main_arg8 (by decide)
    _ = m ((c.tc : Thread nD τ).loc main_arg8) := rfl

/-- The padded third bias at the first region's entry is the host's pad of the argument with the converted zero. -/
private theorem khp_buf_b3p (c : Dev nD) :
    (W18 (F := Ideal) m ρ c (Proc.devRef .tc main_v27) : S1024.Idx → EReal)
      = pad S1024 ![0] ![24] ![0] (m ((c.tc : Thread nD τ).loc main_arg8) : S1000.Idx → EReal)
          (sitofp .f32 (constantI S_ 32 0#32 : IVec S_ 32) : FVec Ideal S_ .f32) pads_S1000_S1024_0240 h_S_ :=
  calc (W18 (F := Ideal) m ρ c (Proc.devRef .tc main_v27) : S1024.Idx → EReal)
    _ = W17 (F := Ideal) m ρ c (Proc.devRef .tc main_v27) := khp_skip17 _ main_v27 (by decide)
    _ = W16 (F := Ideal) m ρ c (Proc.devRef .tc main_v27) := khp_skip16 _ main_v27 (by decide)
    _ = W15 (F := Ideal) m ρ c (Proc.devRef .tc main_v27) := khp_skip15 _ main_v27 (by decide)
    _ = W14 (F := Ideal) m ρ c (Proc.devRef .tc main_v27) := khp_skip14 _ main_v27 (by decide)
    _ = pad S1024 ![0] ![24] ![0] (W13 (F := Ideal) m ρ c (Proc.devRef .tc main_arg8) : S1000.Idx → EReal)
          (sitofp .f32 (W13 (F := Ideal) m ρ c (Proc.devRef .tc main_c_10) : IVec S_ 32) : FVec Ideal S_ .f32) pads_S1000_S1024_0240 h_S_ := khp_padop_b3p _
    _ = _ := by rw [khp_arg_b3p m ρ c, show (W13 (F := Ideal) m ρ c (Proc.devRef .tc main_c_10) : IVec S_ 32) = constantI S_ 32 0#32 from khp_const_b3p _]

/-- The fourth weight table is as launched when its padding reads it. -/
private theorem khp_arg_W4p (c : Dev nD) :
    (W15 (F := Ideal) m ρ c (Proc.devRef .tc main_arg9) : S1000x20.Idx → EReal) = m ((c.tc : Thread nD τ).loc main_arg9) :=
  calc (W15 (F := Ideal) m ρ c (Proc.devRef .tc main_arg9) : S1000x20.Idx → EReal)
    _ = W14 (F := Ideal) m ρ c (Proc.devRef .tc main_arg9) := khp_skip14 _ main_arg9 (by decide)
    _ = W13 (F := Ideal) m ρ c (Proc.devRef .tc main_arg9) := khp_skip13 _ main_arg9 (by decide)
    _ = W12 (F := Ideal) m ρ c (Proc.devRef .tc main_arg9) := khp_skip12 _ main_arg9 (by decide)
    _ = W11 (F := Ideal) m ρ c (Proc.devRef .tc main_arg9) := khp_skip11 _ main_arg9 (by decide)
    _ = W10 (F := Ideal) m ρ c (Proc.devRef .tc main_arg9) := khp_skip10 _ main_arg9 (by decide)
    _ = W9 (F := Ideal) m ρ c (Proc.devRef .tc main_arg9) := khp_skip9 _ main_arg9 (by decide)
    _ = W8 (F := Ideal) m ρ c (Proc.devRef .tc main_arg9) := khp_skip8 _ main_arg9 (by decide)
    _ = W7 (F := Ideal) m ρ c (Proc.devRef .tc main_arg9) := khp_skip7 _ main_arg9 (by decide)
    _ = W6 (F := Ideal) m ρ c (Proc.devRef .tc main_arg9) := khp_skip6 _ main_arg9 (by decide)
    _ = W5 (F := Ideal) m ρ c (Proc.devRef .tc main_arg9) := khp_skip5 _ main_arg9 (by decide)
    _ = W4 (F := Ideal) m ρ c (Proc.devRef .tc main_arg9) := khp_skip4 _ main_arg9 (by decide)
    _ = W3 (F := Ideal) m ρ c (Proc.devRef .tc main_arg9) := khp_skip3 _ main_arg9 (by decide)
    _ = W2 (F := Ideal) m ρ c (Proc.devRef .tc main_arg9) := khp_skip2 _ main_arg9 (by decide)
    _ = W1 (F := Ideal) m ρ c (Proc.devRef .tc main_arg9) := khp_skip1 _ main_arg9 (by decide)
    _ = W0 (F := Ideal) m ρ c (Proc.devRef .tc main_arg9) := khp_skip0 _ main_arg9 (by decide)
    _ = m ((c.tc : Thread nD τ).loc main_arg9) := rfl

/-- The padded fourth weight table at the first region's entry is the host's pad of the argument with the converted zero. -/
private theorem khp_buf_W4p (c : Dev nD) :
    (W18 (F := Ideal) m ρ c (Proc.devRef .tc main_v29) : S1024x128.Idx → EReal)
      = pad S1024x128 ![0, 0] ![24, 108] ![0, 0] (m ((c.tc : Thread nD τ).loc main_arg9) : S1000x20.Idx → EReal)
          (sitofp .f32 (constantI S_ 32 0#32 : IVec S_ 32) : FVec Ideal S_ .f32) pads_S1000x20_S1024x128_0240_01080 h_S_ :=
  calc (W18 (F := Ideal) m ρ c (Proc.devRef .tc main_v29) : S1024x128.Idx → EReal)
    _ = W17 (F := Ideal) m ρ c (Proc.devRef .tc main_v29) := khp_skip17 _ main_v29 (by decide)
    _ = W16 (F := Ideal) m ρ c (Proc.devRef .tc main_v28) := khp_trunc_W4p _
    _ = pad S1024x128 ![0, 0] ![24, 108] ![0, 0] (W15 (F := Ideal) m ρ c (Proc.devRef .tc main_arg9) : S1000x20.Idx → EReal)
          (sitofp .f32 (W15 (F := Ideal) m ρ c (Proc.devRef .tc main_c_11) : IVec S_ 32) : FVec Ideal S_ .f32) pads_S1000x20_S1024x128_0240_01080 h_S_ := khp_padop_W4p _
    _ = _ := by rw [khp_arg_W4p m ρ c, show (W15 (F := Ideal) m ρ c (Proc.devRef .tc main_c_11) : IVec S_ 32) = constantI S_ 32 0#32 from khp_const_W4p _]

/-- The fourth bias is as launched when its padding reads it. -/
private theorem khp_arg_b4p (c : Dev nD) :
    (W17 (F := Ideal) m ρ c (Proc.devRef .tc main_arg10) : S20.Idx → EReal) = m ((c.tc : Thread nD τ).loc main_arg10) :=
  calc (W17 (F := Ideal) m ρ c (Proc.devRef .tc main_arg10) : S20.Idx → EReal)
    _ = W16 (F := Ideal) m ρ c (Proc.devRef .tc main_arg10) := khp_skip16 _ main_arg10 (by decide)
    _ = W15 (F := Ideal) m ρ c (Proc.devRef .tc main_arg10) := khp_skip15 _ main_arg10 (by decide)
    _ = W14 (F := Ideal) m ρ c (Proc.devRef .tc main_arg10) := khp_skip14 _ main_arg10 (by decide)
    _ = W13 (F := Ideal) m ρ c (Proc.devRef .tc main_arg10) := khp_skip13 _ main_arg10 (by decide)
    _ = W12 (F := Ideal) m ρ c (Proc.devRef .tc main_arg10) := khp_skip12 _ main_arg10 (by decide)
    _ = W11 (F := Ideal) m ρ c (Proc.devRef .tc main_arg10) := khp_skip11 _ main_arg10 (by decide)
    _ = W10 (F := Ideal) m ρ c (Proc.devRef .tc main_arg10) := khp_skip10 _ main_arg10 (by decide)
    _ = W9 (F := Ideal) m ρ c (Proc.devRef .tc main_arg10) := khp_skip9 _ main_arg10 (by decide)
    _ = W8 (F := Ideal) m ρ c (Proc.devRef .tc main_arg10) := khp_skip8 _ main_arg10 (by decide)
    _ = W7 (F := Ideal) m ρ c (Proc.devRef .tc main_arg10) := khp_skip7 _ main_arg10 (by decide)
    _ = W6 (F := Ideal) m ρ c (Proc.devRef .tc main_arg10) := khp_skip6 _ main_arg10 (by decide)
    _ = W5 (F := Ideal) m ρ c (Proc.devRef .tc main_arg10) := khp_skip5 _ main_arg10 (by decide)
    _ = W4 (F := Ideal) m ρ c (Proc.devRef .tc main_arg10) := khp_skip4 _ main_arg10 (by decide)
    _ = W3 (F := Ideal) m ρ c (Proc.devRef .tc main_arg10) := khp_skip3 _ main_arg10 (by decide)
    _ = W2 (F := Ideal) m ρ c (Proc.devRef .tc main_arg10) := khp_skip2 _ main_arg10 (by decide)
    _ = W1 (F := Ideal) m ρ c (Proc.devRef .tc main_arg10) := khp_skip1 _ main_arg10 (by decide)
    _ = W0 (F := Ideal) m ρ c (Proc.devRef .tc main_arg10) := khp_skip0 _ main_arg10 (by decide)
    _ = m ((c.tc : Thread nD τ).loc main_arg10) := rfl

/-- The padded fourth bias at the first region's entry is the host's pad of the argument with the converted zero. -/
private theorem khp_buf_b4p (c : Dev nD) :
    (W18 (F := Ideal) m ρ c (Proc.devRef .tc main_v30) : S128.Idx → EReal)
      = pad S128 ![0] ![108] ![0] (m ((c.tc : Thread nD τ).loc main_arg10) : S20.Idx → EReal)
          (sitofp .f32 (constantI S_ 32 0#32 : IVec S_ 32) : FVec Ideal S_ .f32) pads_S20_S128_01080 h_S_ :=
  calc (W18 (F := Ideal) m ρ c (Proc.devRef .tc main_v30) : S128.Idx → EReal)
    _ = pad S128 ![0] ![108] ![0] (W17 (F := Ideal) m ρ c (Proc.devRef .tc main_arg10) : S20.Idx → EReal)
          (sitofp .f32 (W17 (F := Ideal) m ρ c (Proc.devRef .tc main_c_12) : IVec S_ 32) : FVec Ideal S_ .f32) pads_S20_S128_01080 h_S_ := khp_padop_b4p _
    _ = _ := by rw [khp_arg_b4p m ρ c, show (W17 (F := Ideal) m ρ c (Proc.devRef .tc main_c_12) : IVec S_ 32) = constantI S_ 32 0#32 from khp_const_b4p _]

/-! ## The nine padded buffers at the first region's entry -/

theorem xp_entry (c : Dev nD) :
    cur2 (W18 (F := Ideal) m ρ c (Proc.devRef .tc main_v18)) = pad2 10240 128 (cur2 (m ((c.tc : Thread nD τ).loc main_arg0))) :=
  (congrArg (cur2 (a := 10240) (b := 128)) (khp_buf_xp m ρ c)).trans
    (khp_pad2 ![240, 106] _ _ pads_S10000x22_S10240x128_02400_01060 h_S_ khp_zero)

theorem W1p_entry (c : Dev nD) :
    cur2 (W18 (F := Ideal) m ρ c (Proc.devRef .tc main_v20)) = pad2 128 1024 (cur2 (m ((c.tc : Thread nD τ).loc main_arg3))) :=
  (congrArg (cur2 (a := 128) (b := 1024)) (khp_buf_W1p m ρ c)).trans
    (khp_pad2 ![106, 24] _ _ pads_S22x1000_S128x1024_01060_0240 h_S_ khp_zero)

theorem b1p_entry (c : Dev nD) :
    cur1 (W18 (F := Ideal) m ρ c (Proc.devRef .tc main_v21)) = pad1 1024 (cur1 (m ((c.tc : Thread nD τ).loc main_arg4))) :=
  (congrArg (cur1 (a := 1024)) (khp_buf_b1p m ρ c)).trans
    (khp_pad1 ![24] _ _ pads_S1000_S1024_0240 h_S_ khp_zero)

theorem W2p_entry (c : Dev nD) :
    cur2 (W18 (F := Ideal) m ρ c (Proc.devRef .tc main_v23)) = pad2 1024 1024 (cur2 (m ((c.tc : Thread nD τ).loc main_arg5))) :=
  (congrArg (cur2 (a := 1024) (b := 1024)) (khp_buf_W2p m ρ c)).trans
    (khp_pad2 ![24, 24] _ _ pads_S1000x1000_S1024x1024_0240_0240 h_S_ khp_zero)

theorem b2p_entry (c : Dev nD) :
    cur1 (W18 (F := Ideal) m ρ c (Proc.devRef .tc main_v24)) = pad1 1024 (cur1 (m ((c.tc : Thread nD τ).loc main_arg6))) :=
  (congrArg (cur1 (a := 1024)) (khp_buf_b2p m ρ c)).trans
    (khp_pad1 ![24] _ _ pads_S1000_S1024_0240 h_S_ khp_zero)

theorem W3p_entry (c : Dev nD) :
    cur2 (W18 (F := Ideal) m ρ c (Proc.devRef .tc main_v26)) = pad2 1024 1024 (cur2 (m ((c.tc : Thread nD τ).loc main_arg7))) :=
  (congrArg (cur2 (a := 1024) (b := 1024)) (khp_buf_W3p m ρ c)).trans
    (khp_pad2 ![24, 24] _ _ pads_S1000x1000_S1024x1024_0240_0240 h_S_ khp_zero)

theorem b3p_entry (c : Dev nD) :
    cur1 (W18 (F := Ideal) m ρ c (Proc.devRef .tc main_v27)) = pad1 1024 (cur1 (m ((c.tc : Thread nD τ).loc main_arg8))) :=
  (congrArg (cur1 (a := 1024)) (khp_buf_b3p m ρ c)).trans
    (khp_pad1 ![24] _ _ pads_S1000_S1024_0240 h_S_ khp_zero)

theorem W4p_entry (c : Dev nD) :
    cur2 (W18 (F := Ideal) m ρ c (Proc.devRef .tc main_v29)) = pad2 1024 128 (cur2 (m ((c.tc : Thread nD τ).loc main_arg9))) :=
  (congrArg (cur2 (a := 1024) (b := 128)) (khp_buf_W4p m ρ c)).trans
    (khp_pad2 ![24, 108] _ _ pads_S1000x20_S1024x128_0240_01080 h_S_ khp_zero)

theorem b4p_entry (c : Dev nD) :
    cur1 (W18 (F := Ideal) m ρ c (Proc.devRef .tc main_v30)) = pad1 128 (cur1 (m ((c.tc : Thread nD τ).loc main_arg10))) :=
  (congrArg (cur1 (a := 128)) (khp_buf_b4p m ρ c)).trans
    (khp_pad1 ![108] _ _ pads_S20_S128_01080 h_S_ khp_zero)

end Cert.KernelIdeal.GCK
end
-- ==== Proof.KReg0.lean ====
/-
  Region 0 as one whole-array function: the 512-row blocks of the count table times the whole feature table tile the product: the output array ends at the matrix product of the two input arrays.
-/
import proofs.«426275_j13812614824123_1_alg».proof.Proof.Gen.KernelIdeal.Frame
import proofs.«426275_j13812614824123_1_alg».proof.Proof.Spec
import Idealize.ShloMosaic.Lib.Pipeline.Value
import Idealize.ShloMosaic.PureOps.Ideal.Laws

set_option maxRecDepth 16384
noncomputable section
open scoped BigOperators
namespace Cert.KernelIdeal.GCK

open Cert.KernelIdeal Cert.KernelIdeal.Gen Idealize.ShloMosaic Idealize.ShloMosaic.TcCoe Idealize.SL.Sem Idealize.ShloMosaic.ValueIdx GC
open Idealize.ShloMosaic.Pipeline (Dat Cfg Window)

variable (V : (c : Dev nD) → (b : Ref sig .tc) → Buf (Elt Ideal) ((c : Thread nD τ).loc b))

/-- The two zero offsets of a whole-block access, as a constant function. -/
theorem reg0_offsets : (![0, 0] : Fin 2 → Nat) = fun _ => 0 := funext fun a => by fin_cases a <;> rfl

/-- The count table and the feature table as the region finds them. -/
abbrev reg0_counts (c : Dev nD) : Vec Ideal S10240x10240 .bf16 := V c main_v16
abbrev reg0_feats (c : Dev nD) : Vec Ideal S10240x128 .bf16 := V c main_v18

/-- The product of a 10240 × 10240 table and a 10240 × 128 table, as one array: entry (r, q) is ∑ s, A (r, s) · H (s, q). -/
def reg0_prod (A : Vec Ideal S10240x10240 .bf16) (H : Vec Ideal S10240x128 .bf16) : Vec Ideal S10240x128 .bf16 :=
  fun i => ∑ s : Fin 10240, A (ix2 (⟨(i 0).val, (i 0).isLt⟩ : Fin 10240) s) * H (ix2 s (⟨(i 1).val, (i 1).isLt⟩ : Fin 128))

/-! ## The contraction's operand indices: output (p, q) and contraction coordinate s meet the left operand at (p, s) and the right at (s, q) -/

theorem reg0_lhs_0 (i : S512x128.Idx) (k : dot_S512x10240_S10240x128_S512x128_1_0_0_1_n_n.contr.Idx) :
    (dot_S512x10240_S10240x128_S512x128_1_0_0_1_n_n.lhsIdx i k 0).val = (i 0).val := by
  unfold DotDims.lhsIdx
  rw [dif_neg (show ¬(0 : Fin S512x10240.rank) ∈ dot_S512x10240_S10240x128_S512x128_1_0_0_1_n_n.lhsBatch by decide), dif_pos (show (0 : Fin S512x10240.rank) ∈ dot_S512x10240_S10240x128_S512x128_1_0_0_1_n_n.lhsNonContracting by decide)]
  rfl
theorem reg0_lhs_1 (i : S512x128.Idx) (k : dot_S512x10240_S10240x128_S512x128_1_0_0_1_n_n.contr.Idx) :
    (dot_S512x10240_S10240x128_S512x128_1_0_0_1_n_n.lhsIdx i k 1).val = (k ⟨0, by decide⟩).val :=
  dot_S512x10240_S10240x128_S512x128_1_0_0_1_n_n.lhsIdx_val_of_single rfl i k
theorem reg0_rhs_0 (i : S512x128.Idx) (k : dot_S512x10240_S10240x128_S512x128_1_0_0_1_n_n.contr.Idx) :
    (dot_S512x10240_S10240x128_S512x128_1_0_0_1_n_n.rhsIdx i k 0).val = (k ⟨0, by decide⟩).val :=
  dot_S512x10240_S10240x128_S512x128_1_0_0_1_n_n.rhsIdx_val_of_single rfl i k
theorem reg0_rhs_1 (i : S512x128.Idx) (k : dot_S512x10240_S10240x128_S512x128_1_0_0_1_n_n.contr.Idx) :
    (dot_S512x10240_S10240x128_S512x128_1_0_0_1_n_n.rhsIdx i k 1).val = (i 1).val := by
  unfold DotDims.rhsIdx
  rw [dif_neg (show ¬(1 : Fin S10240x128.rank) ∈ dot_S512x10240_S10240x128_S512x128_1_0_0_1_n_n.rhsBatch by decide), dif_pos (show (1 : Fin S10240x128.rank) ∈ dot_S512x10240_S10240x128_S512x128_1_0_0_1_n_n.rhsNonContracting by decide)]
  rfl

/-- The body's stored value at (p, q): row p of the count block against column q of the feature table. -/
theorem reg0_pay (x0 : Vec Ideal S512x10240 .bf16) (x1 : Vec Ideal S10240x128 .bf16) (p : Fin 512) (q : Fin 128) :
    k0_pay1 (F := Ideal) x0 x1 (ix2 p q) = ∑ s : Fin 10240, x0 (ix2 p s) * x1 (ix2 s q) := by
  unfold k0_pay1
  simp only [shapeCast_self]
  refine (truncf_apply (ψ := FTy.bf16) (matmul dot_S512x10240_S10240x128_S512x128_1_0_0_1_n_n none x0 x1 (constant (F := Ideal) S512x128 .f32 0x00000000#32)) bitsLt_bf16_f32 (ix2 p q)).trans ?_
  simp only [matmul]
  refine (Ideal.matmul_constant_zero_apply (φ₁ := FTy.bf16) (φ₂ := FTy.bf16) dot_S512x10240_S10240x128_S512x128_1_0_0_1_n_n none x0 x1 (ix2 p q)).trans ?_
  rw [← Equiv.sum_comp (ValueIdx.contrEquiv1 dot_S512x10240_S10240x128_S512x128_1_0_0_1_n_n 10240 rfl rfl).symm]
  refine Finset.sum_congr rfl fun s _ => ?_
  have hs := ValueIdx.contrEquiv1_symm_val dot_S512x10240_S10240x128_S512x128_1_0_0_1_n_n 10240 rfl rfl s
  have el : dot_S512x10240_S10240x128_S512x128_1_0_0_1_n_n.lhsIdx (ix2 p q) ((ValueIdx.contrEquiv1 dot_S512x10240_S10240x128_S512x128_1_0_0_1_n_n 10240 rfl rfl).symm s) = ix2 p s := funext fun a => Fin.ext (by
    match a with
    | ⟨0, _⟩ => exact reg0_lhs_0 _ _
    | ⟨1, _⟩ => exact (reg0_lhs_1 _ _).trans hs)
  have er : dot_S512x10240_S10240x128_S512x128_1_0_0_1_n_n.rhsIdx (ix2 p q) ((ValueIdx.contrEquiv1 dot_S512x10240_S10240x128_S512x128_1_0_0_1_n_n 10240 rfl rfl).symm s) = ix2 s q := funext fun a => Fin.ext (by
    match a with
    | ⟨0, _⟩ => exact (reg0_rhs_0 _ _).trans hs
    | ⟨1, _⟩ => exact reg0_rhs_1 _ _)
  rw [el, er]

/-! ## From blocks to the array -/

/-- The block indices over the grid: at point t the count table's block is (t, 0), the feature table's (0, 0), the output's (t, 0). -/
theorem reg0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The count table's block at point t is its rows 512 t … 512 t + 511. -/
theorem reg0_rows (c : Dev nD) (t : Fin cfg0.N) (x : S512x10240.Idx) (k : S10240x10240.Idx)
    (hk0 : (k 0).val = 512 * t.val + (x 0).val) (hk1 : (k 1).val = (x 1).val) :
    (iblk0 (F := Ideal) V c 0 t : Vec Ideal S512x10240 .bf16) x = reg0_counts V c k := by
  obtain ⟨e0, e1, -⟩ := reg0_idx t
  unfold iblk0
  rw [View.read_apply]
  show V c main_v16 _ = V c main_v16 _
  congr 1
  funext a
  apply Fin.ext
  match a with
  | ⟨0, _⟩ => show win0_0.index t 0 * 512 + 1 * (x 0).val = (k 0).val; rw [e0, hk0]; omega
  | ⟨1, _⟩ => show win0_0.index t 1 * 10240 + 1 * (x 1).val = (k 1).val; rw [e1, hk1]; omega

/-- The feature table's block at every point is the whole table. -/
theorem reg0_whole (c : Dev nD) (t : Fin cfg0.N) (x : S10240x128.Idx) :
    (iblk0 (F := Ideal) V c 1 t : Vec Ideal S10240x128 .bf16) x = reg0_feats V c x := by
  obtain ⟨-, -, e0, e1, -⟩ := reg0_idx t
  unfold iblk0
  rw [View.read_apply]
  show V c main_v18 _ = V c main_v18 _
  congr 1
  funext a
  apply Fin.ext
  match a with
  | ⟨0, _⟩ => show win0_1.index t 0 * 10240 + 1 * (x 0).val = (x 0).val; rw [e0]; omega
  | ⟨1, _⟩ => show win0_1.index t 1 * 128 + 1 * (x 1).val = (x 1).val; rw [e1]; omega

/-- The body's stored block, entry by entry, is the product's rows 512 t … 512 t + 511: stated over a block of rows and a
    whole right operand of literal types. -/
theorem reg0_block (A : Vec Ideal S10240x10240 .bf16) (H : Vec Ideal S10240x128 .bf16)
    (x0 : Vec Ideal S512x10240 .bf16) (x1 : Vec Ideal S10240x128 .bf16) (t : Nat)
    (h0 : ∀ (x : S512x10240.Idx) (k : S10240x10240.Idx), (k 0).val = 512 * t + (x 0).val → (k 1).val = (x 1).val → x0 x = A k)
    (h1 : ∀ x : S10240x128.Idx, x1 x = H x)
    (j : S512x128.Idx) (i : S10240x128.Idx) (hi0 : (i 0).val = 512 * t + (j 0).val) (hi1 : (i 1).val = (j 1).val) :
    k0_pay1 (F := Ideal) x0 x1 j = reg0_prod A H i := by
  obtain ⟨p, q, rfl⟩ : ∃ (p : Fin 512) (q : Fin 128), j = ix2 p q := ⟨j 0, j 1, eq_ix2 j⟩
  rw [reg0_pay]
  unfold reg0_prod
  refine Finset.sum_congr rfl fun s _ => ?_
  rw [h0 (ix2 p s) (ix2 (⟨(i 0).val, (i 0).isLt⟩ : Fin 10240) s) hi0 rfl, h1]
  congr 2
  funext a
  apply Fin.ext
  match a with
  | ⟨0, _⟩ => rfl
  | ⟨1, _⟩ => exact hi1.symm

/-- What point t writes back is block t of the product of the two tables as the region finds them. -/
theorem reg0_flushed (c : Dev nD) (t : Fin cfg0.N) :
    (dat0 (F := Ideal) V c).flushed 2 t = ((cfg0.win 2).blk t).view.read (Elt Ideal) (reg0_prod (reg0_counts V c) (reg0_feats V c)) := by
  show (cfg0.win 2).cut (grid0.coords t) ((dat0 (F := Ideal) V c).after 2 t) = _
  rw [after0_2]
  unfold out0_2
  rw [View.canon_unit_zero reg0_offsets]
  simp only [View.ld_unit_zero (S := S512x10240) reg0_offsets, View.ld_unit_zero (S := S10240x128) reg0_offsets]
  obtain ⟨-, -, -, -, e0, e1⟩ := reg0_idx t
  funext j
  show k0_pay1 (F := Ideal) (iblk0 (F := Ideal) V c 0 t) (iblk0 (F := Ideal) V c 1 t) j = reg0_prod (reg0_counts V c) (reg0_feats V c) (((cfg0.win 2).blk t).view.emb j)
  refine reg0_block (reg0_counts V c) (reg0_feats V c) (iblk0 (F := Ideal) V c 0 t) (iblk0 (F := Ideal) V c 1 t) t.val
    (fun x k hk0 hk1 => reg0_rows V c t x k hk0 hk1) (fun x => reg0_whole V c t x) j (((cfg0.win 2).blk t).view.emb j) ?_ ?_
  · show win0_2.index t 0 * 512 + 1 * (j 0).val = 512 * t.val + (j 0).val; rw [e0]; omega
  · show win0_2.index t 1 * 128 + 1 * (j 1).val = (j 1).val; rw [e1]; omega

/-- An index of the output array is in point t's block iff each coordinate is in the block's range on its axis. -/
theorem reg0_mem (t : Fin cfg0.N) (i : S10240x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v31).slice (win0_2.rect t)).set ↔ _
  rw [View.set_slice_whole, Rect.mem_set_unit]
  exact Iff.rfl

/-- The blocks tile the output: row r lies in the block of point r / 512. -/
theorem reg0_cover (i : S10240x128.Idx) :
    ∃ t : Fin cfg0.N, (cfg0.win 2).flush t = true ∧ i ∈ ((cfg0.win 2).blk t).view.set := by
  have hi0 : (i 0).val < 10240 := (i 0).isLt
  have hi1 : (i 1).val < 128 := (i 1).isLt
  have ht : (i 0).val / 512 < cfg0.N := by show _ < grid0.N; rw [N_0]; omega
  obtain ⟨-, -, -, -, e0, e1⟩ := reg0_idx ⟨(i 0).val / 512, ht⟩
  refine ⟨⟨(i 0).val / 512, ht⟩, flush0_2 _, ?_⟩
  rw [reg0_mem]
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_2.index ⟨(i 0).val / 512, ht⟩ (1 : Fin 2) * 128 ≤ (i 1).val ∧ (i 1).val < win0_2.index ⟨(i 0).val / 512, ht⟩ (1 : Fin 2) * 128 + 128
    rw [e1]; omega

/-- The output array after the region's write-backs is the product of the two tables. -/
theorem reg0_final (c : Dev nD) :
    (dat0 (F := Ideal) V c).arrAt 2 cfg0.N = reg0_prod (reg0_counts V c) (reg0_feats V c) :=
  (dat0 (F := Ideal) V c).arrAt_eq_of_cover 2 (reg0_prod (reg0_counts V c) (reg0_feats V c))
    (fun t _ => reg0_flushed V c t) reg0_cover

theorem reg0_value (c : Dev nD) :
    cur2 ((dat0 (F := Ideal) V c).arrAt 2 cfg0.N) = mm (cur2 (V c main_v16)) (cur2 (V c main_v18)) := by
  rw [reg0_final]
  funext r q
  rw [cur2_apply]
  unfold mm reg0_prod
  rfl

end Cert.KernelIdeal.GCK
end
-- ==== Proof.KReg1.lean ====
/-
  Region 1 as one whole-array function: each 512-row block of the aggregate times the whole weight table, plus the bias row, under max · 0: the output array ends at the affine layer of the input arrays.
-/
import proofs.«426275_j13812614824123_1_alg».proof.Proof.Gen.KernelIdeal.Frame
import proofs.«426275_j13812614824123_1_alg».proof.Proof.Spec
import Idealize.ShloMosaic.Lib.Pipeline.Value
import Idealize.ShloMosaic.Lib.ValueLayout
import Idealize.ShloMosaic.PureOps.Ideal.Laws

set_option maxRecDepth 16384
noncomputable section
open scoped BigOperators
namespace Cert.KernelIdeal.GCK

open Cert.KernelIdeal Cert.KernelIdeal.Gen Idealize.ShloMosaic Idealize.ShloMosaic.TcCoe Idealize.SL.Sem Idealize.ShloMosaic.ValueIdx GC
open Idealize.ShloMosaic.Pipeline (Dat Cfg Window)

/-! ## The product's operand indices -/

theorem reg1_lhs_0 (i : S512x1024.Idx) (q : dot_S512x128_S128x1024_S512x1024_1_0_0_1_n_n.contr.Idx) :
    (dot_S512x128_S128x1024_S512x1024_1_0_0_1_n_n.lhsIdx i q 0).val = (i 0).val := by
  unfold DotDims.lhsIdx
  rw [dif_neg (show ¬(0 : Fin S512x128.rank) ∈ dot_S512x128_S128x1024_S512x1024_1_0_0_1_n_n.lhsBatch by decide), dif_pos (show (0 : Fin S512x128.rank) ∈ dot_S512x128_S128x1024_S512x1024_1_0_0_1_n_n.lhsNonContracting by decide)]
  rfl
theorem reg1_lhs_1 (i : S512x1024.Idx) (q : dot_S512x128_S128x1024_S512x1024_1_0_0_1_n_n.contr.Idx) :
    (dot_S512x128_S128x1024_S512x1024_1_0_0_1_n_n.lhsIdx i q 1).val = (q ⟨0, by decide⟩).val :=
  dot_S512x128_S128x1024_S512x1024_1_0_0_1_n_n.lhsIdx_val_of_single rfl i q
theorem reg1_rhs_0 (i : S512x1024.Idx) (q : dot_S512x128_S128x1024_S512x1024_1_0_0_1_n_n.contr.Idx) :
    (dot_S512x128_S128x1024_S512x1024_1_0_0_1_n_n.rhsIdx i q 0).val = (q ⟨0, by decide⟩).val :=
  dot_S512x128_S128x1024_S512x1024_1_0_0_1_n_n.rhsIdx_val_of_single rfl i q
theorem reg1_rhs_1 (i : S512x1024.Idx) (q : dot_S512x128_S128x1024_S512x1024_1_0_0_1_n_n.contr.Idx) :
    (dot_S512x128_S128x1024_S512x1024_1_0_0_1_n_n.rhsIdx i q 1).val = (i 1).val := by
  unfold DotDims.rhsIdx
  rw [dif_neg (show ¬(1 : Fin S128x1024.rank) ∈ dot_S512x128_S128x1024_S512x1024_1_0_0_1_n_n.rhsBatch by decide), dif_pos (show (1 : Fin S128x1024.rank) ∈ dot_S512x128_S128x1024_S512x1024_1_0_0_1_n_n.rhsNonContracting by decide)]
  rfl

/-- The product of a row block and the weight table at (p, q): the sum over the shared axis. -/
theorem reg1_prod (x : FVec Ideal S512x128 .bf16) (w : FVec Ideal S128x1024 .bf16) (p : Fin 512) (q : Fin 1024) :
    FloatOps.matmul dot_S512x128_S128x1024_S512x1024_1_0_0_1_n_n none x w (constant (F := Ideal) S512x1024 .f32 0x00000000#32) (ix2 p q)
      = ∑ k : Fin 128, x (ix2 p k) * w (ix2 k q) := by
  rw [Ideal.matmul_constant_zero_apply, ← Equiv.sum_comp (ValueIdx.contrEquiv1 dot_S512x128_S128x1024_S512x1024_1_0_0_1_n_n 128 rfl rfl).symm]
  refine Finset.sum_congr rfl fun k _ => ?_
  have hk := ValueIdx.contrEquiv1_symm_val dot_S512x128_S128x1024_S512x1024_1_0_0_1_n_n 128 rfl rfl k
  have el : dot_S512x128_S128x1024_S512x1024_1_0_0_1_n_n.lhsIdx (ix2 p q) ((ValueIdx.contrEquiv1 dot_S512x128_S128x1024_S512x1024_1_0_0_1_n_n 128 rfl rfl).symm k) = ix2 p k := funext fun a => Fin.ext (by
    match a with
    | ⟨0, _⟩ => exact reg1_lhs_0 _ _
    | ⟨1, _⟩ => exact (reg1_lhs_1 _ _).trans hk)
  have er : dot_S512x128_S128x1024_S512x1024_1_0_0_1_n_n.rhsIdx (ix2 p q) ((ValueIdx.contrEquiv1 dot_S512x128_S128x1024_S512x1024_1_0_0_1_n_n 128 rfl rfl).symm k) = ix2 k q := funext fun a => Fin.ext (by
    match a with
    | ⟨0, _⟩ => exact (reg1_rhs_0 _ _).trans hk
    | ⟨1, _⟩ => exact reg1_rhs_1 _ _)
  rw [el, er]

/-- The body's arithmetic at (p, q): the affine expression under max · 0. -/
theorem reg1_pay (x : Vec Ideal S512x128 .bf16) (w : Vec Ideal S128x1024 .bf16) (b : Vec Ideal S1x1024 .f32) (p : Fin 512) (q : Fin 1024) :
    k1_pay1 (F := Ideal) x w b (ix2 p q) = max ((∑ k : Fin 128, x (ix2 p k) * w (ix2 k q)) + b (ix2 (0 : Fin 1) q)) 0 := by
  unfold k1_pay1
  simp only [shapeCast_self]
  rw [truncf_apply, maximumf_apply, addf_apply, broadcast_apply]
  exact congrArg₂ max (congrArg₂ (· + ·) (reg1_prod x w p q) (broadcastTo_1b_ab_apply b _ p q)) Ideal.ofBits_zero_f32

/-! ## The arrays and the whole-array function -/

variable (V : (c : Dev nD) → (b : Ref sig .tc) → Buf (Elt Ideal) ((c : Thread nD τ).loc b))

/-- The aggregate, the weight table and the bias row as the region finds them. -/
abbrev reg1_X (c : Dev nD) : Vec Ideal S10240x128 .bf16 := V c main_v31
abbrev reg1_W (c : Dev nD) : Vec Ideal S128x1024 .bf16 := V c main_v20
abbrev reg1_b (c : Dev nD) : Vec Ideal S1x1024 .f32 := V c main_v32

/-- The affine layer under max · 0, entry by entry, over the whole output array. -/
def reg1_fn (X : Vec Ideal S10240x128 .bf16) (W : Vec Ideal S128x1024 .bf16) (b : Vec Ideal S1x1024 .f32) : Vec Ideal S10240x1024 .bf16 :=
  fun i => max ((∑ k : Fin 128, X (ix2 (⟨(i 0).val, idx2_lt0 i⟩ : Fin 10240) k) * W (ix2 k (⟨(i 1).val, idx2_lt1 i⟩ : Fin 1024)))
    + b (ix2 (0 : Fin 1) (⟨(i 1).val, idx2_lt1 i⟩ : Fin 1024))) 0

theorem reg1_hz : (![0, 0] : Fin 2 → Nat) = fun _ => 0 := funext fun a => by fin_cases a <;> rfl

/-- Where the blocks sit: the row block of the aggregate and of the output at point t is block t; the weight
    table and the bias row are one block each. -/
theorem reg1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at point t, read in the array: row t · 512 + (the row inside the block). -/
theorem reg1_read0 (c : Dev nD) (t : Fin cfg1.N) (y : S512x128.Idx) (i : S10240x128.Idx)
    (h0 : (i 0).val = t.val * 512 + (y 0).val) (h1 : (i 1).val = (y 1).val) :
    (iblk1 V c 0 t : Vec Ideal S512x128 .bf16) y = reg1_X V c i := by
  show V c main_v31 (((cfg1.win 0).blk t).view.emb y) = V c main_v31 i
  obtain ⟨e0, e1, -⟩ := reg1_idx t
  refine congrArg _ (funext fun a => Fin.ext ?_)
  match a with
  | ⟨0, _⟩ => show win1_0.index t (0 : Fin 2) * 512 + 1 * (y 0).val = (i 0).val; omega
  | ⟨1, _⟩ => show win1_0.index t (1 : Fin 2) * 128 + 1 * (y 1).val = (i 1).val; omega

/-- The weight table's one block is the table. -/
theorem reg1_read1 (c : Dev nD) (t : Fin cfg1.N) (y : S128x1024.Idx) :
    (iblk1 V c 1 t : Vec Ideal S128x1024 .bf16) y = reg1_W V c y := by
  show V c main_v20 (((cfg1.win 1).blk t).view.emb y) = V c main_v20 y
  obtain ⟨-, -, e0, e1, -⟩ := reg1_idx t
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 1024 + 1 * (y 1).val = (y 1).val; omega

/-- The bias row's one block is the row. -/
theorem reg1_read2 (c : Dev nD) (t : Fin cfg1.N) (y : S1x1024.Idx) :
    (iblk1 V c 2 t : Vec Ideal S1x1024 .f32) y = reg1_b V c y := by
  show V c main_v32 (((cfg1.win 2).blk t).view.emb y) = V c main_v32 y
  obtain ⟨-, -, -, -, e0, e1, -⟩ := reg1_idx t
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 1024 + 1 * (y 1).val = (y 1).val; omega

/-- The whole-array function at an index whose coordinates are named. -/
theorem reg1_fn_apply (X : Vec Ideal S10240x128 .bf16) (W : Vec Ideal S128x1024 .bf16) (b : Vec Ideal S1x1024 .f32)
    (i : S10240x1024.Idx) (r : Fin 10240) (q : Fin 1024) (h0 : (i 0).val = r.val) (h1 : (i 1).val = q.val) :
    reg1_fn X W b i = max ((∑ k : Fin 128, X (ix2 r k) * W (ix2 k q)) + b (ix2 (0 : Fin 1) q)) 0 := by
  obtain rfl : r = ⟨(i 0).val, idx2_lt0 i⟩ := Fin.ext h0.symm
  obtain rfl : q = ⟨(i 1).val, idx2_lt1 i⟩ := Fin.ext h1.symm
  rfl

/-! ## What each point writes back, and the array after the run -/

/-- What point t writes back is block t of the whole-array function of the arrays as the region finds them. -/
theorem reg1_flushed (c : Dev nD) (t : Fin cfg1.N) :
    (dat1 (F := Ideal) V c).flushed 3 t
      = ((cfg1.win 3).blk t).view.read (Elt Ideal) (reg1_fn (reg1_X V c) (reg1_W V c) (reg1_b V c)) := by
  show (cfg1.win 3).cut (grid1.coords t) ((dat1 V c).after 3 t) = _
  rw [after1_3]
  unfold out1_3
  rw [View.canon_unit_zero reg1_hz]
  simp only [View.ld_unit_zero (S := S512x128) reg1_hz, View.ld_unit_zero (S := S128x1024) reg1_hz, View.ld_unit_zero (S := S1x1024) reg1_hz]
  funext j
  obtain ⟨p, q, rfl⟩ : ∃ (p : Fin 512) (q : Fin 1024), j = ix2 p q := ⟨j 0, j 1, eq_ix2 j⟩
  show k1_pay1 (F := Ideal) (iblk1 V c 0 t) (iblk1 V c 1 t) (iblk1 V c 2 t) (ix2 p q)
    = reg1_fn (reg1_X V c) (reg1_W V c) (reg1_b V c) (((cfg1.win 3).blk t).view.emb (ix2 p q))
  have ht : t.val < 20 := lt_of_lt_of_eq t.isLt N_1
  obtain ⟨-, -, -, -, -, -, e0, e1⟩ := reg1_idx t
  refine ((reg1_pay (iblk1 V c 0 t) (iblk1 V c 1 t) (iblk1 V c 2 t) p q).trans ?_).trans
    (reg1_fn_apply (reg1_X V c) (reg1_W V c) (reg1_b V c) (((cfg1.win 3).blk t).view.emb (ix2 p q))
      ⟨t.val * 512 + p.val, by omega⟩ q ?_ ?_).symm
  · refine congrArg₂ max (congrArg₂ (· + ·) (Finset.sum_congr rfl fun k _ => congrArg₂ (· * ·) ?_ ?_) ?_) rfl
    · exact reg1_read0 V c t (ix2 p k) (ix2 (⟨t.val * 512 + p.val, by omega⟩ : Fin 10240) k) rfl rfl
    · exact reg1_read1 V c t (ix2 k q)
    · exact reg1_read2 V c t (ix2 (0 : Fin 1) q)
  · show win1_3.index t (0 : Fin 2) * 512 + 1 * p.val = t.val * 512 + p.val; omega
  · show win1_3.index t (1 : Fin 2) * 1024 + 1 * q.val = q.val; omega

/-- An index of the output array is in point t's block iff each coordinate is in the block's range on its axis. -/
theorem reg1_mem_blk (t : Fin cfg1.N) (i : S10240x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v33).slice (win1_3.rect t)).set ↔ _
  rw [View.set_slice_whole, Rect.mem_set_unit]
  exact Iff.rfl

/-- Every row of the output is in some point's block: row r is in block r / 512. -/
theorem reg1_cover (i : S10240x1024.Idx) :
    ∃ t : Fin cfg1.N, (cfg1.win 3).flush t = true ∧ i ∈ ((cfg1.win 3).blk t).view.set := by
  have hi0 : (i 0).val < 10240 := idx2_lt0 i
  have hi1 : (i 1).val < 1024 := idx2_lt1 i
  let t : Fin cfg1.N := Fin.cast N_1.symm ⟨(i 0).val / 512, by omega⟩
  have htv : t.val = (i 0).val / 512 := rfl
  obtain ⟨-, -, -, -, -, -, e0, e1⟩ := reg1_idx t
  refine ⟨t, flush1_3 t, ?_⟩
  rw [reg1_mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- The output array after the run is the whole-array function of the arrays as the region finds them. -/
theorem reg1_final (c : Dev nD) :
    (dat1 (F := Ideal) V c).arrAt 3 cfg1.N = reg1_fn (reg1_X V c) (reg1_W V c) (reg1_b V c) :=
  (dat1 (F := Ideal) V c).arrAt_eq_of_cover 3 (reg1_fn (reg1_X V c) (reg1_W V c) (reg1_b V c))
    (fun t _ => reg1_flushed V c t) reg1_cover

theorem reg1_value (c : Dev nD) :
    cur2 ((dat1 (F := Ideal) V c).arrAt 3 cfg1.N) = relu2 (dense (cur2 (V c main_v31)) (cur2 (V c main_v20)) (cur2 (V c main_v32) 0)) := by
  rw [reg1_final]
  funext r q
  rw [cur2_apply]
  exact reg1_fn_apply (reg1_X V c) (reg1_W V c) (reg1_b V c) (ix2 r q) r q rfl rfl

end Cert.KernelIdeal.GCK
end
-- ==== Proof.KChainA.lean ====
/-
  The buffers between the regions. A region's output array, when the region is left, is the region's whole-array
  function of its input arrays as the region found them; an input array, and every buffer no region and no host
  operation in between writes, is still what it was when the first region was entered; a bias row is the reshaped
  padded bias.
-/
import proofs.«426275_j13812614824123_1_alg».proof.Proof.Gen.KernelIdeal.Frame
import proofs.«426275_j13812614824123_1_alg».proof.Proof.Spec
import proofs.«426275_j13812614824123_1_alg».proof.Proof.KReg0
import proofs.«426275_j13812614824123_1_alg».proof.Proof.KReg1
import proofs.«426275_j13812614824123_1_alg».proof.Proof.KReg2
import Idealize.ShloMosaic.Lib.ValueLayout

set_option maxRecDepth 16384
noncomputable section
open scoped BigOperators
namespace Cert.KernelIdeal.GCK

open Cert.KernelIdeal Cert.KernelIdeal.Gen Idealize.ShloMosaic Idealize.ShloMosaic.TcCoe Idealize.SL.Sem Idealize.ShloMosaic.ValueIdx GC
open Idealize.ShloMosaic.Pipeline (Dat Cfg Window)

variable (m : (ℓ : Loc nD τ sig) → Buf (Elt Ideal) ℓ) (ρ : Dev nD → PrngReg)

/-- The bias row the second region reads: the padded bias vector laid out as one row, so its row 0 is the vector. -/
private theorem kchainA_bias32 (c : Dev nD) :
    cur2 (V20 (F := Ideal) m ρ c main_v32) 0 = cur1 (W18 (F := Ideal) m ρ c (Proc.devRef .tc main_v21)) := by
  have e32 : W20 (F := Ideal) m ρ c (Proc.devRef .tc main_v32)
      = fun i => shapeCast S1x1024 (W19 (F := Ideal) m ρ c (Proc.devRef .tc main_v21)) shapeCasts_S1024_S1x1024 i := by
    show StableHlo.after hostOps1 _ (Proc.devRef .tc main_v32) = _
    after_results
    rfl
  have e21 : W19 (F := Ideal) m ρ c (Proc.devRef .tc main_v21) = W18 m ρ c (Proc.devRef .tc main_v21) :=
    W19_of_ne m ρ c main_v21 (by decide)
  funext j
  show (W20 (F := Ideal) m ρ c (Proc.devRef .tc main_v32)) (ix2 0 j) = (W18 (F := Ideal) m ρ c (Proc.devRef .tc main_v21)) (ix1 j)
  rw [e32, e21]
  exact shapeCast_a_1a_apply _ _ 0 j

/-- The first aggregate: the count table times the padded feature table. -/
theorem v31 (c : Dev nD) :
    cur2 (W19 (F := Ideal) m ρ c (Proc.devRef .tc main_v31)) = mm (cur2 (W18 (F := Ideal) m ρ c (Proc.devRef .tc main_v16))) (cur2 (W18 (F := Ideal) m ρ c (Proc.devRef .tc main_v18))) := by
  have e : W19 (F := Ideal) m ρ c (Proc.devRef .tc main_v31) = (dat0 (V18 (F := Ideal) m ρ) c).arrAt 2 cfg0.N := W19_arr m ρ c 2
  rw [e]
  exact reg0_value (V18 (F := Ideal) m ρ) c

/-- The first hidden table: the affine layer of the first aggregate under max · 0. The aggregate is untouched by the
    reshape in between; the weight table is neither an array of the first region nor written by the reshape. -/
theorem v33 (c : Dev nD) :
    cur2 (W21 (F := Ideal) m ρ c (Proc.devRef .tc main_v33)) = relu2 (dense (cur2 (W19 (F := Ideal) m ρ c (Proc.devRef .tc main_v31))) (cur2 (W18 (F := Ideal) m ρ c (Proc.devRef .tc main_v20))) (cur1 (W18 (F := Ideal) m ρ c (Proc.devRef .tc main_v21)))) := by
  have e : W21 (F := Ideal) m ρ c (Proc.devRef .tc main_v33) = (dat1 (V20 (F := Ideal) m ρ) c).arrAt 3 cfg1.N := W21_arr m ρ c 3
  have h31 : V20 (F := Ideal) m ρ c main_v31 = W19 (F := Ideal) m ρ c (Proc.devRef .tc main_v31) :=
    StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have h20 : V20 (F := Ideal) m ρ c main_v20 = W18 (F := Ideal) m ρ c (Proc.devRef .tc main_v20) :=
    calc W20 (F := Ideal) m ρ c (Proc.devRef .tc main_v20)
      _ = W19 m ρ c (Proc.devRef .tc main_v20) := StableHlo.after_of_forall_not_mem (b := Proc.devRef .tc main_v20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W18 m ρ c (Proc.devRef .tc main_v20) := W19_of_ne m ρ c main_v20 (by decide)
  rw [e, reg1_value (V20 (F := Ideal) m ρ) c, h31, h20, kchainA_bias32 m ρ c]

/-- The second aggregate: the count table times the first hidden table. The count table is an input array of the
    first region, so that region leaves it as found; nothing after it up to the third region writes it. -/
theorem v34 (c : Dev nD) :
    cur2 (W22 (F := Ideal) m ρ c (Proc.devRef .tc main_v34)) = mm (cur2 (W18 (F := Ideal) m ρ c (Proc.devRef .tc main_v16))) (cur2 (W21 (F := Ideal) m ρ c (Proc.devRef .tc main_v33))) := by
  have e : W22 (F := Ideal) m ρ c (Proc.devRef .tc main_v34) = (dat2 (V21 (F := Ideal) m ρ) c).arrAt 2 cfg2.N := W22_arr m ρ c 2
  have h16 : V21 (F := Ideal) m ρ c main_v16 = W18 (F := Ideal) m ρ c (Proc.devRef .tc main_v16) :=
    calc W21 (F := Ideal) m ρ c (Proc.devRef .tc main_v16)
      _ = W20 m ρ c (Proc.devRef .tc main_v16) := W21_of_ne m ρ c main_v16 (by decide)
      _ = W19 m ρ c (Proc.devRef .tc main_v16) := StableHlo.after_of_forall_not_mem (b := Proc.devRef .tc main_v16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = (dat0 (V18 m ρ) c).arrAt 0 cfg0.N := W19_arr m ρ c 0
      _ = (dat0 (V18 m ρ) c).A 0 := (dat0 (V18 m ρ) c).arrAt_in 0 rfl cfg0.N
      _ = W18 m ρ c (Proc.devRef .tc main_v16) := A_eq0 (V18 m ρ) c 0
  rw [e, reg2_value (V21 (F := Ideal) m ρ) c, h16]

end Cert.KernelIdeal.GCK
end
-- ==== Proof.KChainB.lean ====
/-
  The buffers between the regions. A region's output array, when the region is left, is the region's whole-array
  function of its input arrays as the region found them; an input array, and every buffer no region and no host
  operation in between writes, is still what it was when the first region was entered; a bias row is the reshaped
  padded bias.
-/
import proofs.«426275_j13812614824123_1_alg».proof.Proof.Gen.KernelIdeal.Frame
import proofs.«426275_j13812614824123_1_alg».proof.Proof.Spec
import Idealize.ShloMosaic.Lib.ValueLayout
import proofs.«426275_j13812614824123_1_alg».proof.Proof.KReg3
import proofs.«426275_j13812614824123_1_alg».proof.Proof.KReg4
import proofs.«426275_j13812614824123_1_alg».proof.Proof.KReg5

set_option maxRecDepth 16384
noncomputable section
open scoped BigOperators
namespace Cert.KernelIdeal.GCK

open Cert.KernelIdeal Cert.KernelIdeal.Gen Idealize.ShloMosaic Idealize.ShloMosaic.TcCoe Idealize.SL.Sem Idealize.ShloMosaic.ValueIdx GC
open Idealize.ShloMosaic.Pipeline (Dat Cfg Window)

variable (m : (ℓ : Loc nD τ sig) → Buf (Elt Ideal) ℓ) (ρ : Dev nD → PrngReg)

/-! ## Buffers carried unchanged across the boundaries -/

/-- The count table is an input window of regions 0 and 2 (never written back there), is no window of regions 1 and 3,
    and no host stretch in between writes it. -/
theorem kcb_v16_W24 (c : Dev nD) :
    W24 (F := Ideal) m ρ c (Proc.devRef .tc main_v16) = W18 (F := Ideal) m ρ c (Proc.devRef .tc main_v16) :=
  calc W24 (F := Ideal) m ρ c (Proc.devRef .tc main_v16)
    _ = W23 (F := Ideal) m ρ c (Proc.devRef .tc main_v16) := W24_of_ne m ρ c main_v16 (by decide)
    _ = W22 (F := Ideal) m ρ c (Proc.devRef .tc main_v16) := StableHlo.after_of_forall_not_mem (b := Proc.devRef .tc main_v16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat2 (V21 (F := Ideal) m ρ) c).arrAt 0 cfg2.N := W22_arr m ρ c 0
    _ = (dat2 (V21 (F := Ideal) m ρ) c).A 0 := Pipeline.Dat.arrAt_in _ 0 rfl _
    _ = W21 (F := Ideal) m ρ c (Proc.devRef .tc main_v16) := A_eq2 _ c 0
    _ = W20 (F := Ideal) m ρ c (Proc.devRef .tc main_v16) := W21_of_ne m ρ c main_v16 (by decide)
    _ = W19 (F := Ideal) m ρ c (Proc.devRef .tc main_v16) := StableHlo.after_of_forall_not_mem (b := Proc.devRef .tc main_v16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V18 (F := Ideal) m ρ) c).arrAt 0 cfg0.N := W19_arr m ρ c 0
    _ = (dat0 (V18 (F := Ideal) m ρ) c).A 0 := Pipeline.Dat.arrAt_in _ 0 rfl _
    _ = W18 (F := Ideal) m ρ c (Proc.devRef .tc main_v16) := A_eq0 _ c 0

/-- The second layer's weight table is in no region's window before region 3 and no host stretch writes it. -/
theorem kcb_v23_W23 (c : Dev nD) :
    W23 (F := Ideal) m ρ c (Proc.devRef .tc main_v23) = W18 (F := Ideal) m ρ c (Proc.devRef .tc main_v23) :=
  calc W23 (F := Ideal) m ρ c (Proc.devRef .tc main_v23)
    _ = W22 (F := Ideal) m ρ c (Proc.devRef .tc main_v23) := StableHlo.after_of_forall_not_mem (b := Proc.devRef .tc main_v23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 (F := Ideal) m ρ c (Proc.devRef .tc main_v23) := W22_of_ne m ρ c main_v23 (by decide)
    _ = W20 (F := Ideal) m ρ c (Proc.devRef .tc main_v23) := W21_of_ne m ρ c main_v23 (by decide)
    _ = W19 (F := Ideal) m ρ c (Proc.devRef .tc main_v23) := StableHlo.after_of_forall_not_mem (b := Proc.devRef .tc main_v23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 (F := Ideal) m ρ c (Proc.devRef .tc main_v23) := W19_of_ne m ρ c main_v23 (by decide)

/-- The second layer's padded bias likewise, from region 2's exit back. -/
theorem kcb_v24_W22 (c : Dev nD) :
    W22 (F := Ideal) m ρ c (Proc.devRef .tc main_v24) = W18 (F := Ideal) m ρ c (Proc.devRef .tc main_v24) :=
  calc W22 (F := Ideal) m ρ c (Proc.devRef .tc main_v24)
    _ = W21 (F := Ideal) m ρ c (Proc.devRef .tc main_v24) := W22_of_ne m ρ c main_v24 (by decide)
    _ = W20 (F := Ideal) m ρ c (Proc.devRef .tc main_v24) := W21_of_ne m ρ c main_v24 (by decide)
    _ = W19 (F := Ideal) m ρ c (Proc.devRef .tc main_v24) := StableHlo.after_of_forall_not_mem (b := Proc.devRef .tc main_v24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 (F := Ideal) m ρ c (Proc.devRef .tc main_v24) := W19_of_ne m ρ c main_v24 (by decide)

/-- The reshape before region 3 leaves region 2's output alone. -/
theorem kcb_v34_W23 (c : Dev nD) :
    W23 (F := Ideal) m ρ c (Proc.devRef .tc main_v34) = W22 (F := Ideal) m ρ c (Proc.devRef .tc main_v34) :=
  calc W23 (F := Ideal) m ρ c (Proc.devRef .tc main_v34)
    _ = W22 (F := Ideal) m ρ c (Proc.devRef .tc main_v34) := StableHlo.after_of_forall_not_mem (b := Proc.devRef .tc main_v34) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The third layer's weight table is in no region's window before region 5 and no host stretch writes it. -/
theorem kcb_v26_W26 (c : Dev nD) :
    W26 (F := Ideal) m ρ c (Proc.devRef .tc main_v26) = W18 (F := Ideal) m ρ c (Proc.devRef .tc main_v26) :=
  calc W26 (F := Ideal) m ρ c (Proc.devRef .tc main_v26)
    _ = W25 (F := Ideal) m ρ c (Proc.devRef .tc main_v26) := StableHlo.after_of_forall_not_mem (b := Proc.devRef .tc main_v26) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W24 (F := Ideal) m ρ c (Proc.devRef .tc main_v26) := W25_of_ne m ρ c main_v26 (by decide)
    _ = W23 (F := Ideal) m ρ c (Proc.devRef .tc main_v26) := W24_of_ne m ρ c main_v26 (by decide)
    _ = W22 (F := Ideal) m ρ c (Proc.devRef .tc main_v26) := StableHlo.after_of_forall_not_mem (b := Proc.devRef .tc main_v26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 (F := Ideal) m ρ c (Proc.devRef .tc main_v26) := W22_of_ne m ρ c main_v26 (by decide)
    _ = W20 (F := Ideal) m ρ c (Proc.devRef .tc main_v26) := W21_of_ne m ρ c main_v26 (by decide)
    _ = W19 (F := Ideal) m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 (F := Ideal) m ρ c (Proc.devRef .tc main_v26) := W19_of_ne m ρ c main_v26 (by decide)

/-- The third layer's padded bias likewise, from region 4's exit back. -/
theorem kcb_v27_W25 (c : Dev nD) :
    W25 (F := Ideal) m ρ c (Proc.devRef .tc main_v27) = W18 (F := Ideal) m ρ c (Proc.devRef .tc main_v27) :=
  calc W25 (F := Ideal) m ρ c (Proc.devRef .tc main_v27)
    _ = W24 (F := Ideal) m ρ c (Proc.devRef .tc main_v27) := W25_of_ne m ρ c main_v27 (by decide)
    _ = W23 (F := Ideal) m ρ c (Proc.devRef .tc main_v27) := W24_of_ne m ρ c main_v27 (by decide)
    _ = W22 (F := Ideal) m ρ c (Proc.devRef .tc main_v27) := StableHlo.after_of_forall_not_mem (b := Proc.devRef .tc main_v27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 (F := Ideal) m ρ c (Proc.devRef .tc main_v27) := W22_of_ne m ρ c main_v27 (by decide)
    _ = W20 (F := Ideal) m ρ c (Proc.devRef .tc main_v27) := W21_of_ne m ρ c main_v27 (by decide)
    _ = W19 (F := Ideal) m ρ c (Proc.devRef .tc main_v27) := StableHlo.after_of_forall_not_mem (b := Proc.devRef .tc main_v27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 (F := Ideal) m ρ c (Proc.devRef .tc main_v27) := W19_of_ne m ρ c main_v27 (by decide)

/-- The reshape before region 5 leaves region 4's output alone. -/
theorem kcb_v37_W26 (c : Dev nD) :
    W26 (F := Ideal) m ρ c (Proc.devRef .tc main_v37) = W25 (F := Ideal) m ρ c (Proc.devRef .tc main_v37) :=
  calc W26 (F := Ideal) m ρ c (Proc.devRef .tc main_v37)
    _ = W25 (F := Ideal) m ρ c (Proc.devRef .tc main_v37) := StableHlo.after_of_forall_not_mem (b := Proc.devRef .tc main_v37) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The bias rows -/

/-- The bias row region 3 finds is the padded bias read as one row. -/
theorem kcb_bias35 (c : Dev nD) :
    cur2 (W23 (F := Ideal) m ρ c (Proc.devRef .tc main_v35)) 0 = cur1 (W22 (F := Ideal) m ρ c (Proc.devRef .tc main_v24)) := by
  funext j
  rw [cur2_apply, cur1_apply]
  have h : W23 (F := Ideal) m ρ c (Proc.devRef .tc main_v35) = fun i => shapeCast S1x1024 (W22 (F := Ideal) m ρ c (Proc.devRef .tc main_v24)) shapeCasts_S1024_S1x1024 i := by
    show StableHlo.after hostOps3 _ (Proc.devRef .tc main_v35) = _
    after_results
    rfl
  rw [h]
  exact shapeCast_a_1a_apply _ _ 0 j

/-- The bias row region 5 finds is the padded bias read as one row. -/
theorem kcb_bias38 (c : Dev nD) :
    cur2 (W26 (F := Ideal) m ρ c (Proc.devRef .tc main_v38)) 0 = cur1 (W25 (F := Ideal) m ρ c (Proc.devRef .tc main_v27)) := by
  funext j
  rw [cur2_apply, cur1_apply]
  have h : W26 (F := Ideal) m ρ c (Proc.devRef .tc main_v38) = fun i => shapeCast S1x1024 (W25 (F := Ideal) m ρ c (Proc.devRef .tc main_v27)) shapeCasts_S1024_S1x1024 i := by
    show StableHlo.after hostOps5 _ (Proc.devRef .tc main_v38) = _
    after_results
    rfl
  rw [h]
  exact shapeCast_a_1a_apply _ _ 0 j

/-! ## The three outputs -/

theorem v36 (c : Dev nD) :
    cur2 (W24 (F := Ideal) m ρ c (Proc.devRef .tc main_v36)) = relu2 (dense (cur2 (W22 (F := Ideal) m ρ c (Proc.devRef .tc main_v34))) (cur2 (W18 (F := Ideal) m ρ c (Proc.devRef .tc main_v23))) (cur1 (W18 (F := Ideal) m ρ c (Proc.devRef .tc main_v24)))) :=
  calc cur2 (W24 (F := Ideal) m ρ c (Proc.devRef .tc main_v36))
    _ = cur2 ((dat3 (V23 (F := Ideal) m ρ) c).arrAt 3 cfg3.N) := congrArg cur2 (W24_arr m ρ c 3)
    _ = relu2 (dense (cur2 (W23 (F := Ideal) m ρ c (Proc.devRef .tc main_v34))) (cur2 (W23 (F := Ideal) m ρ c (Proc.devRef .tc main_v23))) (cur2 (W23 (F := Ideal) m ρ c (Proc.devRef .tc main_v35)) 0)) := reg3_value _ c
    _ = relu2 (dense (cur2 (W22 (F := Ideal) m ρ c (Proc.devRef .tc main_v34))) (cur2 (W18 (F := Ideal) m ρ c (Proc.devRef .tc main_v23))) (cur1 (W18 (F := Ideal) m ρ c (Proc.devRef .tc main_v24)))) := by
        rw [kcb_bias35, kcb_v24_W22, kcb_v23_W23, kcb_v34_W23]

theorem v37 (c : Dev nD) :
    cur2 (W25 (F := Ideal) m ρ c (Proc.devRef .tc main_v37)) = mm (cur2 (W18 (F := Ideal) m ρ c (Proc.devRef .tc main_v16))) (cur2 (W24 (F := Ideal) m ρ c (Proc.devRef .tc main_v36))) :=
  calc cur2 (W25 (F := Ideal) m ρ c (Proc.devRef .tc main_v37))
    _ = cur2 ((dat4 (V24 (F := Ideal) m ρ) c).arrAt 2 cfg4.N) := congrArg cur2 (W25_arr m ρ c 2)
    _ = mm (cur2 (W24 (F := Ideal) m ρ c (Proc.devRef .tc main_v16))) (cur2 (W24 (F := Ideal) m ρ c (Proc.devRef .tc main_v36))) := reg4_value _ c
    _ = mm (cur2 (W18 (F := Ideal) m ρ c (Proc.devRef .tc main_v16))) (cur2 (W24 (F := Ideal) m ρ c (Proc.devRef .tc main_v36))) := by
        rw [kcb_v16_W24]

theorem v39 (c : Dev nD) :
    cur2 (W27 (F := Ideal) m ρ c (Proc.devRef .tc main_v39)) = relu2 (dense (cur2 (W25 (F := Ideal) m ρ c (Proc.devRef .tc main_v37))) (cur2 (W18 (F := Ideal) m ρ c (Proc.devRef .tc main_v26))) (cur1 (W18 (F := Ideal) m ρ c (Proc.devRef .tc main_v27)))) :=
  calc cur2 (W27 (F := Ideal) m ρ c (Proc.devRef .tc main_v39))
    _ = cur2 ((dat5 (V26 (F := Ideal) m ρ) c).arrAt 3 cfg5.N) := congrArg cur2 (W27_arr m ρ c 3)
    _ = relu2 (dense (cur2 (W26 (F := Ideal) m ρ c (Proc.devRef .tc main_v37))) (cur2 (W26 (F := Ideal) m ρ c (Proc.devRef .tc main_v26))) (cur2 (W26 (F := Ideal) m ρ c (Proc.devRef .tc main_v38)) 0)) := reg5_value _ c
    _ = relu2 (dense (cur2 (W25 (F := Ideal) m ρ c (Proc.devRef .tc main_v37))) (cur2 (W18 (F := Ideal) m ρ c (Proc.devRef .tc main_v26))) (cur1 (W18 (F := Ideal) m ρ c (Proc.devRef .tc main_v27)))) := by
        rw [kcb_bias38, kcb_v27_W25, kcb_v26_W26, kcb_v37_W26]

end Cert.KernelIdeal.GCK
end
-- ==== Proof.KReg6.lean ====
/-
  Region 6 as one whole-array function: the 512-column blocks of the count table, contracted on their rows against the whole feature table, tile the transposed product: the output array ends at (count table)ᵀ · (feature table).
-/
import proofs.«426275_j13812614824123_1_alg».proof.Proof.Gen.KernelIdeal.Frame
import proofs.«426275_j13812614824123_1_alg».proof.Proof.Spec
import Idealize.ShloMosaic.Lib.ValueIdx
import Idealize.ShloMosaic.Lib.Pipeline.Value
import Idealize.ShloMosaic.PureOps.Ideal.Laws

set_option maxRecDepth 16384
noncomputable section
open scoped BigOperators
namespace Cert.KernelIdeal.GCK

open Cert.KernelIdeal Cert.KernelIdeal.Gen Idealize.ShloMosaic Idealize.ShloMosaic.TcCoe Idealize.SL.Sem Idealize.ShloMosaic.ValueIdx GC
open Idealize.ShloMosaic.Pipeline (Dat Cfg Window)

/-! ## The product of one column block with the feature table, entry by entry -/

/-- The left operand is read at (contraction position, output row): its axis 0 is the contracted one. -/
theorem reg6_lhs_0 (i : S512x1024.Idx) (k : dot_S10240x512_S10240x1024_S512x1024_0_0_1_1_n_n.contr.Idx) :
    (dot_S10240x512_S10240x1024_S512x1024_0_0_1_1_n_n.lhsIdx i k 0).val = (k ⟨0, by decide⟩).val :=
  dot_S10240x512_S10240x1024_S512x1024_0_0_1_1_n_n.lhsIdx_val_of_single rfl i k
theorem reg6_lhs_1 (i : S512x1024.Idx) (k : dot_S10240x512_S10240x1024_S512x1024_0_0_1_1_n_n.contr.Idx) :
    (dot_S10240x512_S10240x1024_S512x1024_0_0_1_1_n_n.lhsIdx i k 1).val = (i 0).val := by
  unfold DotDims.lhsIdx
  rw [dif_neg (show ¬(1 : Fin S10240x512.rank) ∈ dot_S10240x512_S10240x1024_S512x1024_0_0_1_1_n_n.lhsBatch by decide), dif_pos (show (1 : Fin S10240x512.rank) ∈ dot_S10240x512_S10240x1024_S512x1024_0_0_1_1_n_n.lhsNonContracting by decide)]
  rfl
/-- The right operand is read at (contraction position, output column). -/
theorem reg6_rhs_0 (i : S512x1024.Idx) (k : dot_S10240x512_S10240x1024_S512x1024_0_0_1_1_n_n.contr.Idx) :
    (dot_S10240x512_S10240x1024_S512x1024_0_0_1_1_n_n.rhsIdx i k 0).val = (k ⟨0, by decide⟩).val :=
  dot_S10240x512_S10240x1024_S512x1024_0_0_1_1_n_n.rhsIdx_val_of_single rfl i k
theorem reg6_rhs_1 (i : S512x1024.Idx) (k : dot_S10240x512_S10240x1024_S512x1024_0_0_1_1_n_n.contr.Idx) :
    (dot_S10240x512_S10240x1024_S512x1024_0_0_1_1_n_n.rhsIdx i k 1).val = (i 1).val := by
  unfold DotDims.rhsIdx
  rw [dif_neg (show ¬(1 : Fin S10240x1024.rank) ∈ dot_S10240x512_S10240x1024_S512x1024_0_0_1_1_n_n.rhsBatch by decide), dif_pos (show (1 : Fin S10240x1024.rank) ∈ dot_S10240x512_S10240x1024_S512x1024_0_0_1_1_n_n.rhsNonContracting by decide)]
  rfl

/-- Entry (p, q) of the body's result: the column p of the count block against the column q of the feature table,
    summed over all 10240 rows. The format changes are the identity and the accumulator starts at zero. -/
theorem reg6_body_apply (x0 : Vec Ideal S10240x512 .bf16) (x1 : Vec Ideal S10240x1024 .bf16) (p : Fin 512) (q : Fin 1024) :
    k6_pay1 (F := Ideal) x0 x1 (ix2 p q) = ∑ s : Fin 10240, x0 (ix2 s p) * x1 (ix2 s q) := by
  unfold k6_pay1
  simp only [shapeCast_self]
  refine (Ideal.matmul_constant_zero_apply (φ₁ := .bf16) (φ₂ := .bf16) dot_S10240x512_S10240x1024_S512x1024_0_0_1_1_n_n none x0 x1 (ix2 p q)).trans ?_
  rw [← Equiv.sum_comp (ValueIdx.contrEquiv1 dot_S10240x512_S10240x1024_S512x1024_0_0_1_1_n_n 10240 rfl rfl).symm]
  refine Finset.sum_congr rfl fun s _ => ?_
  have hs := ValueIdx.contrEquiv1_symm_val dot_S10240x512_S10240x1024_S512x1024_0_0_1_1_n_n 10240 rfl rfl s
  have el : dot_S10240x512_S10240x1024_S512x1024_0_0_1_1_n_n.lhsIdx (ix2 p q) ((ValueIdx.contrEquiv1 dot_S10240x512_S10240x1024_S512x1024_0_0_1_1_n_n 10240 rfl rfl).symm s) = ix2 s p := funext fun a => Fin.ext (by
    match a with
    | ⟨0, _⟩ => exact (reg6_lhs_0 _ _).trans hs
    | ⟨1, _⟩ => exact reg6_lhs_1 _ _)
  have er : dot_S10240x512_S10240x1024_S512x1024_0_0_1_1_n_n.rhsIdx (ix2 p q) ((ValueIdx.contrEquiv1 dot_S10240x512_S10240x1024_S512x1024_0_0_1_1_n_n 10240 rfl rfl).symm s) = ix2 s q := funext fun a => Fin.ext (by
    match a with
    | ⟨0, _⟩ => exact (reg6_rhs_0 _ _).trans hs
    | ⟨1, _⟩ => exact reg6_rhs_1 _ _)
  rw [el, er]

variable (V : (c : Dev nD) → (b : Ref sig .tc) → Buf (Elt Ideal) ((c : Thread nD τ).loc b))

/-! ## The whole output array as one function of the two input arrays -/

/-- (count table)ᵀ · (feature table), entry by entry: row r, column q is the sum over all rows s of
    (count table) (s, r) · (feature table) (s, q). -/
def reg6Whole (A : Vec Ideal S10240x10240 .bf16) (H : Vec Ideal S10240x1024 .bf16) : Vec Ideal S10240x1024 .bf16 :=
  fun i => ∑ s : Fin 10240, A (ix2 s ⟨(i 0).val, idx2_lt0 i⟩) * H (ix2 s ⟨(i 1).val, idx2_lt1 i⟩)

theorem reg6Whole_apply (A : Vec Ideal S10240x10240 .bf16) (H : Vec Ideal S10240x1024 .bf16) (r : Fin 10240) (q : Fin 1024) :
    reg6Whole A H (ix2 r q) = ∑ s : Fin 10240, A (ix2 s r) * H (ix2 s q) := rfl

/-- The count table and the feature table as the region finds them. -/
abbrev reg6Cnt (c : Dev nD) : Vec Ideal S10240x10240 .bf16 := V c main_v16
abbrev reg6Feat (c : Dev nD) : Vec Ideal S10240x1024 .bf16 := V c main_v39

theorem reg6_zero : (![0, 0] : Fin 2 → Nat) = fun _ => 0 := funext fun a => by fin_cases a <;> rfl

/-- The three index maps over the grid: at point t the count table's block is column block t (all rows), the
    feature table's is the whole table, the output's is row block t (all columns). -/
theorem reg6_index_maps : ∀ t : Fin cfg6.N, win6_0.index t (0 : Fin 2) = 0 ∧ win6_0.index t (1 : Fin 2) = t.val
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem reg6_point_lt (t : Fin cfg6.N) : t.val < 20 := lt_of_lt_of_eq t.isLt N_6

/-- Entry (s, p) of the count table's block at point t is entry (s, 512 t + p) of the table. -/
theorem reg6_cnt_block (A : Vec Ideal S10240x10240 .bf16) (t : Fin cfg6.N) (s : Fin 10240) (p : Fin 512) (r : Fin 10240)
    (hr : r.val = 512 * t.val + p.val) :
    (((cfg6.win 0).blk t).view.read (Elt Ideal) A : Vec Ideal S10240x512 .bf16) (ix2 s p) = A (ix2 s r) := by
  obtain ⟨e0, e1, -⟩ := reg6_index_maps t
  show A (((cfg6.win 0).blk t).view.emb (ix2 s p)) = A (ix2 s r)
  refine congrArg A ?_
  funext a; apply Fin.ext
  match a with
  | ⟨0, _⟩ => show win6_0.index t (0 : Fin 2) * 10240 + 1 * s.val = s.val; omega
  | ⟨1, _⟩ => show win6_0.index t (1 : Fin 2) * 512 + 1 * p.val = r.val; omega

/-- The feature table's block at any point is the whole table. -/
theorem reg6_feat_block (H : Vec Ideal S10240x1024 .bf16) (t : Fin cfg6.N) (s : Fin 10240) (q : Fin 1024) :
    (((cfg6.win 1).blk t).view.read (Elt Ideal) H : Vec Ideal S10240x1024 .bf16) (ix2 s q) = H (ix2 s q) := by
  obtain ⟨-, -, e2, e3, -⟩ := reg6_index_maps t
  show H (((cfg6.win 1).blk t).view.emb (ix2 s q)) = H (ix2 s q)
  refine congrArg H ?_
  funext a; apply Fin.ext
  match a with
  | ⟨0, _⟩ => show win6_1.index t (0 : Fin 2) * 10240 + 1 * s.val = s.val; omega
  | ⟨1, _⟩ => show win6_1.index t (1 : Fin 2) * 1024 + 1 * q.val = q.val; omega

/-- Entry (p, q) of the output's block at point t sits at (512 t + p, q) of the output array. -/
theorem reg6_out_place (t : Fin cfg6.N) (p : Fin 512) (q : Fin 1024) (r : Fin 10240) (hr : r.val = 512 * t.val + p.val) :
    ((cfg6.win 2).blk t).view.emb (ix2 p q) = ix2 r q := by
  obtain ⟨-, -, -, -, e4, e5⟩ := reg6_index_maps t
  funext a; apply Fin.ext
  match a with
  | ⟨0, _⟩ => show win6_2.index t (0 : Fin 2) * 512 + 1 * p.val = r.val; omega
  | ⟨1, _⟩ => show win6_2.index t (1 : Fin 2) * 1024 + 1 * q.val = q.val; omega

/-- What point t writes back is row block t of the transposed product of the two tables. -/
theorem reg6_flushed (c : Dev nD) (t : Fin cfg6.N) :
    (dat6 (F := Ideal) V c).flushed 2 t = ((cfg6.win 2).blk t).view.read (Elt Ideal) (reg6Whole (reg6Cnt V c) (reg6Feat V c)) := by
  show (cfg6.win 2).cut (grid6.coords t) ((dat6 V c).after 2 t) = _
  rw [after6_2]
  unfold out6_2
  rw [View.canon_unit_zero reg6_zero]
  simp only [View.ld_unit_zero (S := S10240x512) reg6_zero, View.ld_unit_zero (S := S10240x1024) reg6_zero]
  funext j
  obtain ⟨p, q, rfl⟩ : ∃ (p : Fin 512) (q : Fin 1024), j = ix2 p q := ⟨j 0, j 1, eq_ix2 j⟩
  have ht := reg6_point_lt t
  show k6_pay1 (F := Ideal) (iblk6 V c 0 t) (iblk6 V c 1 t) (ix2 p q)
    = reg6Whole (reg6Cnt V c) (reg6Feat V c) (((cfg6.win 2).blk t).view.emb (ix2 p q))
  rw [reg6_out_place t p q ⟨512 * t.val + p.val, by omega⟩ rfl, reg6Whole_apply]
  refine (reg6_body_apply _ _ p q).trans ?_
  refine Finset.sum_congr rfl fun s _ => ?_
  have hA : (iblk6 V c 0 t : Vec Ideal S10240x512 .bf16) (ix2 s p) = reg6Cnt V c (ix2 s ⟨512 * t.val + p.val, by omega⟩) :=
    reg6_cnt_block (reg6Cnt V c) t s p _ rfl
  have hH : (iblk6 V c 1 t : Vec Ideal S10240x1024 .bf16) (ix2 s q) = reg6Feat V c (ix2 s q) :=
    reg6_feat_block (reg6Feat V c) t s q
  rw [hA, hH]

/-- An index of the output array is in point t's block iff each coordinate is in the block's range on its axis. -/
theorem reg6_mem_block (t : Fin cfg6.N) (i : S10240x1024.Idx) :
    i ∈ ((cfg6.win 2).blk t).view.set ↔ ∀ a : Fin 2, win6_2.index t a * S512x1024.size a ≤ (i a).val
      ∧ (i a).val < win6_2.index t a * S512x1024.size a + S512x1024.size a := by
  show i ∈ ((View.whole main_v40).slice (win6_2.rect t)).set ↔ _
  rw [View.set_slice_whole, Rect.mem_set_unit]
  exact Iff.rfl

/-- The row blocks tile the output array: row r lies in the block of point r / 512. -/
theorem reg6_cover (i : S10240x1024.Idx) :
    ∃ t : Fin cfg6.N, (cfg6.win 2).flush t = true ∧ i ∈ ((cfg6.win 2).blk t).view.set := by
  have hi0 : (i 0).val < 10240 := idx2_lt0 i
  have hi1 : (i 1).val < 1024 := idx2_lt1 i
  have hN : cfg6.N = 20 := N_6
  obtain ⟨t, ht⟩ : ∃ t : Fin cfg6.N, t.val = (i 0).val / 512 := ⟨⟨(i 0).val / 512, by rw [hN]; omega⟩, rfl⟩
  obtain ⟨-, -, -, -, e4, e5⟩ := reg6_index_maps t
  refine ⟨t, flush6_2 t, ?_⟩
  rw [reg6_mem_block]
  intro a
  match a with
  | ⟨0, _⟩ =>
    show win6_2.index t (0 : Fin 2) * 512 ≤ (i 0).val ∧ (i 0).val < win6_2.index t (0 : Fin 2) * 512 + 512
    omega
  | ⟨1, _⟩ =>
    show win6_2.index t (1 : Fin 2) * 1024 ≤ (i 1).val ∧ (i 1).val < win6_2.index t (1 : Fin 2) * 1024 + 1024
    omega

/-- The output array after the region: the transposed product of the two tables. -/
theorem reg6_array (c : Dev nD) :
    (dat6 (F := Ideal) V c).arrAt 2 cfg6.N = reg6Whole (reg6Cnt V c) (reg6Feat V c) :=
  (dat6 (F := Ideal) V c).arrAt_eq_of_cover 2 (reg6Whole (reg6Cnt V c) (reg6Feat V c)) (fun t _ => reg6_flushed V c t) reg6_cover

theorem reg6_value (c : Dev nD) :
    cur2 ((dat6 (F := Ideal) V c).arrAt 2 cfg6.N) = mmT (cur2 (V c main_v16)) (cur2 (V c main_v39)) := by
  rw [reg6_array]
  funext r q
  rw [cur2_apply]
  exact reg6Whole_apply (reg6Cnt V c) (reg6Feat V c) r q

end Cert.KernelIdeal.GCK
end
-- ==== Proof.KReg7.lean ====
/-
  Region 7 as one whole-array function: each 512-row block of the aggregate times the whole weight table, plus the bias row, with no activation: the output array ends at the affine layer of the input arrays.
-/
import proofs.«426275_j13812614824123_1_alg».proof.Proof.Gen.KernelIdeal.Frame
import proofs.«426275_j13812614824123_1_alg».proof.Proof.Spec
import Idealize.ShloMosaic.Lib.Pipeline.Value
import Idealize.ShloMosaic.Lib.ValueLayout
import Idealize.ShloMosaic.PureOps.Ideal.Laws

set_option maxRecDepth 16384
noncomputable section
open scoped BigOperators
namespace Cert.KernelIdeal.GCK

open Cert.KernelIdeal Cert.KernelIdeal.Gen Idealize.ShloMosaic Idealize.ShloMosaic.TcCoe Idealize.SL.Sem Idealize.ShloMosaic.ValueIdx GC
open Idealize.ShloMosaic.Pipeline (Dat Cfg Window)

/-! ## The product's operand indices -/

theorem reg7_lhs_0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem reg7_lhs_1 (i : S512x128.Idx) (q : dot_S512x1024_S1024x128_S512x128_1_0_0_1_n_n.contr.Idx) :
    (dot_S512x1024_S1024x128_S512x128_1_0_0_1_n_n.lhsIdx i q 1).val = (q ⟨0, by decide⟩).val :=
  dot_S512x1024_S1024x128_S512x128_1_0_0_1_n_n.lhsIdx_val_of_single rfl i q
theorem reg7_rhs_0 (i : S512x128.Idx) (q : dot_S512x1024_S1024x128_S512x128_1_0_0_1_n_n.contr.Idx) :
    (dot_S512x1024_S1024x128_S512x128_1_0_0_1_n_n.rhsIdx i q 0).val = (q ⟨0, by decide⟩).val :=
  dot_S512x1024_S1024x128_S512x128_1_0_0_1_n_n.rhsIdx_val_of_single rfl i q
theorem reg7_rhs_1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The product of a row block and the weight table at (p, q): the sum over the shared axis. -/
theorem reg7_prod (x : FVec Ideal S512x1024 .bf16) (w : FVec Ideal S1024x128 .bf16) (p : Fin 512) (q : Fin 128) :
    FloatOps.matmul dot_S512x1024_S1024x128_S512x128_1_0_0_1_n_n none x w (constant (F := Ideal) S512x128 .f32 0x00000000#32) (ix2 p q)
      = ∑ k : Fin 1024, x (ix2 p k) * w (ix2 k q) := by
  rw [Ideal.matmul_constant_zero_apply, ← Equiv.sum_comp (ValueIdx.contrEquiv1 dot_S512x1024_S1024x128_S512x128_1_0_0_1_n_n 1024 rfl rfl).symm]
  refine Finset.sum_congr rfl fun k _ => ?_
  have hk := ValueIdx.contrEquiv1_symm_val dot_S512x1024_S1024x128_S512x128_1_0_0_1_n_n 1024 rfl rfl k
  have el : dot_S512x1024_S1024x128_S512x128_1_0_0_1_n_n.lhsIdx (ix2 p q) ((ValueIdx.contrEquiv1 dot_S512x1024_S1024x128_S512x128_1_0_0_1_n_n 1024 rfl rfl).symm k) = ix2 p k := funext fun a => Fin.ext (by
    match a with
    | ⟨0, _⟩ => exact reg7_lhs_0 _ _
    | ⟨1, _⟩ => exact (reg7_lhs_1 _ _).trans hk)
  have er : dot_S512x1024_S1024x128_S512x128_1_0_0_1_n_n.rhsIdx (ix2 p q) ((ValueIdx.contrEquiv1 dot_S512x1024_S1024x128_S512x128_1_0_0_1_n_n 1024 rfl rfl).symm k) = ix2 k q := funext fun a => Fin.ext (by
    match a with
    | ⟨0, _⟩ => exact (reg7_rhs_0 _ _).trans hk
    | ⟨1, _⟩ => exact reg7_rhs_1 _ _)
  rw [el, er]

/-- The body's arithmetic at (p, q): the affine expression. -/
theorem reg7_pay (x : Vec Ideal S512x1024 .bf16) (w : Vec Ideal S1024x128 .bf16) (b : Vec Ideal S1x128 .f32) (p : Fin 512) (q : Fin 128) :
    k7_pay1 (F := Ideal) x w b (ix2 p q) = (∑ k : Fin 1024, x (ix2 p k) * w (ix2 k q)) + b (ix2 (0 : Fin 1) q) := by
  unfold k7_pay1
  simp only [shapeCast_self]
  rw [addf_apply]
  exact congrArg₂ (· + ·) (reg7_prod x w p q) (broadcastTo_1b_ab_apply b _ p q)

/-! ## The arrays and the whole-array function -/

variable (V : (c : Dev nD) → (b : Ref sig .tc) → Buf (Elt Ideal) ((c : Thread nD τ).loc b))

/-- The aggregate, the weight table and the bias row as the region finds them. -/
abbrev reg7_X (c : Dev nD) : Vec Ideal S10240x1024 .bf16 := V c main_v40
abbrev reg7_W (c : Dev nD) : Vec Ideal S1024x128 .bf16 := V c main_v29
abbrev reg7_b (c : Dev nD) : Vec Ideal S1x128 .f32 := V c main_v41

/-- The affine layer, entry by entry, over the whole output array. -/
def reg7_fn (X : Vec Ideal S10240x1024 .bf16) (W : Vec Ideal S1024x128 .bf16) (b : Vec Ideal S1x128 .f32) : Vec Ideal S10240x128 .f32 :=
  fun i => (∑ k : Fin 1024, X (ix2 (⟨(i 0).val, idx2_lt0 i⟩ : Fin 10240) k) * W (ix2 k (⟨(i 1).val, idx2_lt1 i⟩ : Fin 128)))
    + b (ix2 (0 : Fin 1) (⟨(i 1).val, idx2_lt1 i⟩ : Fin 128))

theorem reg7_hz : (![0, 0] : Fin 2 → Nat) = fun _ => 0 := funext fun a => by fin_cases a <;> rfl

/-- Where the blocks sit: the row block of the aggregate and of the output at point t is block t; the weight
    table and the bias row are one block each. -/
theorem reg7_idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The aggregate's block at point t, read in the array: row t · 512 + (the row inside the block). -/
theorem reg7_read0 (c : Dev nD) (t : Fin cfg7.N) (y : S512x1024.Idx) (i : S10240x1024.Idx)
    (h0 : (i 0).val = t.val * 512 + (y 0).val) (h1 : (i 1).val = (y 1).val) :
    (iblk7 V c 0 t : Vec Ideal S512x1024 .bf16) y = reg7_X V c i := by
  show V c main_v40 (((cfg7.win 0).blk t).view.emb y) = V c main_v40 i
  obtain ⟨e0, e1, -⟩ := reg7_idx t
  refine congrArg _ (funext fun a => Fin.ext ?_)
  match a with
  | ⟨0, _⟩ => show win7_0.index t (0 : Fin 2) * 512 + 1 * (y 0).val = (i 0).val; omega
  | ⟨1, _⟩ => show win7_0.index t (1 : Fin 2) * 1024 + 1 * (y 1).val = (i 1).val; omega

/-- The weight table's one block is the table. -/
theorem reg7_read1 (c : Dev nD) (t : Fin cfg7.N) (y : S1024x128.Idx) :
    (iblk7 V c 1 t : Vec Ideal S1024x128 .bf16) y = reg7_W V c y := by
  show V c main_v29 (((cfg7.win 1).blk t).view.emb y) = V c main_v29 y
  obtain ⟨-, -, e0, e1, -⟩ := reg7_idx t
  refine congrArg _ (funext fun a => Fin.ext ?_)
  match a with
  | ⟨0, _⟩ => show win7_1.index t (0 : Fin 2) * 1024 + 1 * (y 0).val = (y 0).val; omega
  | ⟨1, _⟩ => show win7_1.index t (1 : Fin 2) * 128 + 1 * (y 1).val = (y 1).val; omega

/-- The bias row's one block is the row. -/
theorem reg7_read2 (c : Dev nD) (t : Fin cfg7.N) (y : S1x128.Idx) :
    (iblk7 V c 2 t : Vec Ideal S1x128 .f32) y = reg7_b V c y := by
  show V c main_v41 (((cfg7.win 2).blk t).view.emb y) = V c main_v41 y
  obtain ⟨-, -, -, -, e0, e1, -⟩ := reg7_idx t
  refine congrArg _ (funext fun a => Fin.ext ?_)
  match a with
  | ⟨0, _⟩ => show win7_2.index t (0 : Fin 2) * 1 + 1 * (y 0).val = (y 0).val; omega
  | ⟨1, _⟩ => show win7_2.index t (1 : Fin 2) * 128 + 1 * (y 1).val = (y 1).val; omega

/-- The whole-array function at an index whose coordinates are named. -/
theorem reg7_fn_apply (X : Vec Ideal S10240x1024 .bf16) (W : Vec Ideal S1024x128 .bf16) (b : Vec Ideal S1x128 .f32)
    (i : S10240x128.Idx) (r : Fin 10240) (q : Fin 128) (h0 : (i 0).val = r.val) (h1 : (i 1).val = q.val) :
    reg7_fn X W b i = (∑ k : Fin 1024, X (ix2 r k) * W (ix2 k q)) + b (ix2 (0 : Fin 1) q) := by
  obtain rfl : r = ⟨(i 0).val, idx2_lt0 i⟩ := Fin.ext h0.symm
  obtain rfl : q = ⟨(i 1).val, idx2_lt1 i⟩ := Fin.ext h1.symm
  rfl

/-! ## What each point writes back, and the array after the run -/

/-- What point t writes back is block t of the whole-array function of the arrays as the region finds them. -/
theorem reg7_flushed (c : Dev nD) (t : Fin cfg7.N) :
    (dat7 (F := Ideal) V c).flushed 3 t
      = ((cfg7.win 3).blk t).view.read (Elt Ideal) (reg7_fn (reg7_X V c) (reg7_W V c) (reg7_b V c)) := by
  show (cfg7.win 3).cut (grid7.coords t) ((dat7 V c).after 3 t) = _
  rw [after7_3]
  unfold out7_3
  rw [View.canon_unit_zero reg7_hz]
  simp only [View.ld_unit_zero (S := S512x1024) reg7_hz, View.ld_unit_zero (S := S1024x128) reg7_hz, View.ld_unit_zero (S := S1x128) reg7_hz]
  funext j
  obtain ⟨p, q, rfl⟩ : ∃ (p : Fin 512) (q : Fin 128), j = ix2 p q := ⟨j 0, j 1, eq_ix2 j⟩
  show k7_pay1 (F := Ideal) (iblk7 V c 0 t) (iblk7 V c 1 t) (iblk7 V c 2 t) (ix2 p q)
    = reg7_fn (reg7_X V c) (reg7_W V c) (reg7_b V c) (((cfg7.win 3).blk t).view.emb (ix2 p q))
  have ht : t.val < 20 := lt_of_lt_of_eq t.isLt N_7
  obtain ⟨-, -, -, -, -, -, e0, e1⟩ := reg7_idx t
  refine ((reg7_pay (iblk7 V c 0 t) (iblk7 V c 1 t) (iblk7 V c 2 t) p q).trans ?_).trans
    (reg7_fn_apply (reg7_X V c) (reg7_W V c) (reg7_b V c) (((cfg7.win 3).blk t).view.emb (ix2 p q))
      ⟨t.val * 512 + p.val, by omega⟩ q ?_ ?_).symm
  · refine congrArg₂ (· + ·) (Finset.sum_congr rfl fun k _ => congrArg₂ (· * ·) ?_ ?_) ?_
    · exact reg7_read0 V c t (ix2 p k) (ix2 (⟨t.val * 512 + p.val, by omega⟩ : Fin 10240) k) rfl rfl
    · exact reg7_read1 V c t (ix2 k q)
    · exact reg7_read2 V c t (ix2 (0 : Fin 1) q)
  · show win7_3.index t (0 : Fin 2) * 512 + 1 * p.val = t.val * 512 + p.val; omega
  · show win7_3.index t (1 : Fin 2) * 128 + 1 * q.val = q.val; omega

/-- An index of the output array is in point t's block iff each coordinate is in the block's range on its axis. -/
theorem reg7_mem_blk (t : Fin cfg7.N) (i : S10240x128.Idx) :
    i ∈ ((cfg7.win 3).blk t).view.set ↔ ∀ a : Fin 2, win7_3.index t a * S512x128.size a ≤ (i a).val ∧ (i a).val < win7_3.index t a * S512x128.size a + S512x128.size a := by
  show i ∈ ((View.whole main_v42).slice (win7_3.rect t)).set ↔ _
  rw [View.set_slice_whole, Rect.mem_set_unit]
  exact Iff.rfl

/-- Every row of the output is in some point's block: row r is in block r / 512. -/
theorem reg7_cover (i : S10240x128.Idx) :
    ∃ t : Fin cfg7.N, (cfg7.win 3).flush t = true ∧ i ∈ ((cfg7.win 3).blk t).view.set := by
  have hi0 : (i 0).val < 10240 := idx2_lt0 i
  have hi1 : (i 1).val < 128 := idx2_lt1 i
  let t : Fin cfg7.N := Fin.cast N_7.symm ⟨(i 0).val / 512, by omega⟩
  have htv : t.val = (i 0).val / 512 := rfl
  obtain ⟨-, -, -, -, -, -, e0, e1⟩ := reg7_idx t
  refine ⟨t, flush7_3 t, ?_⟩
  rw [reg7_mem_blk]
  intro a
  match a with
  | ⟨0, _⟩ => show win7_3.index t (0 : Fin 2) * 512 ≤ (i 0).val ∧ (i 0).val < win7_3.index t (0 : Fin 2) * 512 + 512; omega
  | ⟨1, _⟩ => show win7_3.index t (1 : Fin 2) * 128 ≤ (i 1).val ∧ (i 1).val < win7_3.index t (1 : Fin 2) * 128 + 128; omega

/-- The output array after the run is the whole-array function of the arrays as the region finds them. -/
theorem reg7_final (c : Dev nD) :
    (dat7 (F := Ideal) V c).arrAt 3 cfg7.N = reg7_fn (reg7_X V c) (reg7_W V c) (reg7_b V c) :=
  (dat7 (F := Ideal) V c).arrAt_eq_of_cover 3 (reg7_fn (reg7_X V c) (reg7_W V c) (reg7_b V c))
    (fun t _ => reg7_flushed V c t) reg7_cover

theorem reg7_value (c : Dev nD) :
    cur2 ((dat7 (F := Ideal) V c).arrAt 3 cfg7.N) = dense (cur2 (V c main_v40)) (cur2 (V c main_v29)) (cur2 (V c main_v41) 0) := by
  rw [reg7_final]
  funext r q
  rw [cur2_apply]
  exact reg7_fn_apply (reg7_X V c) (reg7_W V c) (reg7_b V c) (ix2 r q) r q rfl rfl

end Cert.KernelIdeal.GCK
end
-- ==== Proof.KChainC.lean ====
/-
  The buffers between the regions. A region's output array, when the region is left, is the region's whole-array
  function of its input arrays as the region found them; an input array, and every buffer no region and no host
  operation in between writes, is still what it was when the first region was entered; a bias row is the reshaped
  padded bias.
-/
import proofs.«426275_j13812614824123_1_alg».proof.Proof.Gen.KernelIdeal.Frame
import proofs.«426275_j13812614824123_1_alg».proof.Proof.Spec
import proofs.«426275_j13812614824123_1_alg».proof.Proof.KReg6
import proofs.«426275_j13812614824123_1_alg».proof.Proof.KReg7
import Idealize.ShloMosaic.Lib.ValueLayout

set_option maxRecDepth 16384
noncomputable section
open scoped BigOperators
namespace Cert.KernelIdeal.GCK

open Cert.KernelIdeal Cert.KernelIdeal.Gen Idealize.ShloMosaic Idealize.ShloMosaic.TcCoe Idealize.SL.Sem Idealize.ShloMosaic.ValueIdx GC
open Idealize.ShloMosaic.Pipeline (Dat Cfg Window)

variable (m : (ℓ : Loc nD τ sig) → Buf (Elt Ideal) ℓ) (ρ : Dev nD → PrngReg)

/-- The count table is an input array of regions 0, 2 and 4, an array of no other region before region 6, and the
    result of no host operation after region 0 is entered: region 6 finds it as region 0 found it. -/
private theorem chainC_v16 (c : Dev nD) :
    W27 (F := Ideal) m ρ c (Proc.devRef .tc main_v16) = W18 (F := Ideal) m ρ c (Proc.devRef .tc main_v16) :=
  calc W27 (F := Ideal) m ρ c (Proc.devRef .tc main_v16)
    _ = W26 m ρ c (Proc.devRef .tc main_v16) := W27_of_ne m ρ c main_v16 (by decide)
    _ = W25 m ρ c (Proc.devRef .tc main_v16) := StableHlo.after_of_forall_not_mem (b := Proc.devRef .tc main_v16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W24 m ρ c (Proc.devRef .tc main_v16) :=
          (W25_arr m ρ c 0).trans ((Pipeline.Dat.arrAt_in (dat4 (V24 m ρ) c) 0 rfl cfg4.N).trans (A_eq4 (V24 m ρ) c 0))
    _ = W23 m ρ c (Proc.devRef .tc main_v16) := W24_of_ne m ρ c main_v16 (by decide)
    _ = W22 m ρ c (Proc.devRef .tc main_v16) := StableHlo.after_of_forall_not_mem (b := Proc.devRef .tc main_v16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v16) :=
          (W22_arr m ρ c 0).trans ((Pipeline.Dat.arrAt_in (dat2 (V21 m ρ) c) 0 rfl cfg2.N).trans (A_eq2 (V21 m ρ) c 0))
    _ = W20 m ρ c (Proc.devRef .tc main_v16) := W21_of_ne m ρ c main_v16 (by decide)
    _ = W19 m ρ c (Proc.devRef .tc main_v16) := StableHlo.after_of_forall_not_mem (b := Proc.devRef .tc main_v16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v16) :=
          (W19_arr m ρ c 0).trans ((Pipeline.Dat.arrAt_in (dat0 (V18 m ρ) c) 0 rfl cfg0.N).trans (A_eq0 (V18 m ρ) c 0))

/-- The last layer's padded weight table is an array of no region before region 7 and the result of no host
    operation after region 0 is entered: region 7 finds it as region 0 found it. -/
private theorem chainC_v29 (c : Dev nD) :
    W29 (F := Ideal) m ρ c (Proc.devRef .tc main_v29) = W18 (F := Ideal) m ρ c (Proc.devRef .tc main_v29) :=
  calc W29 (F := Ideal) m ρ c (Proc.devRef .tc main_v29)
    _ = W28 m ρ c (Proc.devRef .tc main_v29) := StableHlo.after_of_forall_not_mem (b := Proc.devRef .tc main_v29) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W27 m ρ c (Proc.devRef .tc main_v29) := W28_of_ne m ρ c main_v29 (by decide)
    _ = W26 m ρ c (Proc.devRef .tc main_v29) := W27_of_ne m ρ c main_v29 (by decide)
    _ = W25 m ρ c (Proc.devRef .tc main_v29) := StableHlo.after_of_forall_not_mem (b := Proc.devRef .tc main_v29) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W24 m ρ c (Proc.devRef .tc main_v29) := W25_of_ne m ρ c main_v29 (by decide)
    _ = W23 m ρ c (Proc.devRef .tc main_v29) := W24_of_ne m ρ c main_v29 (by decide)
    _ = W22 m ρ c (Proc.devRef .tc main_v29) := StableHlo.after_of_forall_not_mem (b := Proc.devRef .tc main_v29) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v29) := W22_of_ne m ρ c main_v29 (by decide)
    _ = W20 m ρ c (Proc.devRef .tc main_v29) := W21_of_ne m ρ c main_v29 (by decide)
    _ = W19 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v29) := W19_of_ne m ρ c main_v29 (by decide)

/-- The last layer's padded bias is an array of no region and the result of no host operation after region 0 is
    entered: when region 6 is left it is as region 0 found it. -/
private theorem chainC_v30 (c : Dev nD) :
    W28 (F := Ideal) m ρ c (Proc.devRef .tc main_v30) = W18 (F := Ideal) m ρ c (Proc.devRef .tc main_v30) :=
  calc W28 (F := Ideal) m ρ c (Proc.devRef .tc main_v30)
    _ = W27 m ρ c (Proc.devRef .tc main_v30) := W28_of_ne m ρ c main_v30 (by decide)
    _ = W26 m ρ c (Proc.devRef .tc main_v30) := W27_of_ne m ρ c main_v30 (by decide)
    _ = W25 m ρ c (Proc.devRef .tc main_v30) := StableHlo.after_of_forall_not_mem (b := Proc.devRef .tc main_v30) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W24 m ρ c (Proc.devRef .tc main_v30) := W25_of_ne m ρ c main_v30 (by decide)
    _ = W23 m ρ c (Proc.devRef .tc main_v30) := W24_of_ne m ρ c main_v30 (by decide)
    _ = W22 m ρ c (Proc.devRef .tc main_v30) := StableHlo.after_of_forall_not_mem (b := Proc.devRef .tc main_v30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v30) := W22_of_ne m ρ c main_v30 (by decide)
    _ = W20 m ρ c (Proc.devRef .tc main_v30) := W21_of_ne m ρ c main_v30 (by decide)
    _ = W19 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v30) := W19_of_ne m ρ c main_v30 (by decide)

/-- The bias row region 7 reads is the padded bias cast from [128] to [1, 128]: its only row is the padded bias. -/
private theorem chainC_v41 (c : Dev nD) :
    cur2 (W29 (F := Ideal) m ρ c (Proc.devRef .tc main_v41)) 0 = cur1 (W18 (F := Ideal) m ρ c (Proc.devRef .tc main_v30)) := by
  funext j
  rw [← chainC_v30 m ρ c]
  unfold cur2 cur1
  show StableHlo.after hostOps7 _ (Proc.devRef .tc main_v41) (ix2 0 j) = _
  after_results
  exact shapeCast_a_1a_apply (α := EReal) (W28 (F := Ideal) m ρ c (Proc.devRef .tc main_v30)) shapeCasts_S128_S1x128 0 j

/-- The reshape between regions 6 and 7 does not write region 6's output array. -/
private theorem chainC_v40 (c : Dev nD) :
    W29 (F := Ideal) m ρ c (Proc.devRef .tc main_v40) = W28 (F := Ideal) m ρ c (Proc.devRef .tc main_v40) :=
  StableHlo.after_of_forall_not_mem (b := Proc.devRef .tc main_v40) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 6's output array, when region 6 is left, is (count table)ᵀ · (region 5's output array). -/
theorem v40 (c : Dev nD) :
    cur2 (W28 (F := Ideal) m ρ c (Proc.devRef .tc main_v40)) = mmT (cur2 (W18 (F := Ideal) m ρ c (Proc.devRef .tc main_v16))) (cur2 (W27 (F := Ideal) m ρ c (Proc.devRef .tc main_v39))) := by
  have hout : W28 (F := Ideal) m ρ c (Proc.devRef .tc main_v40) = (dat6 (V27 m ρ) c).arrAt 2 cfg6.N := W28_arr m ρ c 2
  have hreg := reg6_value (V27 (F := Ideal) m ρ) c
  have h16 : V27 (F := Ideal) m ρ c main_v16 = W18 (F := Ideal) m ρ c (Proc.devRef .tc main_v16) := chainC_v16 m ρ c
  rw [hout, hreg, h16]

/-- Region 7's output array, when region 7 is left, is the affine layer of region 6's output array with the last
    layer's padded weights and padded bias. -/
theorem v42 (c : Dev nD) :
    cur2 (W30 (F := Ideal) m ρ c (Proc.devRef .tc main_v42)) = dense (cur2 (W28 (F := Ideal) m ρ c (Proc.devRef .tc main_v40))) (cur2 (W18 (F := Ideal) m ρ c (Proc.devRef .tc main_v29))) (cur1 (W18 (F := Ideal) m ρ c (Proc.devRef .tc main_v30))) := by
  have hout : W30 (F := Ideal) m ρ c (Proc.devRef .tc main_v42) = (dat7 (V29 m ρ) c).arrAt 3 cfg7.N := W30_arr m ρ c 3
  have hreg := reg7_value (V29 (F := Ideal) m ρ) c
  have h40 : V29 (F := Ideal) m ρ c main_v40 = W28 (F := Ideal) m ρ c (Proc.devRef .tc main_v40) := chainC_v40 m ρ c
  have h29 : V29 (F := Ideal) m ρ c main_v29 = W18 (F := Ideal) m ρ c (Proc.devRef .tc main_v29) := chainC_v29 m ρ c
  have h41 : cur2 (V29 (F := Ideal) m ρ c main_v41) 0 = cur1 (W18 (F := Ideal) m ρ c (Proc.devRef .tc main_v30)) := chainC_v41 m ρ c
  rw [hout, hreg, h40, h29, h41]

/-- The returned array is region 7's output array cut to its first 10000 rows and 20 columns. -/
theorem v43 (c : Dev nD) :
    ∀ (n : Fin 10000) (j : Fin 20), cur2 (W31 (F := Ideal) m ρ c (Proc.devRef .tc main_v43)) n j = cur2 (W30 (F := Ideal) m ρ c (Proc.devRef .tc main_v42)) ⟨n.val, by omega⟩ ⟨j.val, by omega⟩ := by
  intro n j
  unfold cur2
  show StableHlo.after hostOps8 _ (Proc.devRef .tc main_v43) (ix2 n j) = _
  after_results
  -- a slice from offset (0, 0) reads the operand at the same coordinates
  refine extractStridedSlice_apply _ _ _ _ _ (fun ax => ?_)
  match ax with
  | ⟨0, _⟩ => exact (Nat.zero_add _).symm
  | ⟨1, _⟩ => exact (Nat.zero_add _).symm

end Cert.KernelIdeal.GCK
end
-- ==== Proof.KValue.lean ====
/-
  The kernel's result is the dense, padded computation of the specification: the count table and the padded
  arguments at the first region's entry, the eight regions in order, and the final cut.
-/
import proofs.«426275_j13812614824123_1_alg».proof.Proof.Gen.KernelIdeal.Frame
import proofs.«426275_j13812614824123_1_alg».proof.Proof.Spec
import proofs.«426275_j13812614824123_1_alg».proof.Proof.KHostA
import proofs.«426275_j13812614824123_1_alg».proof.Proof.KHostPad
import proofs.«426275_j13812614824123_1_alg».proof.Proof.KChainA
import proofs.«426275_j13812614824123_1_alg».proof.Proof.KChainB
import proofs.«426275_j13812614824123_1_alg».proof.Proof.KChainC

set_option maxRecDepth 16384
noncomputable section
open scoped BigOperators
namespace Cert.KernelIdeal.GCK

open Cert.KernelIdeal Cert.KernelIdeal.Gen Idealize.ShloMosaic Idealize.ShloMosaic.TcCoe Idealize.SL.Sem Idealize.ShloMosaic.ValueIdx GC
open Idealize.ShloMosaic.Pipeline (Dat Cfg Window)

variable (m : (ℓ : Loc nD τ sig) → Buf (Elt Ideal) ℓ) (ρ : Dev nD → PrngReg)

theorem kernel_value (c : Dev nD) (h1 : InRange (m ((c.tc : Thread nD τ).loc main_arg1))) (h2 : InRange (m ((c.tc : Thread nD τ).loc main_arg2))) :
    cur2 (W31 (F := Ideal) m ρ c (Proc.devRef .tc main_v43)) = netK (node (m ((c.tc : Thread nD τ).loc main_arg1))) (node (m ((c.tc : Thread nD τ).loc main_arg2)))
      (cur2 (m ((c.tc : Thread nD τ).loc main_arg0))) (cur2 (m ((c.tc : Thread nD τ).loc main_arg3))) (cur1 (m ((c.tc : Thread nD τ).loc main_arg4))) (cur2 (m ((c.tc : Thread nD τ).loc main_arg5))) (cur1 (m ((c.tc : Thread nD τ).loc main_arg6)))
      (cur2 (m ((c.tc : Thread nD τ).loc main_arg7))) (cur1 (m ((c.tc : Thread nD τ).loc main_arg8))) (cur2 (m ((c.tc : Thread nD τ).loc main_arg9))) (cur1 (m ((c.tc : Thread nD τ).loc main_arg10))) := by
  funext n j
  rw [v43 m ρ c n j, v42 m ρ c, v40 m ρ c, v39 m ρ c, v37 m ρ c, v36 m ρ c, v34 m ρ c, v33 m ρ c, v31 m ρ c,
    A_entry m ρ c h1 h2, xp_entry m ρ c, W1p_entry m ρ c, b1p_entry m ρ c, W2p_entry m ρ c, b2p_entry m ρ c,
    W3p_entry m ρ c, b3p_entry m ρ c, W4p_entry m ρ c, b4p_entry m ρ c]
  rfl

end Cert.KernelIdeal.GCK
end
-- ==== Proof.RefIdx.lean ====
/-
  The reference's row gather and row scatter-add, read at an index. With every index word a node number, the
  gather of a table by the words reads row (word e) at position e, and the scatter-add of a table of updates adds
  update row e into row (word e): entry (n, k) ends at its old value plus the sum of the updates' entries (e, k)
  over the positions e whose word is n.
-/
import proofs.«426275_j13812614824123_1_alg».proof.Proof.Gen.ReferenceIdeal.Read
import proofs.«426275_j13812614824123_1_alg».proof.Proof.Spec

noncomputable section
open scoped BigOperators
namespace Cert.ReferenceIdeal.GCR

open Cert.ReferenceIdeal Cert.ReferenceIdeal.Gen Cert.ReferenceIdeal.Read Idealize.ShloMosaic Idealize.ShloMosaic.ValueIdx GC

/-- The gather at (e, k): on the row axis the start is the index word at (e, 0), which is r and at most 9999, so the
    clamp leaves it; on the column axis the start is 0 and the offset coordinate is k. -/
theorem gather22_apply (x : (⟨S10000x22, .f32⟩ : BufTy).Contents (Elt Ideal)) (idx : (⟨S80000x1, .i32⟩ : BufTy).Contents (Elt Ideal)) (e : Fin 80000) (k : Fin 22) (r : Fin 10000)
    (h : (idx (ix2 e 0)).toInt = (r.val : Int)) :
    Host.gather gather_S10000x22_S80000x1_S80000x22_1_0_n_n_0_1_122 x idx (ix2 e k) = x (ix2 r k) := by
  unfold Host.gather
  congr 1
  funext a
  refine Fin.ext ?_
  match a with
  | ⟨0, _⟩ =>
    show GatherDims.start gather_S10000x22_S80000x1_S80000x22_1_0_n_n_0_1_122 (ix2 e k) idx 0
      + GatherDims.batchCoord gather_S10000x22_S80000x1_S80000x22_1_0_n_n_0_1_122 (ix2 e k) 0
      + GatherDims.offCoord gather_S10000x22_S80000x1_S80000x22_1_0_n_n_0_1_122 (ix2 e k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x22_S80000x1_S80000x22_1_0_n_n_0_1_122.startIndexMap from List.mem_singleton.mpr rfl)]
    have hsi : gather_S10000x22_S80000x1_S80000x22_1_0_n_n_0_1_122.siIdx (ix2 e k)
        ⟨List.idxOf (0 : Fin 2) gather_S10000x22_S80000x1_S80000x22_1_0_n_n_0_1_122.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi, h]
    have := r.isLt
    show min (r.val : Int).toNat (10000 - 1) = r.val
    omega
  | ⟨1, _⟩ =>
    show GatherDims.start gather_S10000x22_S80000x1_S80000x22_1_0_n_n_0_1_122 (ix2 e k) idx 1
      + GatherDims.batchCoord gather_S10000x22_S80000x1_S80000x22_1_0_n_n_0_1_122 (ix2 e k) 1
      + GatherDims.offCoord gather_S10000x22_S80000x1_S80000x22_1_0_n_n_0_1_122 (ix2 e k) 1 = k.val
    rw [GatherDims.batchCoord_eq_zero _ _ _ List.not_mem_nil]
    have hs : GatherDims.start gather_S10000x22_S80000x1_S80000x22_1_0_n_n_0_1_122 (ix2 e k) idx 1 = 0 := by
      unfold GatherDims.start
      rw [dif_neg (show (1 : Fin 2) ∉ gather_S10000x22_S80000x1_S80000x22_1_0_n_n_0_1_122.startIndexMap by decide)]
    rw [hs]
    simp only [Nat.add_zero, Nat.zero_add]
    rfl

/-- The gather at (e, k): on the row axis the start is the index word at (e, 0), which is r and at most 9999, so the
    clamp leaves it; on the column axis the start is 0 and the offset coordinate is k. -/
theorem gather1000_apply (x : (⟨S10000x1000, .f32⟩ : BufTy).Contents (Elt Ideal)) (idx : (⟨S80000x1, .i32⟩ : BufTy).Contents (Elt Ideal)) (e : Fin 80000) (k : Fin 1000) (r : Fin 10000)
    (h : (idx (ix2 e 0)).toInt = (r.val : Int)) :
    Host.gather gather_S10000x1000_S80000x1_S80000x1000_1_0_n_n_0_1_11000 x idx (ix2 e k) = x (ix2 r k) := by
  unfold Host.gather
  congr 1
  funext a
  refine Fin.ext ?_
  match a with
  | ⟨0, _⟩ =>
    show GatherDims.start gather_S10000x1000_S80000x1_S80000x1000_1_0_n_n_0_1_11000 (ix2 e k) idx 0
      + GatherDims.batchCoord gather_S10000x1000_S80000x1_S80000x1000_1_0_n_n_0_1_11000 (ix2 e k) 0
      + GatherDims.offCoord gather_S10000x1000_S80000x1_S80000x1000_1_0_n_n_0_1_11000 (ix2 e k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x1000_S80000x1_S80000x1000_1_0_n_n_0_1_11000.startIndexMap from List.mem_singleton.mpr rfl)]
    have hsi : gather_S10000x1000_S80000x1_S80000x1000_1_0_n_n_0_1_11000.siIdx (ix2 e k)
        ⟨List.idxOf (0 : Fin 2) gather_S10000x1000_S80000x1_S80000x1000_1_0_n_n_0_1_11000.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi, h]
    have := r.isLt
    show min (r.val : Int).toNat (10000 - 1) = r.val
    omega
  | ⟨1, _⟩ =>
    show GatherDims.start gather_S10000x1000_S80000x1_S80000x1000_1_0_n_n_0_1_11000 (ix2 e k) idx 1
      + GatherDims.batchCoord gather_S10000x1000_S80000x1_S80000x1000_1_0_n_n_0_1_11000 (ix2 e k) 1
      + GatherDims.offCoord gather_S10000x1000_S80000x1_S80000x1000_1_0_n_n_0_1_11000 (ix2 e k) 1 = k.val
    rw [GatherDims.batchCoord_eq_zero _ _ _ List.not_mem_nil]
    have hs : GatherDims.start gather_S10000x1000_S80000x1_S80000x1000_1_0_n_n_0_1_11000 (ix2 e k) idx 1 = 0 := by
      unfold GatherDims.start
      rw [dif_neg (show (1 : Fin 2) ∉ gather_S10000x1000_S80000x1_S80000x1000_1_0_n_n_0_1_11000.startIndexMap by decide)]
    rw [hs]
    simp only [Nat.add_zero, Nat.zero_add]
    rfl

/-- Update entry (e, k') lands at (word e, k'): the row start is the index word at (e, 0) with window coordinate 0,
    the column start is 0 with window coordinate k'; both sums are inside the table. -/
private theorem scatter22_resultIdx (idx : (⟨S80000x1, .i32⟩ : BufTy).Contents (Elt Ideal))
    (f : Fin 80000 → Fin 10000) (h : ∀ e : Fin 80000, (idx (ix2 e 0)).toInt = ((f e).val : Int)) (e : Fin 80000) (k' : Fin 22) :
    ScatterDims.resultIdx? scatter_S10000x22_S80000x1_S80000x22_1_0_0_1 (ix2 e k') idx = some (ix2 (f e) k') := by
  have hs0 : ScatterDims.start scatter_S10000x22_S80000x1_S80000x22_1_0_0_1 (ix2 e k') idx (0 : Fin 2) = ((f e).val : Int) := by
    unfold ScatterDims.start
    rw [dif_pos (show (0 : Fin 2) ∈ scatter_S10000x22_S80000x1_S80000x22_1_0_0_1.scatterDimsToOperandDims from List.mem_singleton.mpr rfl)]
    have hsi : scatter_S10000x22_S80000x1_S80000x22_1_0_0_1.siIdx (ix2 e k')
        ⟨List.idxOf (0 : Fin 2) scatter_S10000x22_S80000x1_S80000x22_1_0_0_1.scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi, h]
  have hs1 : ScatterDims.start scatter_S10000x22_S80000x1_S80000x22_1_0_0_1 (ix2 e k') idx (1 : Fin 2) = 0 := by
    unfold ScatterDims.start
    rw [dif_neg (show (1 : Fin 2) ∉ scatter_S10000x22_S80000x1_S80000x22_1_0_0_1.scatterDimsToOperandDims by decide)]
  have hw0 : ScatterDims.window scatter_S10000x22_S80000x1_S80000x22_1_0_0_1 (ix2 e k') (0 : Fin 2) = 0 := by
    unfold ScatterDims.window
    rw [dif_neg (show (0 : Fin 2) ∉ scatter_S10000x22_S80000x1_S80000x22_1_0_0_1.sKept by decide)]
  have hw1 : ScatterDims.window scatter_S10000x22_S80000x1_S80000x22_1_0_0_1 (ix2 e k') (1 : Fin 2) = k'.val := by
    unfold ScatterDims.window
    rw [dif_pos (show (1 : Fin 2) ∈ scatter_S10000x22_S80000x1_S80000x22_1_0_0_1.sKept by decide)]
    rfl
  have hf := (f e).isLt
  have hk := k'.isLt
  unfold ScatterDims.resultIdx?
  have hall : ∀ a : Fin 2, 0 ≤ ScatterDims.start scatter_S10000x22_S80000x1_S80000x22_1_0_0_1 (ix2 e k') idx a
        + ScatterDims.window scatter_S10000x22_S80000x1_S80000x22_1_0_0_1 (ix2 e k') a
      ∧ ScatterDims.start scatter_S10000x22_S80000x1_S80000x22_1_0_0_1 (ix2 e k') idx a
        + ScatterDims.window scatter_S10000x22_S80000x1_S80000x22_1_0_0_1 (ix2 e k') a < (S10000x22.size a : Int) := by
    intro a
    match a with
    | ⟨0, _⟩ =>
      show 0 ≤ ScatterDims.start scatter_S10000x22_S80000x1_S80000x22_1_0_0_1 (ix2 e k') idx (0 : Fin 2)
          + ScatterDims.window scatter_S10000x22_S80000x1_S80000x22_1_0_0_1 (ix2 e k') (0 : Fin 2)
        ∧ ScatterDims.start scatter_S10000x22_S80000x1_S80000x22_1_0_0_1 (ix2 e k') idx (0 : Fin 2)
          + ScatterDims.window scatter_S10000x22_S80000x1_S80000x22_1_0_0_1 (ix2 e k') (0 : Fin 2) < ((10000 : Nat) : Int)
      rw [hs0, hw0]; omega
    | ⟨1, _⟩ =>
      show 0 ≤ ScatterDims.start scatter_S10000x22_S80000x1_S80000x22_1_0_0_1 (ix2 e k') idx (1 : Fin 2)
          + ScatterDims.window scatter_S10000x22_S80000x1_S80000x22_1_0_0_1 (ix2 e k') (1 : Fin 2)
        ∧ ScatterDims.start scatter_S10000x22_S80000x1_S80000x22_1_0_0_1 (ix2 e k') idx (1 : Fin 2)
          + ScatterDims.window scatter_S10000x22_S80000x1_S80000x22_1_0_0_1 (ix2 e k') (1 : Fin 2) < ((22 : Nat) : Int)
      rw [hs1, hw1]; omega
  rw [dif_pos hall]
  congr 1
  funext a
  refine Fin.ext ?_
  match a with
  | ⟨0, _⟩ =>
    show (ScatterDims.start scatter_S10000x22_S80000x1_S80000x22_1_0_0_1 (ix2 e k') idx (0 : Fin 2)
          + ScatterDims.window scatter_S10000x22_S80000x1_S80000x22_1_0_0_1 (ix2 e k') (0 : Fin 2)).toNat = (f e).val
    rw [hs0, hw0]; omega
  | ⟨1, _⟩ =>
    show (ScatterDims.start scatter_S10000x22_S80000x1_S80000x22_1_0_0_1 (ix2 e k') idx (1 : Fin 2)
          + ScatterDims.window scatter_S10000x22_S80000x1_S80000x22_1_0_0_1 (ix2 e k') (1 : Fin 2)).toNat = k'.val
    rw [hs1, hw1]; omega

/-- The scatter-add at (n, k): the update entries landing at (n, k) are the (e, k) with word e = n, so the double sum
    over (e, k') of the landing entries collapses to the sum over those e. -/
theorem scatter22_apply (x0 : (⟨S10000x22, .f32⟩ : BufTy).Contents (Elt Ideal)) (idx : (⟨S80000x1, .i32⟩ : BufTy).Contents (Elt Ideal)) (upd : (⟨S80000x22, .f32⟩ : BufTy).Contents (Elt Ideal))
    (f : Fin 80000 → Fin 10000) (h : ∀ e : Fin 80000, (idx (ix2 e 0)).toInt = ((f e).val : Int)) (n : Fin 10000) (k : Fin 22) :
    Host.scatterAdd (F := Ideal) (φ := .f32) scatter_S10000x22_S80000x1_S80000x22_1_0_0_1 x0 idx upd (ix2 n k)
      = x0 (ix2 n k) + ∑ e ∈ Finset.univ.filter (fun e : Fin 80000 => f e = n), upd (ix2 e k) := by
  unfold Host.scatterAdd
  rw [Ideal.hostScatterAdd_def]
  unfold Ideal.hostScatterAdd
  beta_reduce
  refine congrArg (fun z => x0 (ix2 n k) + z) ?_
  rw [Finset.sum_filter, sum_idx2, Finset.sum_filter]
  refine Finset.sum_congr rfl fun e _ => ?_
  have hiff : ∀ k' : Fin 22, (ScatterDims.resultIdx? scatter_S10000x22_S80000x1_S80000x22_1_0_0_1 (ix2 e k') idx = some (ix2 n k))
      ↔ (f e = n ∧ k' = k) := by
    intro k'
    rw [scatter22_resultIdx idx f h e k', Option.some_inj]
    constructor
    · intro hh
      exact ⟨congrFun hh (0 : Fin 2), congrFun hh (1 : Fin 2)⟩
    · rintro ⟨rfl, rfl⟩; rfl
  simp only [hiff]
  by_cases hfe : f e = n
  · simp only [hfe, true_and, if_true]
    rw [Finset.sum_ite_eq' Finset.univ k (fun k' => upd (ix2 e k'))]
    simp
  · simp only [hfe, false_and, if_false, Finset.sum_const_zero]

/-- Update entry (e, k') lands at (word e, k'): the row start is the index word at (e, 0) with window coordinate 0,
    the column start is 0 with window coordinate k'; both sums are inside the table. -/
private theorem scatter1000_resultIdx (idx : (⟨S80000x1, .i32⟩ : BufTy).Contents (Elt Ideal))
    (f : Fin 80000 → Fin 10000) (h : ∀ e : Fin 80000, (idx (ix2 e 0)).toInt = ((f e).val : Int)) (e : Fin 80000) (k' : Fin 1000) :
    ScatterDims.resultIdx? scatter_S10000x1000_S80000x1_S80000x1000_1_0_0_1 (ix2 e k') idx = some (ix2 (f e) k') := by
  have hs0 : ScatterDims.start scatter_S10000x1000_S80000x1_S80000x1000_1_0_0_1 (ix2 e k') idx (0 : Fin 2) = ((f e).val : Int) := by
    unfold ScatterDims.start
    rw [dif_pos (show (0 : Fin 2) ∈ scatter_S10000x1000_S80000x1_S80000x1000_1_0_0_1.scatterDimsToOperandDims from List.mem_singleton.mpr rfl)]
    have hsi : scatter_S10000x1000_S80000x1_S80000x1000_1_0_0_1.siIdx (ix2 e k')
        ⟨List.idxOf (0 : Fin 2) scatter_S10000x1000_S80000x1_S80000x1000_1_0_0_1.scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi, h]
  have hs1 : ScatterDims.start scatter_S10000x1000_S80000x1_S80000x1000_1_0_0_1 (ix2 e k') idx (1 : Fin 2) = 0 := by
    unfold ScatterDims.start
    rw [dif_neg (show (1 : Fin 2) ∉ scatter_S10000x1000_S80000x1_S80000x1000_1_0_0_1.scatterDimsToOperandDims by decide)]
  have hw0 : ScatterDims.window scatter_S10000x1000_S80000x1_S80000x1000_1_0_0_1 (ix2 e k') (0 : Fin 2) = 0 := by
    unfold ScatterDims.window
    rw [dif_neg (show (0 : Fin 2) ∉ scatter_S10000x1000_S80000x1_S80000x1000_1_0_0_1.sKept by decide)]
  have hw1 : ScatterDims.window scatter_S10000x1000_S80000x1_S80000x1000_1_0_0_1 (ix2 e k') (1 : Fin 2) = k'.val := by
    unfold ScatterDims.window
    rw [dif_pos (show (1 : Fin 2) ∈ scatter_S10000x1000_S80000x1_S80000x1000_1_0_0_1.sKept by decide)]
    rfl
  have hf := (f e).isLt
  have hk := k'.isLt
  unfold ScatterDims.resultIdx?
  have hall : ∀ a : Fin 2, 0 ≤ ScatterDims.start scatter_S10000x1000_S80000x1_S80000x1000_1_0_0_1 (ix2 e k') idx a
        + ScatterDims.window scatter_S10000x1000_S80000x1_S80000x1000_1_0_0_1 (ix2 e k') a
      ∧ ScatterDims.start scatter_S10000x1000_S80000x1_S80000x1000_1_0_0_1 (ix2 e k') idx a
        + ScatterDims.window scatter_S10000x1000_S80000x1_S80000x1000_1_0_0_1 (ix2 e k') a < (S10000x1000.size a : Int) := by
    intro a
    match a with
    | ⟨0, _⟩ =>
      show 0 ≤ ScatterDims.start scatter_S10000x1000_S80000x1_S80000x1000_1_0_0_1 (ix2 e k') idx (0 : Fin 2)
          + ScatterDims.window scatter_S10000x1000_S80000x1_S80000x1000_1_0_0_1 (ix2 e k') (0 : Fin 2)
        ∧ ScatterDims.start scatter_S10000x1000_S80000x1_S80000x1000_1_0_0_1 (ix2 e k') idx (0 : Fin 2)
          + ScatterDims.window scatter_S10000x1000_S80000x1_S80000x1000_1_0_0_1 (ix2 e k') (0 : Fin 2) < ((10000 : Nat) : Int)
      rw [hs0, hw0]; omega
    | ⟨1, _⟩ =>
      show 0 ≤ ScatterDims.start scatter_S10000x1000_S80000x1_S80000x1000_1_0_0_1 (ix2 e k') idx (1 : Fin 2)
          + ScatterDims.window scatter_S10000x1000_S80000x1_S80000x1000_1_0_0_1 (ix2 e k') (1 : Fin 2)
        ∧ ScatterDims.start scatter_S10000x1000_S80000x1_S80000x1000_1_0_0_1 (ix2 e k') idx (1 : Fin 2)
          + ScatterDims.window scatter_S10000x1000_S80000x1_S80000x1000_1_0_0_1 (ix2 e k') (1 : Fin 2) < ((1000 : Nat) : Int)
      rw [hs1, hw1]; omega
  rw [dif_pos hall]
  congr 1
  funext a
  refine Fin.ext ?_
  match a with
  | ⟨0, _⟩ =>
    show (ScatterDims.start scatter_S10000x1000_S80000x1_S80000x1000_1_0_0_1 (ix2 e k') idx (0 : Fin 2)
          + ScatterDims.window scatter_S10000x1000_S80000x1_S80000x1000_1_0_0_1 (ix2 e k') (0 : Fin 2)).toNat = (f e).val
    rw [hs0, hw0]; omega
  | ⟨1, _⟩ =>
    show (ScatterDims.start scatter_S10000x1000_S80000x1_S80000x1000_1_0_0_1 (ix2 e k') idx (1 : Fin 2)
          + ScatterDims.window scatter_S10000x1000_S80000x1_S80000x1000_1_0_0_1 (ix2 e k') (1 : Fin 2)).toNat = k'.val
    rw [hs1, hw1]; omega

/-- The scatter-add at (n, k): the update entries landing at (n, k) are the (e, k) with word e = n, so the double sum
    over (e, k') of the landing entries collapses to the sum over those e. -/
theorem scatter1000_apply (x0 : (⟨S10000x1000, .f32⟩ : BufTy).Contents (Elt Ideal)) (idx : (⟨S80000x1, .i32⟩ : BufTy).Contents (Elt Ideal)) (upd : (⟨S80000x1000, .f32⟩ : BufTy).Contents (Elt Ideal))
    (f : Fin 80000 → Fin 10000) (h : ∀ e : Fin 80000, (idx (ix2 e 0)).toInt = ((f e).val : Int)) (n : Fin 10000) (k : Fin 1000) :
    Host.scatterAdd (F := Ideal) (φ := .f32) scatter_S10000x1000_S80000x1_S80000x1000_1_0_0_1 x0 idx upd (ix2 n k)
      = x0 (ix2 n k) + ∑ e ∈ Finset.univ.filter (fun e : Fin 80000 => f e = n), upd (ix2 e k) := by
  unfold Host.scatterAdd
  rw [Ideal.hostScatterAdd_def]
  unfold Ideal.hostScatterAdd
  beta_reduce
  refine congrArg (fun z => x0 (ix2 n k) + z) ?_
  rw [Finset.sum_filter, sum_idx2, Finset.sum_filter]
  refine Finset.sum_congr rfl fun e _ => ?_
  have hiff : ∀ k' : Fin 1000, (ScatterDims.resultIdx? scatter_S10000x1000_S80000x1_S80000x1000_1_0_0_1 (ix2 e k') idx = some (ix2 n k))
      ↔ (f e = n ∧ k' = k) := by
    intro k'
    rw [scatter1000_resultIdx idx f h e k', Option.some_inj]
    constructor
    · intro hh
      exact ⟨congrFun hh (0 : Fin 2), congrFun hh (1 : Fin 2)⟩
    · rintro ⟨rfl, rfl⟩; rfl
  simp only [hiff]
  by_cases hfe : f e = n
  · simp only [hfe, true_and, if_true]
    rw [Finset.sum_ite_eq' Finset.univ k (fun k' => upd (ix2 e k'))]
    simp
  · simp only [hfe, false_and, if_false, Finset.sum_const_zero]

end Cert.ReferenceIdeal.GCR
end
-- ==== Proof.RefL1.lean ====
/-
  The reference's first layer read as the specification's layer: gather the rows of x at the edges' sources,
  scatter-add them into the edges' targets, multiply by W1, add b1, take max · 0.
-/
import proofs.«426275_j13812614824123_1_alg».proof.Proof.Gen.ReferenceIdeal.Read
import proofs.«426275_j13812614824123_1_alg».proof.Proof.Spec
import proofs.«426275_j13812614824123_1_alg».proof.Proof.RefIdx

noncomputable section
open scoped BigOperators
namespace Cert.ReferenceIdeal.GCR

open Cert.ReferenceIdeal Cert.ReferenceIdeal.Gen Cert.ReferenceIdeal.Read Idealize.ShloMosaic Idealize.ShloMosaic.ValueIdx GC

/-- A word that is non-negative read signed is not below zero. -/
private theorem l1_slt_zero (w : BitVec 32) (h : 0 ≤ w.toInt) : IntOp.cmpi .slt w 0#32 = 0#1 := by
  have hs : w.slt 0#32 = false := by
    simp only [BitVec.slt, BitVec.toInt_zero, decide_eq_false_iff_not, not_lt]; exact h
  show BitVec.ofBool (w.slt 0#32) = 0#1
  rw [hs]; rfl

/-- The normalised source word of an in-range edge list is the word itself. -/
private theorem l1_v5_word (x1 : (⟨S80000, .i32⟩ : BufTy).Contents (Elt Ideal)) (h1 : InRange x1) (e : Fin 80000) :
    (val_main_v5 (F := Ideal) x1 (ix2 e 0)).toInt = ((node x1 e).val : Int) := by
  rw [val_main_v5_apply]
  have hi : idx_main_v5 (ix2 e (0 : Fin 1)) = ix1 e := by
    funext a; match a with | ⟨0, _⟩ => rfl
  rw [hi, val_main_v4_apply, val_main_v1_apply, val_main_v0_apply, val_main_c_apply, l1_slt_zero _ (h1 e).1, select_zero]
  exact (node_val h1 e).symm

/-- The target word of an in-range edge list, read in the one-column index table, names the edge's target node. -/
private theorem l1_v8_word (x2 : (⟨S80000, .i32⟩ : BufTy).Contents (Elt Ideal)) (h2 : InRange x2) (e : Fin 80000) :
    (val_main_v8 (F := Ideal) x2 (ix2 e 0)).toInt = ((node x2 e).val : Int) := by
  rw [val_main_v8_apply]
  have hi : idx_main_v8 (ix2 e (0 : Fin 1)) = ix1 e := by
    funext a; match a with | ⟨0, _⟩ => rfl
  rw [hi]
  exact (node_val h2 e).symm

theorem layer1 (x0 : (⟨S10000x22, .f32⟩ : BufTy).Contents (Elt Ideal)) (x1 x2 : (⟨S80000, .i32⟩ : BufTy).Contents (Elt Ideal)) (x3 : (⟨S22x1000, .f32⟩ : BufTy).Contents (Elt Ideal)) (x4 : (⟨S1000, .f32⟩ : BufTy).Contents (Elt Ideal)) (h1 : InRange x1) (h2 : InRange x2) :
    cur2 (val_main_v14 (F := Ideal) x0 x1 x2 x3 x4) = relu2 (dense (aggr (node x1) (node x2) (cur2 x0)) (cur2 x3) (cur1 x4)) := by
  funext n o
  rw [cur2_apply, val_main_v14_apply, val_main_v13_apply, val_main_v12_apply, val_main_v11_apply, val_main_v10_apply,
    val_main_call0_v0_apply, val_main_call0_cst_apply]
  -- the bias is read at column o; the product's operands at (n, k) and (k, o)
  have hb : idx_main_v11 (idx_main_v12 (ix2 n o)) = ix1 o := by
    funext a; match a with | ⟨0, _⟩ => rfl
  have hl : ∀ k : Fin 22, lidx_main_v10 (ix2 n o) k = ix2 n k := fun k => by
    funext a; match a with | ⟨0, _⟩ => rfl | ⟨1, _⟩ => rfl
  have hr : ∀ k : Fin 22, ridx_main_v10 (ix2 n o) k = ix2 k o := fun k => by
    funext a; match a with | ⟨0, _⟩ => rfl | ⟨1, _⟩ => rfl
  rw [hb]
  simp only [hl, hr]
  -- entry (n, k) of the scatter-add into the zero table: the sum of x's rows at the sources of the edges into n
  have hs : ∀ k : Fin 22, val_main_v9 (F := Ideal) x0 x1 x2 (ix2 n k)
      = ∑ e ∈ Finset.univ.filter (fun e : Fin 80000 => node x2 e = n), x0 (ix2 (node x1 e) k) := fun k => by
    unfold val_main_v9
    refine (scatter22_apply _ _ _ (node x2) (l1_v8_word x2 h2) n k).trans ?_
    rw [val_main_v7_apply, val_main_cst_apply, Ideal.ofBits_def, Ideal.ofBits_zero_f32, zero_add]
    refine Finset.sum_congr rfl fun e _ => ?_
    unfold val_main_v6
    exact gather22_apply x0 _ e k (node x1 e) (l1_v5_word x1 h1 e)
  simp only [hs]
  rw [Ideal.maximumf_def, Ideal.addf_def, Ideal.ofBits_def, Ideal.ofBits_zero_f32]
  rfl

end Cert.ReferenceIdeal.GCR
end
-- ==== Proof.RefL2.lean ====
/-
  The reference's second layer read as the specification's layer over the first layer's result.
-/
import proofs.«426275_j13812614824123_1_alg».proof.Proof.Gen.ReferenceIdeal.Read
import proofs.«426275_j13812614824123_1_alg».proof.Proof.Spec
import proofs.«426275_j13812614824123_1_alg».proof.Proof.RefIdx

noncomputable section
open scoped BigOperators
namespace Cert.ReferenceIdeal.GCR

open Cert.ReferenceIdeal Cert.ReferenceIdeal.Gen Cert.ReferenceIdeal.Read Idealize.ShloMosaic Idealize.ShloMosaic.ValueIdx GC

/-- A word that is not negative read signed is left alone by "add 10000 if negative". -/
private theorem l2_word (w : BitVec 32) (h : 0 ≤ w.toInt) :
    Scalar.select (IntOp.cmpi .slt w 0#32) (IntOp.addi w 10000#32) w = w := by
  have hc : IntOp.cmpi .slt w 0#32 = 0#1 := by
    unfold IntOp.cmpi
    have hs : w.slt 0#32 = false := by
      simp only [BitVec.slt, BitVec.toInt_zero, decide_eq_false_iff_not, not_lt]
      exact h
    simp only [hs]
    rfl
  rw [hc, select_zero]

/-- The normalized source words, as the column the gather reads: at an in-range word, the word itself. -/
private theorem l2_src (x1 : (⟨S80000, .i32⟩ : BufTy).Contents (Elt Ideal)) (h1 : InRange x1) (e : Fin 80000) :
    (val_main_v20 (F := Ideal) x1 (ix2 e 0)).toInt = ((node x1 e).val : Int) := by
  have hi : idx_main_v20 (ix2 e (0 : Fin 1)) = ix1 e := by
    funext a; match a with | ⟨0, _⟩ => rfl
  rw [val_main_v20_apply, hi, val_main_v19_apply, val_main_v16_apply, val_main_v18_apply, val_main_v15_apply,
    val_main_v17_apply, val_main_c_1_apply, val_main_c_2_apply, l2_word _ (h1 e).1, node_val h1 e]

/-- The destination words as the column the scatter reads. -/
private theorem l2_dst (x2 : (⟨S80000, .i32⟩ : BufTy).Contents (Elt Ideal)) (h2 : InRange x2) (e : Fin 80000) :
    (val_main_v23 (F := Ideal) x2 (ix2 e 0)).toInt = ((node x2 e).val : Int) := by
  have hi : idx_main_v23 (ix2 e (0 : Fin 1)) = ix1 e := by
    funext a; match a with | ⟨0, _⟩ => rfl
  rw [val_main_v23_apply, hi, node_val h2 e]

/-- The scatter-add of the gathered rows into the zero table is the sum-aggregation. -/
private theorem l2_aggr (x0 : (⟨S10000x22, .f32⟩ : BufTy).Contents (Elt Ideal)) (x1 x2 : (⟨S80000, .i32⟩ : BufTy).Contents (Elt Ideal)) (x3 : (⟨S22x1000, .f32⟩ : BufTy).Contents (Elt Ideal)) (x4 : (⟨S1000, .f32⟩ : BufTy).Contents (Elt Ideal)) (h1 : InRange x1) (h2 : InRange x2) (n : Fin 10000) (k : Fin 1000) :
    val_main_v24 (F := Ideal) x0 x1 x2 x3 x4 (ix2 n k)
      = aggr (node x1) (node x2) (cur2 (val_main_v14 (F := Ideal) x0 x1 x2 x3 x4)) n k := by
  unfold val_main_v24 val_main_v21
  generalize val_main_v14 (F := Ideal) x0 x1 x2 x3 x4 = H
  rw [scatter1000_apply _ _ _ (node x2) (l2_dst x2 h2) n k, val_main_v22_apply, val_main_cst_3_apply,
    Ideal.ofBits_def, Ideal.ofBits_zero_f32, zero_add]
  simp only [aggr, cur2_apply]
  refine Finset.sum_congr rfl fun e _ => ?_
  exact gather1000_apply H _ e k (node x1 e) (l2_src x1 h1 e)

theorem layer2 (x0 : (⟨S10000x22, .f32⟩ : BufTy).Contents (Elt Ideal)) (x1 x2 : (⟨S80000, .i32⟩ : BufTy).Contents (Elt Ideal)) (x3 : (⟨S22x1000, .f32⟩ : BufTy).Contents (Elt Ideal)) (x4 : (⟨S1000, .f32⟩ : BufTy).Contents (Elt Ideal)) (x5 : (⟨S1000x1000, .f32⟩ : BufTy).Contents (Elt Ideal)) (x6 : (⟨S1000, .f32⟩ : BufTy).Contents (Elt Ideal)) (h1 : InRange x1) (h2 : InRange x2) :
    cur2 (val_main_v29 (F := Ideal) x0 x1 x2 x3 x4 x5 x6)
      = relu2 (dense (aggr (node x1) (node x2) (cur2 (val_main_v14 (F := Ideal) x0 x1 x2 x3 x4))) (cur2 x5) (cur1 x6)) := by
  funext n o
  have hb : idx_main_v26 (idx_main_v27 (ix2 n o)) = ix1 o := by
    funext a; match a with | ⟨0, _⟩ => rfl
  have hl : ∀ k : Fin 1000, lidx_main_v25 (ix2 n o) k = ix2 n k := fun k => by
    funext a; match a with | ⟨0, _⟩ => rfl | ⟨1, _⟩ => rfl
  have hr : ∀ k : Fin 1000, ridx_main_v25 (ix2 n o) k = ix2 k o := fun k => by
    funext a; match a with | ⟨0, _⟩ => rfl | ⟨1, _⟩ => rfl
  rw [cur2_apply, val_main_v29_apply, val_main_v28_apply, val_main_v25_apply, val_main_v27_apply, val_main_v26_apply,
    hb, val_main_call1_v0_apply, val_main_call1_cst_apply, Ideal.ofBits_def, Ideal.ofBits_zero_f32,
    Ideal.maximumf_def, Ideal.addf_def]
  have hs : (∑ k : Fin 1000, val_main_v24 (F := Ideal) x0 x1 x2 x3 x4 (lidx_main_v25 (ix2 n o) k) * x5 (ridx_main_v25 (ix2 n o) k))
      = ∑ k : Fin 1000, aggr (node x1) (node x2) (cur2 (val_main_v14 (F := Ideal) x0 x1 x2 x3 x4)) n k * cur2 x5 k o :=
    Finset.sum_congr rfl fun k _ => by rw [hl, hr, l2_aggr x0 x1 x2 x3 x4 h1 h2 n k, cur2_apply]
  rw [hs]
  rfl

end Cert.ReferenceIdeal.GCR
end
-- ==== Proof.RefL3.lean ====
/-
  The reference's third layer read as the specification's layer over the second layer's result.
-/
import proofs.«426275_j13812614824123_1_alg».proof.Proof.Gen.ReferenceIdeal.Read
import proofs.«426275_j13812614824123_1_alg».proof.Proof.Spec
import proofs.«426275_j13812614824123_1_alg».proof.Proof.RefIdx

noncomputable section
open scoped BigOperators
namespace Cert.ReferenceIdeal.GCR

open Cert.ReferenceIdeal Cert.ReferenceIdeal.Gen Cert.ReferenceIdeal.Read Idealize.ShloMosaic Idealize.ShloMosaic.ValueIdx GC

/-- A word that is not negative read signed is left alone by "add 10000 if negative". -/
private theorem l3_word (w : BitVec 32) (h : 0 ≤ w.toInt) :
    Scalar.select (IntOp.cmpi .slt w 0#32) (IntOp.addi w 10000#32) w = w := by
  have hc : IntOp.cmpi .slt w 0#32 = 0#1 := by
    unfold IntOp.cmpi
    have hs : w.slt 0#32 = false := by
      simp only [BitVec.slt, BitVec.toInt_zero, decide_eq_false_iff_not, not_lt]
      exact h
    simp only [hs]
    rfl
  rw [hc, select_zero]

/-- The normalized source words, as the column the gather reads: at an in-range word, the word itself. -/
private theorem l3_src (x1 : (⟨S80000, .i32⟩ : BufTy).Contents (Elt Ideal)) (h1 : InRange x1) (e : Fin 80000) :
    (val_main_v35 (F := Ideal) x1 (ix2 e 0)).toInt = ((node x1 e).val : Int) := by
  have hi : idx_main_v35 (ix2 e (0 : Fin 1)) = ix1 e := by
    funext a; match a with | ⟨0, _⟩ => rfl
  rw [val_main_v35_apply, hi, val_main_v34_apply, val_main_v31_apply, val_main_v33_apply, val_main_v30_apply,
    val_main_v32_apply, val_main_c_4_apply, val_main_c_5_apply, l3_word _ (h1 e).1, node_val h1 e]

/-- The destination words as the column the scatter reads. -/
private theorem l3_dst (x2 : (⟨S80000, .i32⟩ : BufTy).Contents (Elt Ideal)) (h2 : InRange x2) (e : Fin 80000) :
    (val_main_v38 (F := Ideal) x2 (ix2 e 0)).toInt = ((node x2 e).val : Int) := by
  have hi : idx_main_v38 (ix2 e (0 : Fin 1)) = ix1 e := by
    funext a; match a with | ⟨0, _⟩ => rfl
  rw [val_main_v38_apply, hi, node_val h2 e]

/-- The scatter-add of the gathered rows into the zero table is the sum-aggregation. -/
private theorem l3_aggr (x0 : (⟨S10000x22, .f32⟩ : BufTy).Contents (Elt Ideal)) (x1 x2 : (⟨S80000, .i32⟩ : BufTy).Contents (Elt Ideal)) (x3 : (⟨S22x1000, .f32⟩ : BufTy).Contents (Elt Ideal)) (x4 : (⟨S1000, .f32⟩ : BufTy).Contents (Elt Ideal)) (x5 : (⟨S1000x1000, .f32⟩ : BufTy).Contents (Elt Ideal)) (x6 : (⟨S1000, .f32⟩ : BufTy).Contents (Elt Ideal)) (h1 : InRange x1) (h2 : InRange x2) (n : Fin 10000) (k : Fin 1000) :
    val_main_v39 (F := Ideal) x0 x1 x2 x3 x4 x5 x6 (ix2 n k)
      = aggr (node x1) (node x2) (cur2 (val_main_v29 (F := Ideal) x0 x1 x2 x3 x4 x5 x6)) n k := by
  unfold val_main_v39 val_main_v36
  generalize val_main_v29 (F := Ideal) x0 x1 x2 x3 x4 x5 x6 = H
  rw [scatter1000_apply _ _ _ (node x2) (l3_dst x2 h2) n k, val_main_v37_apply, val_main_cst_6_apply,
    Ideal.ofBits_def, Ideal.ofBits_zero_f32, zero_add]
  simp only [aggr, cur2_apply]
  refine Finset.sum_congr rfl fun e _ => ?_
  exact gather1000_apply H _ e k (node x1 e) (l3_src x1 h1 e)

theorem layer3 (x0 : (⟨S10000x22, .f32⟩ : BufTy).Contents (Elt Ideal)) (x1 x2 : (⟨S80000, .i32⟩ : BufTy).Contents (Elt Ideal)) (x3 : (⟨S22x1000, .f32⟩ : BufTy).Contents (Elt Ideal)) (x4 : (⟨S1000, .f32⟩ : BufTy).Contents (Elt Ideal)) (x5 : (⟨S1000x1000, .f32⟩ : BufTy).Contents (Elt Ideal)) (x6 : (⟨S1000, .f32⟩ : BufTy).Contents (Elt Ideal)) (x7 : (⟨S1000x1000, .f32⟩ : BufTy).Contents (Elt Ideal)) (x8 : (⟨S1000, .f32⟩ : BufTy).Contents (Elt Ideal)) (h1 : InRange x1) (h2 : InRange x2) :
    cur2 (val_main_v44 (F := Ideal) x0 x1 x2 x3 x4 x5 x6 x7 x8)
      = relu2 (dense (aggr (node x1) (node x2) (cur2 (val_main_v29 (F := Ideal) x0 x1 x2 x3 x4 x5 x6))) (cur2 x7) (cur1 x8)) := by
  funext n o
  have hb : idx_main_v41 (idx_main_v42 (ix2 n o)) = ix1 o := by
    funext a; match a with | ⟨0, _⟩ => rfl
  have hl : ∀ k : Fin 1000, lidx_main_v40 (ix2 n o) k = ix2 n k := fun k => by
    funext a; match a with | ⟨0, _⟩ => rfl | ⟨1, _⟩ => rfl
  have hr : ∀ k : Fin 1000, ridx_main_v40 (ix2 n o) k = ix2 k o := fun k => by
    funext a; match a with | ⟨0, _⟩ => rfl | ⟨1, _⟩ => rfl
  rw [cur2_apply, val_main_v44_apply, val_main_v43_apply, val_main_v40_apply, val_main_v42_apply, val_main_v41_apply,
    hb, val_main_call2_v0_apply, val_main_call2_cst_apply, Ideal.ofBits_def, Ideal.ofBits_zero_f32,
    Ideal.maximumf_def, Ideal.addf_def]
  have hs : (∑ k : Fin 1000, val_main_v39 (F := Ideal) x0 x1 x2 x3 x4 x5 x6 (lidx_main_v40 (ix2 n o) k) * x7 (ridx_main_v40 (ix2 n o) k))
      = ∑ k : Fin 1000, aggr (node x1) (node x2) (cur2 (val_main_v29 (F := Ideal) x0 x1 x2 x3 x4 x5 x6)) n k * cur2 x7 k o :=
    Finset.sum_congr rfl fun k _ => by rw [hl, hr, l3_aggr x0 x1 x2 x3 x4 x5 x6 h1 h2 n k, cur2_apply]
  rw [hs]
  rfl

end Cert.ReferenceIdeal.GCR
end
-- ==== Proof.RefL4.lean ====
/-
  The reference's last layer, on the reversed graph (rows gathered at the edges' targets, scattered into their
  sources) and with no activation, read as the specification's layer over the third layer's result.
-/
import proofs.«426275_j13812614824123_1_alg».proof.Proof.Gen.ReferenceIdeal.Read
import proofs.«426275_j13812614824123_1_alg».proof.Proof.Spec
import proofs.«426275_j13812614824123_1_alg».proof.Proof.RefIdx

noncomputable section
open scoped BigOperators
namespace Cert.ReferenceIdeal.GCR

open Cert.ReferenceIdeal Cert.ReferenceIdeal.Gen Cert.ReferenceIdeal.Read Idealize.ShloMosaic Idealize.ShloMosaic.ValueIdx GC

/-- A word that is non-negative read signed is not below zero. -/
private theorem l4_slt_zero (w : BitVec 32) (h : 0 ≤ w.toInt) : IntOp.cmpi .slt w 0#32 = 0#1 := by
  have hs : w.slt 0#32 = false := by
    simp only [BitVec.slt, BitVec.toInt_zero, decide_eq_false_iff_not, not_lt]; exact h
  show BitVec.ofBool (w.slt 0#32) = 0#1
  rw [hs]; rfl

/-- The normalised target word of an in-range edge list is the word itself. -/
private theorem l4_v50_word (x2 : (⟨S80000, .i32⟩ : BufTy).Contents (Elt Ideal)) (h2 : InRange x2) (e : Fin 80000) :
    (val_main_v50 (F := Ideal) x2 (ix2 e 0)).toInt = ((node x2 e).val : Int) := by
  rw [val_main_v50_apply]
  have hi : idx_main_v50 (ix2 e (0 : Fin 1)) = ix1 e := by
    funext a; match a with | ⟨0, _⟩ => rfl
  rw [hi, val_main_v49_apply, val_main_v46_apply, val_main_v45_apply, val_main_c_7_apply, l4_slt_zero _ (h2 e).1, select_zero]
  exact (node_val h2 e).symm

/-- The source word of an in-range edge list, read in the one-column index table, names the edge's source node. -/
private theorem l4_v53_word (x1 : (⟨S80000, .i32⟩ : BufTy).Contents (Elt Ideal)) (h1 : InRange x1) (e : Fin 80000) :
    (val_main_v53 (F := Ideal) x1 (ix2 e 0)).toInt = ((node x1 e).val : Int) := by
  rw [val_main_v53_apply]
  have hi : idx_main_v53 (ix2 e (0 : Fin 1)) = ix1 e := by
    funext a; match a with | ⟨0, _⟩ => rfl
  rw [hi]
  exact (node_val h1 e).symm

theorem layer4 (x0 : (⟨S10000x22, .f32⟩ : BufTy).Contents (Elt Ideal)) (x1 x2 : (⟨S80000, .i32⟩ : BufTy).Contents (Elt Ideal)) (x3 : (⟨S22x1000, .f32⟩ : BufTy).Contents (Elt Ideal)) (x4 : (⟨S1000, .f32⟩ : BufTy).Contents (Elt Ideal)) (x5 : (⟨S1000x1000, .f32⟩ : BufTy).Contents (Elt Ideal)) (x6 : (⟨S1000, .f32⟩ : BufTy).Contents (Elt Ideal)) (x7 : (⟨S1000x1000, .f32⟩ : BufTy).Contents (Elt Ideal)) (x8 : (⟨S1000, .f32⟩ : BufTy).Contents (Elt Ideal)) (x9 : (⟨S1000x20, .f32⟩ : BufTy).Contents (Elt Ideal)) (x10 : (⟨S20, .f32⟩ : BufTy).Contents (Elt Ideal)) (h1 : InRange x1) (h2 : InRange x2) :
    cur2 (val_main_v58 (F := Ideal) x0 x1 x2 x3 x4 x5 x6 x7 x8 x9 x10)
      = dense (aggr (node x2) (node x1) (cur2 (val_main_v44 (F := Ideal) x0 x1 x2 x3 x4 x5 x6 x7 x8))) (cur2 x9) (cur1 x10) := by
  funext n o
  rw [cur2_apply, val_main_v58_apply, val_main_v57_apply, val_main_v56_apply, val_main_v55_apply]
  -- the bias is read at column o; the product's operands at (n, k) and (k, o)
  have hb : idx_main_v56 (idx_main_v57 (ix2 n o)) = ix1 o := by
    funext a; match a with | ⟨0, _⟩ => rfl
  have hl : ∀ k : Fin 1000, lidx_main_v55 (ix2 n o) k = ix2 n k := fun k => by
    funext a; match a with | ⟨0, _⟩ => rfl | ⟨1, _⟩ => rfl
  have hr : ∀ k : Fin 1000, ridx_main_v55 (ix2 n o) k = ix2 k o := fun k => by
    funext a; match a with | ⟨0, _⟩ => rfl | ⟨1, _⟩ => rfl
  rw [hb]
  simp only [hl, hr]
  -- entry (n, k) of the scatter-add into the zero table: the sum of H's rows at the targets of the edges out of n
  have hs : ∀ k : Fin 1000, val_main_v54 (F := Ideal) x0 x1 x2 x3 x4 x5 x6 x7 x8 (ix2 n k)
      = ∑ e ∈ Finset.univ.filter (fun e : Fin 80000 => node x1 e = n),
          val_main_v44 (F := Ideal) x0 x1 x2 x3 x4 x5 x6 x7 x8 (ix2 (node x2 e) k) := fun k => by
    unfold val_main_v54 val_main_v51
    generalize val_main_v44 (F := Ideal) x0 x1 x2 x3 x4 x5 x6 x7 x8 = H
    refine (scatter1000_apply _ _ _ (node x1) (l4_v53_word x1 h1) n k).trans ?_
    rw [val_main_v52_apply, val_main_cst_9_apply, Ideal.ofBits_def, Ideal.ofBits_zero_f32, zero_add]
    refine Finset.sum_congr rfl fun e _ => ?_
    exact gather1000_apply H _ e k (node x2 e) (l4_v50_word x2 h2 e)
  simp only [hs]
  rw [Ideal.addf_def]
  rfl

end Cert.ReferenceIdeal.GCR
end
-- ==== Proof.RefValue.lean ====
/-
  The reference's result is the network of the specification: its four layers in order.
-/
import proofs.«426275_j13812614824123_1_alg».proof.Proof.Gen.ReferenceIdeal.Read
import proofs.«426275_j13812614824123_1_alg».proof.Proof.Spec
import proofs.«426275_j13812614824123_1_alg».proof.Proof.RefL1
import proofs.«426275_j13812614824123_1_alg».proof.Proof.RefL2
import proofs.«426275_j13812614824123_1_alg».proof.Proof.RefL3
import proofs.«426275_j13812614824123_1_alg».proof.Proof.RefL4

noncomputable section
open scoped BigOperators
namespace Cert.ReferenceIdeal.GCR

open Cert.ReferenceIdeal Cert.ReferenceIdeal.Gen Cert.ReferenceIdeal.Read Idealize.ShloMosaic Idealize.ShloMosaic.ValueIdx GC

theorem ref_value (x0 : (⟨S10000x22, .f32⟩ : BufTy).Contents (Elt Ideal)) (x1 x2 : (⟨S80000, .i32⟩ : BufTy).Contents (Elt Ideal)) (x3 : (⟨S22x1000, .f32⟩ : BufTy).Contents (Elt Ideal)) (x4 : (⟨S1000, .f32⟩ : BufTy).Contents (Elt Ideal)) (x5 : (⟨S1000x1000, .f32⟩ : BufTy).Contents (Elt Ideal)) (x6 : (⟨S1000, .f32⟩ : BufTy).Contents (Elt Ideal)) (x7 : (⟨S1000x1000, .f32⟩ : BufTy).Contents (Elt Ideal)) (x8 : (⟨S1000, .f32⟩ : BufTy).Contents (Elt Ideal)) (x9 : (⟨S1000x20, .f32⟩ : BufTy).Contents (Elt Ideal)) (x10 : (⟨S20, .f32⟩ : BufTy).Contents (Elt Ideal)) (h1 : InRange x1) (h2 : InRange x2) :
    cur2 (val_main_v58 (F := Ideal) x0 x1 x2 x3 x4 x5 x6 x7 x8 x9 x10)
      = net (node x1) (node x2) (cur2 x0) (cur2 x3) (cur1 x4) (cur2 x5) (cur1 x6) (cur2 x7) (cur1 x8) (cur2 x9) (cur1 x10) := by
  rw [layer4 x0 x1 x2 x3 x4 x5 x6 x7 x8 x9 x10 h1 h2, layer3 x0 x1 x2 x3 x4 x5 x6 x7 x8 h1 h2, layer2 x0 x1 x2 x3 x4 x5 x6 h1 h2,
    layer1 x0 x1 x2 x3 x4 h1 h2]
  rfl

end Cert.ReferenceIdeal.GCR
end
-- ==== Proof.Math1.lean ====
/-
  Aggregation through the table of edge counts. With cnt r c the number of edges from column c to row r, the
  matrix product of the count table with any table H sums, for each row r, the rows of H at the sources of the
  edges into r; the transposed product sums the rows of H at the targets of the edges out of a column. Only the
  commutative-monoid laws of the extended reals, 0 · x = 0, and (a + b) · x = a · x + b · x for 0 ≤ a, b are used.
-/
import proofs.«426275_j13812614824123_1_alg».proof.Proof.Spec
import Mathlib.Data.EReal.Operations
import Mathlib.Algebra.BigOperators.Group.Finset.Basic
import Mathlib.Algebra.Order.BigOperators.Group.Finset

noncomputable section
open scoped BigOperators
namespace GC

/-- A sum of ones times x is the sum of as many copies of x: the partial sums of ones are nonnegative, so the
    product distributes over them even when x is infinite. -/
private theorem math1_ones_mul {ι : Type} (S : Finset ι) (x : EReal) :
    (∑ _e ∈ S, (1 : EReal)) * x = ∑ _e ∈ S, x := by
  classical
  induction S using Finset.induction_on with
  | empty => simp
  | insert a S ha ih =>
    rw [Finset.sum_insert ha, Finset.sum_insert ha,
      EReal.right_distrib_of_nonneg zero_le_one (Finset.sum_nonneg (fun _ _ => zero_le_one)), one_mul, ih]

/-- Regrouping: summing over all columns c the entries f e of the edges in T whose image g e is c gives the sum
    over T. The count-table product is this with the entry H c k written H (g e) k on the fibre g e = c. -/
private theorem math1_regroup {E NP K : Nat} (p : Fin E → Prop) [DecidablePred p] (g : Fin E → Fin NP)
    (H : Fin NP → Fin K → EReal) (k : Fin K) :
    (∑ c : Fin NP, (∑ _e ∈ Finset.univ.filter (fun e => p e ∧ (g e).val = c.val), (1 : EReal)) * H c k)
      = ∑ e ∈ Finset.univ.filter (fun e => p e), H (g e) k := by
  rw [← Finset.sum_fiberwise_of_maps_to (s := Finset.univ.filter (fun e => p e)) (t := Finset.univ) (g := g)
    (fun _ _ => Finset.mem_univ _) (fun e => H (g e) k)]
  refine Finset.sum_congr rfl (fun c _ => ?_)
  rw [math1_ones_mul, Finset.filter_filter]
  refine Finset.sum_congr ?_ ?_
  · ext e
    simp only [Finset.mem_filter, Finset.mem_univ, true_and, Fin.ext_iff]
  · intro e he
    simp only [Finset.mem_filter, Finset.mem_univ, true_and] at he
    rw [he.2]

/-- Row r of cnt · H is the sum of H's rows at the sources of the edges into r. -/
theorem mm_cnt {E N NP K : Nat} (hN : N ≤ NP) (s d : Fin E → Fin N) (H : Fin NP → Fin K → EReal) (r : Fin NP) (k : Fin K) :
    mm (cnt NP s d) H r k = ∑ e ∈ Finset.univ.filter (fun e => (d e).val = r.val), H ⟨(s e).val, by have := (s e).isLt; omega⟩ k := by
  exact math1_regroup (fun e => (d e).val = r.val) (fun e => ⟨(s e).val, by have := (s e).isLt; omega⟩) H k

/-- Row c of cntᵀ · H is the sum of H's rows at the targets of the edges out of c. -/
theorem mmT_cnt {E N NP K : Nat} (hN : N ≤ NP) (s d : Fin E → Fin N) (H : Fin NP → Fin K → EReal) (c : Fin NP) (k : Fin K) :
    mmT (cnt NP s d) H c k = ∑ e ∈ Finset.univ.filter (fun e => (s e).val = c.val), H ⟨(d e).val, by have := (d e).isLt; omega⟩ k := by
  have h := math1_regroup (fun e => (s e).val = c.val) (fun e => (⟨(d e).val, by have := (d e).isLt; omega⟩ : Fin NP)) H k
  rw [← h]
  unfold mmT cnt
  refine Finset.sum_congr rfl (fun r _ => ?_)
  congr 2
  ext e
  simp only [Finset.mem_filter, Finset.mem_univ, true_and]
  exact and_comm

end GC
end
-- ==== Proof.Math.lean ====
/-
  The dense, padded computation is the network. Padding rows of a count table are zero (no edge names a padded
  node), padded rows of a weight table are zero, so every padded term of every product vanishes, and on the
  unpadded rows and columns each dense layer is the sum-aggregation layer.
-/
import proofs.«426275_j13812614824123_1_alg».proof.Proof.Math1

noncomputable section
open scoped BigOperators
namespace GC

/-- The padded table Xp carries X on its unpadded rows and columns (its other entries are unconstrained). -/
private def MathAgree {M MP K KP : Nat} (hM : M ≤ MP) (hK : K ≤ KP)
    (Xp : Fin MP → Fin KP → EReal) (X : Fin M → Fin K → EReal) : Prop :=
  ∀ (n : Fin M) (k : Fin K), Xp (Fin.castLE hM n) (Fin.castLE hK k) = X n k

/-- A sum over a padded range whose padded terms vanish is the sum over the unpadded range. -/
private theorem math_sum_castLE {K KP : Nat} (hK : K ≤ KP) (f : Fin KP → EReal)
    (hf : ∀ k : Fin KP, K ≤ k.val → f k = 0) : ∑ k, f k = ∑ k : Fin K, f (Fin.castLE hK k) := by
  rw [← Finset.sum_subset (Finset.subset_univ (Finset.univ.image (Fin.castLE hK)))]
  · rw [Finset.sum_image]
    intro a _ b _ hab
    exact Fin.castLE_injective hK hab
  · intro k _ hk
    apply hf
    by_contra h
    exact hk (Finset.mem_image.mpr ⟨⟨k.val, by omega⟩, Finset.mem_univ _, Fin.ext rfl⟩)

/-- A zero-padded table carries the table it pads. -/
private theorem math_pad2_agree {a b A B : Nat} (hA : a ≤ A) (hB : b ≤ B) (X : Fin a → Fin b → EReal) :
    MathAgree hA hB (pad2 A B X) X := by
  intro n k
  unfold pad2
  exact dif_pos (show (Fin.castLE hA n).val < a ∧ (Fin.castLE hB k).val < b from ⟨n.isLt, k.isLt⟩)

/-- max · 0 entry by entry keeps the unpadded part. -/
private theorem math_relu_agree {M MP K KP : Nat} (hM : M ≤ MP) (hK : K ≤ KP)
    (Xp : Fin MP → Fin KP → EReal) (X : Fin M → Fin K → EReal) (hX : MathAgree hM hK Xp X) :
    MathAgree hM hK (relu2 Xp) (relu2 X) := by
  intro n k
  show max (Xp (Fin.castLE hM n) (Fin.castLE hK k)) 0 = max (X n k) 0
  rw [hX n k]

/-- The affine map with zero-padded weights and bias: the padded terms of each inner sum vanish. -/
private theorem math_dense_agree {M MP K KP O OP : Nat} (hM : M ≤ MP) (hK : K ≤ KP) (hO : O ≤ OP)
    (Xp : Fin MP → Fin KP → EReal) (X : Fin M → Fin K → EReal) (hX : MathAgree hM hK Xp X)
    (W : Fin K → Fin O → EReal) (b : Fin O → EReal) :
    MathAgree hM hO (dense Xp (pad2 KP OP W) (pad1 OP b)) (dense X W b) := by
  intro n o
  show (∑ k, Xp (Fin.castLE hM n) k * pad2 KP OP W k (Fin.castLE hO o)) + pad1 OP b (Fin.castLE hO o)
      = (∑ k, X n k * W k o) + b o
  congr 1
  · rw [math_sum_castLE hK]
    · refine Finset.sum_congr rfl ?_
      intro k _
      rw [hX n k, math_pad2_agree hK hO W k o]
    · intro k hk
      have hz : pad2 KP OP W k (Fin.castLE hO o) = 0 := by
        unfold pad2
        exact dif_neg (fun h => absurd h.1 (by omega))
      rw [hz, mul_zero]
  · unfold pad1
    exact dif_pos (show (Fin.castLE hO o).val < O from o.isLt)

/-- The product with the count table is sum-aggregation over the edges into each node. -/
private theorem math_mm_agree {E K KP : Nat} (hK : K ≤ KP) (s d : Fin E → Fin 10000)
    (Hp : Fin 10240 → Fin KP → EReal) (H : Fin 10000 → Fin K → EReal)
    (hH : MathAgree (by norm_num : 10000 ≤ 10240) hK Hp H) :
    MathAgree (by norm_num : 10000 ≤ 10240) hK (mm (cnt 10240 s d) Hp) (aggr s d H) := by
  intro n k
  rw [mm_cnt (by norm_num : 10000 ≤ 10240)]
  unfold aggr
  refine Finset.sum_congr ?_ ?_
  · ext e
    simp only [Finset.mem_filter, Finset.mem_univ, true_and, Fin.coe_castLE, Fin.ext_iff]
  · intro e _
    exact hH (s e) k

/-- The transposed product with the count table is sum-aggregation over the reversed graph. -/
private theorem math_mmT_agree {E K KP : Nat} (hK : K ≤ KP) (s d : Fin E → Fin 10000)
    (Hp : Fin 10240 → Fin KP → EReal) (H : Fin 10000 → Fin K → EReal)
    (hH : MathAgree (by norm_num : 10000 ≤ 10240) hK Hp H) :
    MathAgree (by norm_num : 10000 ≤ 10240) hK (mmT (cnt 10240 s d) Hp) (aggr d s H) := by
  intro n k
  rw [mmT_cnt (by norm_num : 10000 ≤ 10240)]
  unfold aggr
  refine Finset.sum_congr ?_ ?_
  · ext e
    simp only [Finset.mem_filter, Finset.mem_univ, true_and, Fin.coe_castLE, Fin.ext_iff]
  · intro e _
    exact hH (d e) k

theorem netK_eq_net {E : Nat} (s d : Fin E → Fin 10000) (x : Fin 10000 → Fin 22 → EReal)
    (W1 : Fin 22 → Fin 1000 → EReal) (b1 : Fin 1000 → EReal) (W2 : Fin 1000 → Fin 1000 → EReal) (b2 : Fin 1000 → EReal)
    (W3 : Fin 1000 → Fin 1000 → EReal) (b3 : Fin 1000 → EReal) (W4 : Fin 1000 → Fin 20 → EReal) (b4 : Fin 20 → EReal) :
    netK s d x W1 b1 W2 b2 W3 b3 W4 b4 = net s d x W1 b1 W2 b2 W3 b3 W4 b4 := by
  have hN : (10000 : Nat) ≤ 10240 := by norm_num
  have h22 : (22 : Nat) ≤ 128 := by norm_num
  have h1000 : (1000 : Nat) ≤ 1024 := by norm_num
  have h20 : (20 : Nat) ≤ 128 := by norm_num
  have a0 := math_pad2_agree hN h22 x
  have a1 := math_relu_agree hN h1000 _ _
    (math_dense_agree hN h22 h1000 _ _ (math_mm_agree h22 s d _ _ a0) W1 b1)
  have a2 := math_relu_agree hN h1000 _ _
    (math_dense_agree hN h1000 h1000 _ _ (math_mm_agree h1000 s d _ _ a1) W2 b2)
  have a3 := math_relu_agree hN h1000 _ _
    (math_dense_agree hN h1000 h1000 _ _ (math_mm_agree h1000 s d _ _ a2) W3 b3)
  have a4 := math_dense_agree hN h1000 h20 _ _ (math_mmT_agree h1000 s d _ _ a3) W4 b4
  funext n j
  exact a4 n j

end GC
end
-- ==== Proof.PreDecode.lean ====
/-
  What the precondition says of the two edge lists: each of its last four conjuncts is an all-reduction of a signed
  comparison of every index word with 0 or with 10000, so where the precondition holds every word of both lists is
  a node number.
-/
import proofs.«426275_j13812614824123_1_alg».proof.Pre_finite_inputs
import proofs.«426275_j13812614824123_1_alg».proof.Proof.Gen.Pre_finite_inputs
import proofs.«426275_j13812614824123_1_alg».proof.Proof.Spec
import Idealize.ShloMosaic.Lib.ReduceAll
import Idealize.ShloMosaic.Lib.StableHlo.Predicate

noncomputable section
namespace Cert.Pre_finite_inputs.GCP

open Cert.Pre_finite_inputs Idealize.ShloMosaic Idealize.ShloMosaic.ValueIdx GC

/-- The rank-0 shape has one index. -/
private instance preDecode_subsingleton : Subsingleton S_.Idx := ⟨fun a b => funext fun d => d.elim0⟩

/-- A word compared signed with a constant spread over the list: not below it. -/
private theorem preDecode_sge {t : Shape} (hb : S_.BroadcastsInDim t (![] : Fin 0 → Fin t.rank)) (x : IVec t 32) (c : BitVec 32) (j : t.Idx)
    (h : cmpi .sge x (broadcastInDim t ![] hb (constantI S_ 32 c)) j = 1#1) : c.toInt ≤ (x j).toInt :=
  IntOp.cmpi_sge.1 h

/-- A word compared signed with a constant spread over the list: below it. -/
private theorem preDecode_slt {t : Shape} (hb : S_.BroadcastsInDim t (![] : Fin 0 → Fin t.rank)) (x : IVec t 32) (c : BitVec 32) (j : t.Idx)
    (h : cmpi .slt x (broadcastInDim t ![] hb (constantI S_ 32 c)) j = 1#1) : (x j).toInt < c.toInt :=
  IntOp.cmpi_slt.1 h

theorem inRange_of_pre [Cert.Pre_finite_inputs.Facts] (x0 : FVec Ideal S10000x22 .f32) (x1 x2 : IVec S80000 32) (x3 : FVec Ideal S22x1000 .f32) (x4 : FVec Ideal S1000 .f32)
    (x5 : FVec Ideal S1000x1000 .f32) (x6 : FVec Ideal S1000 .f32) (x7 : FVec Ideal S1000x1000 .f32) (x8 : FVec Ideal S1000 .f32)
    (x9 : FVec Ideal S1000x20 .f32) (x10 : FVec Ideal S20 .f32)
    (h : Cert.Pre_finite_inputs.fn (F := Ideal) x0 x1 x2 x3 x4 x5 x6 x7 x8 x9 x10 = (fun _ => 1#1)) :
    InRange x1 ∧ InRange x2 := by
  have e := congrFun h ValueIdx.ix0
  dsimp only [fn, fn_part1, fn_part2, fn_part3] at e
  obtain ⟨e3, h2b⟩ := IntOp.andi_eq_one.1 e
  obtain ⟨e2, h2a⟩ := IntOp.andi_eq_one.1 e3
  obtain ⟨e1, h1b⟩ := IntOp.andi_eq_one.1 e2
  obtain ⟨-, h1a⟩ := IntOp.andi_eq_one.1 e1
  clear e e3 e2 e1
  have z0 : (0#32 : BitVec 32).toInt = 0 := by decide
  have z1 : (10000#32 : BitVec 32).toInt = 10000 := by decide
  refine ⟨fun i => ⟨?_, ?_⟩, fun i => ⟨?_, ?_⟩⟩
  · have := preDecode_sge _ x1 _ (ix1 i) (Host.reduce_andi_all _ _ _ _ _ h1a (ix1 i))
    rw [z0] at this; exact this
  · have := preDecode_slt _ x1 _ (ix1 i) (Host.reduce_andi_all _ _ _ _ _ h1b (ix1 i))
    rw [z1] at this; exact this
  · have := preDecode_sge _ x2 _ (ix1 i) (Host.reduce_andi_all _ _ _ _ _ h2a (ix1 i))
    rw [z0] at this; exact this
  · have := preDecode_slt _ x2 _ (ix1 i) (Host.reduce_andi_all _ _ _ _ _ h2b (ix1 i))
    rw [z1] at this; exact this

end Cert.Pre_finite_inputs.GCP
end
-- ==== Proof.Bridge.lean ====
/-
  The two results are one array. Under the precondition both edge lists hold node numbers; then the kernel's result
  buffer, read at the last boundary of its run, is the dense padded computation of the specification, the reference's
  result stage is the network of the specification, and the two specifications agree (Proof/Math.lean). Two rank-2
  arrays that agree through their two coordinates are equal.
-/
import proofs.«426275_j13812614824123_1_alg».proof.Defs
import proofs.«426275_j13812614824123_1_alg».proof.Proof.KValue
import proofs.«426275_j13812614824123_1_alg».proof.Proof.RefValue
import proofs.«426275_j13812614824123_1_alg».proof.Proof.Math
import proofs.«426275_j13812614824123_1_alg».proof.Proof.PreDecode

set_option maxRecDepth 16384
noncomputable section

namespace Cert.Proof.Bridge

open Idealize.ShloMosaic Idealize.SL.Sem Idealize.ShloMosaic.ValueIdx GC

/-- A rank-2 array is determined by its reading through two coordinates. -/
theorem eq_of_cur2 {α : Type} {a b : Nat} {v w : (⟨2, ![a, b]⟩ : Shape).Idx → α} (h : cur2 v = cur2 w) : v = w := by
  funext i
  rw [eq_ix2 i]
  exact congrFun (congrFun h (i 0)) (i 1)

/-- Where the precondition holds and the two memories agree on the arguments, the reference's result stage is the
    kernel's result buffer at the end of its run. -/
theorem result_eq [hKernelIdeal : Cert.KernelIdeal.Facts] [hReferenceIdeal : Cert.ReferenceIdeal.Facts] [hPre : Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = (fun _ => 1#1))
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) :
    Cert.ReferenceIdeal.Value.res_main_v58 m' c = Cert.KernelIdeal.Gen.W31 (F := Ideal) m ρ c (Proc.devRef .tc Cert.KernelIdeal.main_v43) := by
  obtain ⟨e0, e1, e2, e3, e4, e5, e6, e7, e8, e9, e10⟩ := hagree
  obtain ⟨h1, h2⟩ := Cert.Pre_finite_inputs.GCP.inRange_of_pre _ _ _ _ _ _ _ _ _ _ _ hpre
  rw [Cert.ReferenceIdeal.Read.val_main_v58_eq m' c, e0, e1, e2, e3, e4, e5, e6, e7, e8, e9, e10]
  refine eq_of_cur2 ?_
  rw [Cert.ReferenceIdeal.GCR.ref_value _ _ _ _ _ _ _ _ _ _ _ h1 h2, Cert.KernelIdeal.GCK.kernel_value m ρ c h1 h2, netK_eq_net]

end Cert.Proof.Bridge
end
-- ==== Proof.lean ====
/-
  The certificate. A graph network of four sum-aggregation layers over 80000 edges and 10000 nodes (the last layer
  on the reversed graph, without activation), computed by a kernel as dense matrix products with a padded table of
  edge counts, against the reference's row gathers and row scatter-adds. Over the extended reals the two are one
  function of the arguments wherever both edge lists hold node numbers in [0, 10000): that is the precondition's
  added conjunct; no finiteness of the float arguments is used.
  The three frames: the kernel's two are the generated frame certificates; the reference's is its generated run with
  the result dropped. The idealisation rewrote nothing, so the preservation claim is trivial. The value claim joins
  the kernel's run with its result named (Proof/KRun.lean), the reference's generated run, and the equality of the
  two results (Proof/Bridge.lean).
-/
import proofs.«426275_j13812614824123_1_alg».proof.Defs
import proofs.«426275_j13812614824123_1_alg».proof.Proof.Gen.Kernel
import proofs.«426275_j13812614824123_1_alg».proof.Proof.Gen.Kernel.Skeleton
import proofs.«426275_j13812614824123_1_alg».proof.Proof.Gen.Kernel.Launch
import proofs.«426275_j13812614824123_1_alg».proof.Proof.Gen.Kernel.Points
import proofs.«426275_j13812614824123_1_alg».proof.Proof.Gen.Kernel.Frame
import proofs.«426275_j13812614824123_1_alg».proof.Proof.Gen.KernelIdeal
import proofs.«426275_j13812614824123_1_alg».proof.Proof.Gen.KernelIdeal.Skeleton
import proofs.«426275_j13812614824123_1_alg».proof.Proof.Gen.KernelIdeal.Launch
import proofs.«426275_j13812614824123_1_alg».proof.Proof.Gen.KernelIdeal.Points
import proofs.«426275_j13812614824123_1_alg».proof.Proof.Gen.KernelIdeal.Frame
import proofs.«426275_j13812614824123_1_alg».proof.Proof.Gen.ReferenceIdeal
import proofs.«426275_j13812614824123_1_alg».proof.Proof.Gen.Pre_finite_inputs
import proofs.«426275_j13812614824123_1_alg».proof.Proof.Gen.ReferenceIdeal.Run
import proofs.«426275_j13812614824123_1_alg».proof.Proof.Gen.ReferenceIdeal.Read
import proofs.«426275_j13812614824123_1_alg».proof.Proof.KRun
import proofs.«426275_j13812614824123_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => Cert.KernelIdeal.Gen.W31 (F := Ideal) m ρ c (Proc.devRef .tc Cert.KernelIdeal.main_v43),
     Cert.KernelIdeal.Gen.run_result (F := Ideal) m ρ,
     (θ_run Cert.ReferenceIdeal.defs _ _).mono
       (fun _ h c => ⟨(h c).1.trans (Cert.Proof.Bridge.result_eq m ρ m' c (hpre c) (hagree c)), (h c).2⟩)
       (Cert.ReferenceIdeal.Value.run (F := Ideal) m' ρ')⟩⟩

end Cert.Proof

end
